-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v243) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2x128x128x128 : Shape := ⟨5, ![2, 2, 128, 128, 128]⟩
abbrev S2x1x128x128x128 : Shape := ⟨5, ![2, 1, 128, 128, 128]⟩
abbrev S_ : Shape := ⟨0, ![]⟩

class Facts : Prop where
  bcast_S_S2x2x128x128x128 : S_.BroadcastsInDim S2x2x128x128x128 (![] : Fin 0 → Fin S2x2x128x128x128.rank)
  reducesTo_S2x2x128x128x128_S_d0_1_2_3_4 : S2x2x128x128x128.ReducesTo [0, 1, 2, 3, 4] S_
  h_S_ : 0 < S_.numel
  bcast_S_S2x1x128x128x128 : S_.BroadcastsInDim S2x1x128x128x128 (![] : Fin 0 → Fin S2x1x128x128x128.rank)
  reducesTo_S2x1x128x128x128_S_d0_1_2_3_4 : S2x1x128x128x128.ReducesTo [0, 1, 2, 3, 4] S_

variable [Facts]

def fn {F : FTy → Type} [FloatOps F] (main_arg0 : FVec F S2x2x128x128x128 .f32) (main_arg1 : IVec S2x1x128x128x128 32) (main_arg2 : IVec S2x1x128x128x128 32) : IVec S_ 1 :=
  let main_v0 : FVec F S2x2x128x128x128 .f32 := Host.absf main_arg0
  let main_cst : FVec F S_ .f32 := constant S_ .f32 0x7F800000#32
  let main_v1 : FVec F S2x2x128x128x128 .f32 := broadcastInDim S2x2x128x128x128 ![] bcast_S_S2x2x128x128x128 main_cst
  let main_v2 : IVec S2x2x128x128x128 1 := cmpf .olt main_v0 main_v1
  let main_c : IVec S_ 1 := constantI S_ 1 1#1
  let main_v3 : IVec S_ 1 := (fun x v => Host.reduce IntOp.andi x v reducesTo_S2x2x128x128x128_S_d0_1_2_3_4 h_S_) main_v2 main_c
  let main_c_0 : IVec S_ 32 := constantI S_ 32 0#32
  let main_v4 : IVec S2x1x128x128x128 32 := broadcastInDim S2x1x128x128x128 ![] bcast_S_S2x1x128x128x128 main_c_0
  let main_v5 : IVec S2x1x128x128x128 1 := cmpi .eq main_arg1 main_v4
  let main_c_1 : IVec S_ 32 := constantI S_ 32 1#32
  let main_v6 : IVec S2x1x128x128x128 32 := broadcastInDim S2x1x128x128x128 ![] bcast_S_S2x1x128x128x128 main_c_1
  let main_v7 : IVec S2x1x128x128x128 1 := cmpi .eq main_arg1 main_v6
  let main_v8 : IVec S2x1x128x128x128 1 := ori main_v5 main_v7
  let main_c_2 : IVec S_ 1 := constantI S_ 1 1#1
  let main_v9 : IVec S_ 1 := (fun x v => Host.reduce IntOp.andi x v reducesTo_S2x1x128x128x128_S_d0_1_2_3_4 h_S_) main_v8 main_c_2
  let main_v10 : IVec S_ 1 := andi main_v3 main_v9
  main_v10
-- ==== Kernel.lean ====
abbrev S2x2x128x128x128 : Shape := ⟨5, ![2, 2, 128, 128, 128]⟩
abbrev S2x1x128x128x128 : Shape := ⟨5, ![2, 1, 128, 128, 128]⟩
abbrev S2x2x6 : Shape := ⟨3, ![2, 2, 6]⟩
abbrev S1x2x16x128x128 : Shape := ⟨5, ![1, 2, 16, 128, 128]⟩
abbrev S1x1x16x128x128 : Shape := ⟨5, ![1, 1, 16, 128, 128]⟩
abbrev S1x2x6 : Shape := ⟨3, ![1, 2, 6]⟩
abbrev S2048x128 : Shape := ⟨2, ![2048, 128]⟩
abbrev S2048 : Shape := ⟨1, ![2048]⟩
abbrev S2048x1 : Shape := ⟨2, ![2048, 1]⟩
abbrev S1 : Shape := ⟨1, ![1]⟩
abbrev S1x1 : Shape := ⟨2, ![1, 1]⟩
abbrev S1x2 : Shape := ⟨2, ![1, 2]⟩
abbrev S1x2x1 : Shape := ⟨3, ![1, 2, 1]⟩
abbrev S_ : Shape := ⟨0, ![]⟩
abbrev S2x6 : Shape := ⟨2, ![2, 6]⟩
abbrev S2x1 : Shape := ⟨2, ![2, 1]⟩
abbrev S2 : Shape := ⟨1, ![2]⟩
abbrev S2x5 : Shape := ⟨2, ![2, 5]⟩

abbrev nBuf : Space → Nat
  | .hbm => 46
  | .vmem => 15
  | .smem => 0
  | _ => 0

abbrev bufTy : (tb : Table) → Fin (tcTables nBuf tb) → BufTy
  | .hbm, ⟨0, _⟩ => ⟨S2x2x128x128x128, .f32⟩
  | .hbm, ⟨1, _⟩ => ⟨S2x1x128x128x128, .i32⟩
  | .hbm, ⟨2, _⟩ => ⟨S2x1x128x128x128, .i32⟩
  | .hbm, ⟨3, _⟩ => ⟨S2x2x6, .f32⟩
  | .hbm, ⟨4, _⟩ => ⟨S2x2x6, .f32⟩
  | .hbm, ⟨5, _⟩ => ⟨S2x2x6, .f32⟩
  | .hbm, ⟨6, _⟩ => ⟨S_, .f32⟩
  | .hbm, ⟨7, _⟩ => ⟨S2x2x6, .f32⟩
  | .hbm, ⟨8, _⟩ => ⟨S2x2x6, .f32⟩
  | .hbm, ⟨9, _⟩ => ⟨S2x2x6, .f32⟩
  | .hbm, ⟨10, _⟩ => ⟨S_, .f32⟩
  | .hbm, ⟨11, _⟩ => ⟨S2x2x6, .f32⟩
  | .hbm, ⟨12, _⟩ => ⟨S2x2x6, .f32⟩
  | .hbm, ⟨13, _⟩ => ⟨S2x2x6, .f32⟩
  | .hbm, ⟨14, _⟩ => ⟨S_, .f32⟩
  | .hbm, ⟨15, _⟩ => ⟨S2x6, .f32⟩
  | .hbm, ⟨16, _⟩ => ⟨S_, .f32⟩
  | .hbm, ⟨17, _⟩ => ⟨S2x6, .f32⟩
  | .hbm, ⟨18, _⟩ => ⟨S2x6, .f32⟩
  | .hbm, ⟨19, _⟩ => ⟨S2x1, .f32⟩
  | .hbm, ⟨20, _⟩ => ⟨S2, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S2x5, .f32⟩
  | .hbm, ⟨29, _⟩ => ⟨S_, .f32⟩
  | .hbm, ⟨30, _⟩ => ⟨S2, .f32⟩
  | .hbm, ⟨31, _⟩ => ⟨S_, .f32⟩
  | .hbm, ⟨32, _⟩ => ⟨S2, .f32⟩
  | .hbm, ⟨33, _⟩ => ⟨S2, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .local _ .vmem, ⟨0, _⟩ => ⟨S1x2x16x128x128, .f32⟩
  | .local _ .vmem, ⟨1, _⟩ => ⟨S1x2x16x128x128, .f32⟩
  | .local _ .vmem, ⟨2, _⟩ => ⟨S1x1x16x128x128, .i32⟩
  | .local _ .vmem, ⟨3, _⟩ => ⟨S1x1x16x128x128, .i32⟩
  | .local _ .vmem, ⟨4, _⟩ => ⟨S1x1x16x128x128, .i32⟩
  | .local _ .vmem, ⟨5, _⟩ => ⟨S1x1x16x128x128, .i32⟩
  | .local _ .vmem, ⟨6, _⟩ => ⟨S1x2x6, .f32⟩
  | .local _ .vmem, ⟨7, _⟩ => ⟨S1x2x6, .f32⟩
  | .local _ .vmem, ⟨8, _⟩ => ⟨S1x2x6, .f32⟩
  | .local _ .vmem, ⟨9, _⟩ => ⟨S1x2x6, .f32⟩
  | .local _ .vmem, ⟨10, _⟩ => ⟨S1x2x6, .f32⟩
  | .local _ .vmem, ⟨11, _⟩ => ⟨S1x2x6, .f32⟩
  | .local _ .vmem, ⟨12, _⟩ => ⟨S1x2x6, .f32⟩
  | .local _ .vmem, ⟨13, _⟩ => ⟨S1x2x6, .f32⟩
  | .local _ .vmem, ⟨14, _⟩ => ⟨S1x2x6, .f32⟩
  | _, _ => ⟨S2x2x128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_cst_6 : Ref sig .tc := ⟨.hbm, 29, rfl⟩
abbrev main_v17 : Ref sig .tc := ⟨.hbm, 30, rfl⟩
abbrev main_cst_7 : Ref sig .tc := ⟨.hbm, 31, rfl⟩
abbrev main_v18 : Ref sig .tc := ⟨.hbm, 32, rfl⟩
abbrev main_v19 : Ref sig .tc := ⟨.hbm, 33, rfl⟩
abbrev main_cst_8 : Ref sig .tc := ⟨.hbm, 34, rfl⟩
abbrev main_v20 : Ref sig .tc := ⟨.hbm, 35, rfl⟩
abbrev main_cst_9 : Ref sig .tc := ⟨.hbm, 36, rfl⟩
abbrev main_v21 : Ref sig .tc := ⟨.hbm, 37, rfl⟩
abbrev main_v22 : Ref sig .tc := ⟨.hbm, 38, rfl⟩
abbrev main_cst_10 : Ref sig .tc := ⟨.hbm, 39, rfl⟩
abbrev main_v23 : Ref sig .tc := ⟨.hbm, 40, rfl⟩
abbrev main_cst_11 : Ref sig .tc := ⟨.hbm, 41, rfl⟩
abbrev main_v24 : Ref sig .tc := ⟨.hbm, 42, rfl⟩
abbrev main_cst_12 : Ref sig .tc := ⟨.hbm, 43, rfl⟩
abbrev main_v25 : Ref sig .tc := ⟨.hbm, 44, rfl⟩
abbrev main_v26 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v343 : BitVec 1 := Scalar.cmpi .eq arg1 c7_i32
  let v344 : BitVec 32 := Scalar.extui v343
  let c0_i32_122 : BitVec 32 := 0#32
  let v345 : BitVec 1 := Scalar.cmpi .ne v344 c0_i32_122
  v345

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2x16x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x16x128x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x16x128x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x6 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2x6 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2x6 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S1x2x6_S1x2x6_0_0_0 : ∀ a, (![0, 0, 0] : Fin 3 → Nat) a + S1x2x6.size a ≤ S1x2x6.size a
  h_S1x2x6 : 0 < S1x2x6.numel
  shapeCasts_S1x2x6_S1x2x6 : S1x2x6.ShapeCasts S1x2x6
  inb_S1x2x16x128x128_S1x2x16x128x128_0_0_0_0_0 : ∀ a, (![0, 0, 0, 0, 0] : Fin 5 → Nat) a + S1x2x16x128x128.size a ≤ S1x2x16x128x128.size a
  h_S1x2x16x128x128 : 0 < S1x2x16x128x128.numel
  inb_S1x1x16x128x128_S1x1x16x128x128_0_0_0_0_0 : ∀ a, (![0, 0, 0, 0, 0] : Fin 5 → Nat) a + S1x1x16x128x128.size a ≤ S1x1x16x128x128.size a
  h_S1x1x16x128x128 : 0 < S1x1x16x128x128.numel
  slices_S1x2x16x128x128_o0_0_0_0_0_S1x1x16x128x128 : S1x2x16x128x128.Slices ![0, 0, 0, 0, 0] S1x1x16x128x128
  slices_S1x2x16x128x128_o0_1_0_0_0_S1x1x16x128x128 : S1x2x16x128x128.Slices ![0, 1, 0, 0, 0] S1x1x16x128x128
  shapeCasts_S1x1x16x128x128_S2048x128 : S1x1x16x128x128.ShapeCasts S2048x128
  reduces_S2048x128_S2048 : S2048x128.Reduces [1] S2048
  shapeCasts_S2048_S2048x1 : S2048.ShapeCasts S2048x1
  reduces_S2048x1_S1 : S2048x1.Reduces [0] S1
  shapeCasts_S1_S1x1 : S1.ShapeCasts S1x1
  concatenates_S1x1_S1x1_S1x2_d1 : Shape.Concatenates [S1x1, S1x1] S1x2 1
  natLt_1_32 : 1 < 32
  shapeCasts_S1x2_S1x2x1 : S1x2.ShapeCasts S1x2x1
  concatenates_S1x2x1_S1x2x1_S1x2x1_S1x2x1_S1x2x1_S1x2x1_S1x2x6_d2 : Shape.Concatenates [S1x2x1, S1x2x1, S1x2x1, S1x2x1, S1x2x1, S1x2x1] S1x2x6 2
  bcast_S_S2x2x6 : S_.BroadcastsInDim S2x2x6 (![] : Fin 0 → Fin S2x2x6.rank)
  reducesTo_S2x2x6_S2x6_d1 : S2x2x6.ReducesTo [1] S2x6
  h_S_ : 0 < S_.numel
  bcast_S_S2x6 : S_.BroadcastsInDim S2x6 (![] : Fin 0 → Fin S2x6.rank)
  slices_S2x6_S2x1_0_0 : S2x6.Slices ![0, 0] S2x1
  shapeCasts_S2x1_S2 : S2x1.ShapeCasts S2
  reducesTo_S2_S_d0 : S2.ReducesTo [0] S_
  slices_S2x6_S2x5_0_1 : S2x6.Slices ![0, 1] S2x5
  reducesTo_S2x5_S2_d1 : S2x5.ReducesTo [1] S2
  bcast_S_S2 : S_.BroadcastsInDim S2 (![] : Fin 0 → Fin S2.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2x16x128x128.size a ≤ S2x2x128x128x128.size a
  hwx0_0 : ∀ i : grid0.Coords, EltTy.bits .f32 = 32 ∨ (Rect.block (s := S2x2x128x128x128) S1x2x16x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x16x128x128.size a ≤ S2x1x128x128x128.size a
  hwx0_1 : ∀ i : grid0.Coords, EltTy.bits .i32 = 32 ∨ (Rect.block (s := S2x1x128x128x128) S1x1x16x128x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x16x128x128.size a ≤ S2x1x128x128x128.size a
  hwx0_2 : ∀ i : grid0.Coords, EltTy.bits .i32 = 32 ∨ (Rect.block (s := S2x1x128x128x128) S1x1x16x128x128.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2x6.size a ≤ S2x2x6.size a
  hwx0_3 : ∀ i : grid0.Coords, EltTy.bits .f32 = 32 ∨ (Rect.block (s := S2x2x6) S1x2x6.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2x6.size a ≤ S2x2x6.size a
  hwx0_4 : ∀ i : grid0.Coords, EltTy.bits .f32 = 32 ∨ (Rect.block (s := S2x2x6) S1x2x6.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2x6.size a ≤ S2x2x6.size a
  hwx0_5 : ∀ i : grid0.Coords, EltTy.bits .f32 = 32 ∨ (Rect.block (s := S2x2x6) S1x2x6.size (cc0_transform_5 i) (hinb0_5 i)).WholeWords (EltTy.packing .f32)

variable [Facts₀]

abbrev win0_0 : Pipeline.Window sig grid0 :=
  Pipeline.Window.ofSpec (Memref.whole main_arg0) S1x2x16x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x16x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x16x128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x2x6.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x2x6.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S1x2x6.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun i => !(k0_cond2 i == 1#1) | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S2x2x128x128x128 : Shape := ⟨5, ![2, 2, 128, 128, 128]⟩
abbrev S2x1x128x128x128 : Shape := ⟨5, ![2, 1, 128, 128, 128]⟩
abbrev S2 : Shape := ⟨1, ![2]⟩
abbrev S1x2x1x1x1 : Shape := ⟨5, ![1, 2, 1, 1, 1]⟩
abbrev S_ : Shape := ⟨0, ![]⟩
abbrev S2x128x128x128 : Shape := ⟨4, ![2, 128, 128, 128]⟩
abbrev S2x2 : Shape := ⟨2, ![2, 2]⟩

abbrev nBuf : Space → Nat
  | .hbm => 335
  | .vmem => 0
  | .smem => 0
  | _ => 0

abbrev hbmTy0_0 (i : Nat) : BufTy := match i % 128 with
  | 0 => ⟨S2x2x128x128x128, .f32⟩
  | 1 => ⟨S2x1x128x128x128, .i32⟩
  | 2 => ⟨S2x1x128x128x128, .i32⟩
  | 3 => ⟨S2, .i32⟩
  | 4 => ⟨S1x2x1x1x1, .i32⟩
  | 5 => ⟨S2x2x128x128x128, .i32⟩
  | 6 => ⟨S2x2x128x128x128, .i32⟩
  | 7 => ⟨S2x2x128x128x128, .i1⟩
  | 8 => ⟨S2x2x128x128x128, .f32⟩
  | 9 => ⟨S_, .f32⟩
  | 10 => ⟨S2x128x128x128, .f32⟩
  | 11 => ⟨S_, .f32⟩
  | 12 => ⟨S2x128x128x128, .f32⟩
  | 13 => ⟨S2x128x128x128, .f32⟩
  | 14 => ⟨S2x1x128x128x128, .f32⟩
  | 15 => ⟨S2x2x128x128x128, .f32⟩
  | 16 => ⟨S2x2x128x128x128, .f32⟩
  | 17 => ⟨S2x2x128x128x128, .f32⟩
  | 18 => ⟨S_, .f32⟩
  | 19 => ⟨S2x128x128x128, .f32⟩
  | 20 => ⟨S2x1x128x128x128, .f32⟩
  | 21 => ⟨S2x2x128x128x128, .f32⟩
  | 22 => ⟨S2x2x128x128x128, .f32⟩
  | 23 => ⟨S2x2x128x128x128, .f32⟩
  | 24 => ⟨S_, .f32⟩
  | 25 => ⟨S2x2, .f32⟩
  | 26 => ⟨S_, .f32⟩
  | 27 => ⟨S2x2, .f32⟩
  | 28 => ⟨S_, .f32⟩
  | 29 => ⟨S2x2, .f32⟩
  | 30 => ⟨S_, .f32⟩
  | 31 => ⟨S2x2, .f32⟩
  | 32 => ⟨S2x2, .f32⟩
  | 33 => ⟨S2x2, .f32⟩
  | 34 => ⟨S_, .f32⟩
  | 35 => ⟨S_, .f32⟩
  | 36 => ⟨S2x2, .f32⟩
  | 37 => ⟨S2x2, .f32⟩
  | 38 => ⟨S2x2, .f32⟩
  | 39 => ⟨S_, .f32⟩
  | 40 => ⟨S2, .f32⟩
  | 41 => ⟨S_, .f32⟩
  | 42 => ⟨S2, .f32⟩
  | 43 => ⟨S2, .f32⟩
  | 44 => ⟨S2, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .i32⟩
  | 52 => ⟨S2x1x128x128x128, .i32⟩
  | 53 => ⟨S2x1x128x128x128, .i1⟩
  | 54 => ⟨S_, .f32⟩
  | 55 => ⟨S2, .f32⟩
  | 56 => ⟨S_, .i32⟩
  | 57 => ⟨S2x1x128x128x128, .i32⟩
  | 58 => ⟨S2x1x128x128x128, .i1⟩
  | 59 => ⟨S2x1x128x128x128, .i1⟩
  | 60 => ⟨S2x1x128x128x128, .i1⟩
  | 61 => ⟨S2x1x128x128x128, .i1⟩
  | 62 => ⟨S2x1x128x128x128, .f32⟩
  | 63 => ⟨S2x2x128x128x128, .f32⟩
  | 64 => ⟨S2x2x128x128x128, .f32⟩
  | 65 => ⟨S2x1x128x128x128, .i32⟩
  | 66 => ⟨S2, .i32⟩
  | 67 => ⟨S1x2x1x1x1, .i32⟩
  | 68 => ⟨S2x2x128x128x128, .i32⟩
  | 69 => ⟨S2x2x128x128x128, .i32⟩
  | 70 => ⟨S2x2x128x128x128, .i1⟩
  | 71 => ⟨S2x2x128x128x128, .f32⟩
  | 72 => ⟨S_, .f32⟩
  | 73 => ⟨S2x128x128x128, .f32⟩
  | 74 => ⟨S_, .f32⟩
  | 75 => ⟨S2x128x128x128, .f32⟩
  | 76 => ⟨S2x128x128x128, .f32⟩
  | 77 => ⟨S2x1x128x128x128, .f32⟩
  | 78 => ⟨S2x2x128x128x128, .f32⟩
  | 79 => ⟨S2x2x128x128x128, .f32⟩
  | 80 => ⟨S2x2x128x128x128, .f32⟩
  | 81 => ⟨S_, .f32⟩
  | 82 => ⟨S2x128x128x128, .f32⟩
  | 83 => ⟨S2x1x128x128x128, .f32⟩
  | 84 => ⟨S2x2x128x128x128, .f32⟩
  | 85 => ⟨S2x2x128x128x128, .f32⟩
  | 86 => ⟨S2x2x128x128x128, .f32⟩
  | 87 => ⟨S_, .f32⟩
  | 88 => ⟨S2x2, .f32⟩
  | 89 => ⟨S_, .f32⟩
  | 90 => ⟨S2x2, .f32⟩
  | 91 => ⟨S_, .f32⟩
  | 92 => ⟨S2x2, .f32⟩
  | 93 => ⟨S_, .f32⟩
  | 94 => ⟨S2x2, .f32⟩
  | 95 => ⟨S2x2, .f32⟩
  | 96 => ⟨S2x2, .f32⟩
  | 97 => ⟨S_, .f32⟩
  | 98 => ⟨S_, .f32⟩
  | 99 => ⟨S2x2, .f32⟩
  | 100 => ⟨S2x2, .f32⟩
  | 101 => ⟨S2x2, .f32⟩
  | 102 => ⟨S_, .f32⟩
  | 103 => ⟨S2, .f32⟩
  | 104 => ⟨S_, .f32⟩
  | 105 => ⟨S2, .f32⟩
  | 106 => ⟨S2, .f32⟩
  | 107 => ⟨S2, .f32⟩
  | 108 => ⟨S2, .f32⟩
  | 109 => ⟨S_, .i32⟩
  | 110 => ⟨S2x1x128x128x128, .i32⟩
  | 111 => ⟨S2x1x128x128x128, .i1⟩
  | 112 => ⟨S2x1x128x128x128, .i1⟩
  | 113 => ⟨S2x1x128x128x128, .i1⟩
  | 114 => ⟨S2x1x128x128x128, .i1⟩
  | 115 => ⟨S2x1x128x128x128, .f32⟩
  | 116 => ⟨S2x2x128x128x128, .f32⟩
  | 117 => ⟨S2x2x128x128x128, .f32⟩
  | 118 => ⟨S2x1x128x128x128, .i32⟩
  | 119 => ⟨S2, .i32⟩
  | 120 => ⟨S1x2x1x1x1, .i32⟩
  | 121 => ⟨S2x2x128x128x128, .i32⟩
  | 122 => ⟨S2x2x128x128x128, .i32⟩
  | 123 => ⟨S2x2x128x128x128, .i1⟩
  | 124 => ⟨S2x2x128x128x128, .f32⟩
  | 125 => ⟨S_, .f32⟩
  | 126 => ⟨S2x128x128x128, .f32⟩
  | 127 => ⟨S_, .f32⟩
  | _ => ⟨S2x2x128x128x128, .f32⟩

abbrev hbmTy0_1 (i : Nat) : BufTy := match i % 128 with
  | 0 => ⟨S2x128x128x128, .f32⟩
  | 1 => ⟨S2x128x128x128, .f32⟩
  | 2 => ⟨S2x1x128x128x128, .f32⟩
  | 3 => ⟨S2x2x128x128x128, .f32⟩
  | 4 => ⟨S2x2x128x128x128, .f32⟩
  | 5 => ⟨S2x2x128x128x128, .f32⟩
  | 6 => ⟨S_, .f32⟩
  | 7 => ⟨S2x128x128x128, .f32⟩
  | 8 => ⟨S2x1x128x128x128, .f32⟩
  | 9 => ⟨S2x2x128x128x128, .f32⟩
  | 10 => ⟨S2x2x128x128x128, .f32⟩
  | 11 => ⟨S2x2x128x128x128, .f32⟩
  | 12 => ⟨S_, .f32⟩
  | 13 => ⟨S2x2, .f32⟩
  | 14 => ⟨S_, .f32⟩
  | 15 => ⟨S2x2, .f32⟩
  | 16 => ⟨S_, .f32⟩
  | 17 => ⟨S2x2, .f32⟩
  | 18 => ⟨S_, .f32⟩
  | 19 => ⟨S2x2, .f32⟩
  | 20 => ⟨S2x2, .f32⟩
  | 21 => ⟨S2x2, .f32⟩
  | 22 => ⟨S_, .f32⟩
  | 23 => ⟨S_, .f32⟩
  | 24 => ⟨S2x2, .f32⟩
  | 25 => ⟨S2x2, .f32⟩
  | 26 => ⟨S2x2, .f32⟩
  | 27 => ⟨S_, .f32⟩
  | 28 => ⟨S2, .f32⟩
  | 29 => ⟨S_, .f32⟩
  | 30 => ⟨S2, .f32⟩
  | 31 => ⟨S2, .f32⟩
  | 32 => ⟨S2, .f32⟩
  | 33 => ⟨S2, .f32⟩
  | 34 => ⟨S_, .i32⟩
  | 35 => ⟨S2x1x128x128x128, .i32⟩
  | 36 => ⟨S2x1x128x128x128, .i1⟩
  | 37 => ⟨S2x1x128x128x128, .i1⟩
  | 38 => ⟨S2x1x128x128x128, .i1⟩
  | 39 => ⟨S2x1x128x128x128, .i1⟩
  | 40 => ⟨S2x1x128x128x128, .f32⟩
  | 41 => ⟨S2x2x128x128x128, .f32⟩
  | 42 => ⟨S2x2x128x128x128, .f32⟩
  | 43 => ⟨S2x1x128x128x128, .i32⟩
  | 44 => ⟨S2, .i32⟩
  | 45 => ⟨S1x2x1x1x1, .i32⟩
  | 46 => ⟨S2x2x128x128x128, .i32⟩
  | 47 => ⟨S2x2x128x128x128, .i32⟩
  | 48 => ⟨S2x2x128x128x128, .i1⟩
  | 49 => ⟨S2x2x128x128x128, .f32⟩
  | 50 => ⟨S_, .f32⟩
  | 51 => ⟨S2x128x128x128, .f32⟩
  | 52 => ⟨S_, .f32⟩
  | 53 => ⟨S2x128x128x128, .f32⟩
  | 54 => ⟨S2x128x128x128, .f32⟩
  | 55 => ⟨S2x1x128x128x128, .f32⟩
  | 56 => ⟨S2x2x128x128x128, .f32⟩
  | 57 => ⟨S2x2x128x128x128, .f32⟩
  | 58 => ⟨S2x2x128x128x128, .f32⟩
  | 59 => ⟨S_, .f32⟩
  | 60 => ⟨S2x128x128x128, .f32⟩
  | 61 => ⟨S2x1x128x128x128, .f32⟩
  | 62 => ⟨S2x2x128x128x128, .f32⟩
  | 63 => ⟨S2x2x128x128x128, .f32⟩
  | 64 => ⟨S2x2x128x128x128, .f32⟩
  | 65 => ⟨S_, .f32⟩
  | 66 => ⟨S2x2, .f32⟩
  | 67 => ⟨S_, .f32⟩
  | 68 => ⟨S2x2, .f32⟩
  | 69 => ⟨S_, .f32⟩
  | 70 => ⟨S2x2, .f32⟩
  | 71 => ⟨S_, .f32⟩
  | 72 => ⟨S2x2, .f32⟩
  | 73 => ⟨S2x2, .f32⟩
  | 74 => ⟨S2x2, .f32⟩
  | 75 => ⟨S_, .f32⟩
  | 76 => ⟨S_, .f32⟩
  | 77 => ⟨S2x2, .f32⟩
  | 78 => ⟨S2x2, .f32⟩
  | 79 => ⟨S2x2, .f32⟩
  | 80 => ⟨S_, .f32⟩
  | 81 => ⟨S2, .f32⟩
  | 82 => ⟨S_, .f32⟩
  | 83 => ⟨S2, .f32⟩
  | 84 => ⟨S2, .f32⟩
  | 85 => ⟨S2, .f32⟩
  | 86 => ⟨S2, .f32⟩
  | 87 => ⟨S_, .i32⟩
  | 88 => ⟨S2x1x128x128x128, .i32⟩
  | 89 => ⟨S2x1x128x128x128, .i1⟩
  | 90 => ⟨S2x1x128x128x128, .i1⟩
  | 91 => ⟨S2x1x128x128x128, .i1⟩
  | 92 => ⟨S2x1x128x128x128, .i1⟩
  | 93 => ⟨S2x1x128x128x128, .f32⟩
  | 94 => ⟨S2x2x128x128x128, .f32⟩
  | 95 => ⟨S2x2x128x128x128, .f32⟩
  | 96 => ⟨S2x1x128x128x128, .i32⟩
  | 97 => ⟨S2, .i32⟩
  | 98 => ⟨S1x2x1x1x1, .i32⟩
  | 99 => ⟨S2x2x128x128x128, .i32⟩
  | 100 => ⟨S2x2x128x128x128, .i32⟩
  | 101 => ⟨S2x2x128x128x128, .i1⟩
  | 102 => ⟨S2x2x128x128x128, .f32⟩
  | 103 => ⟨S_, .f32⟩
  | 104 => ⟨S2x128x128x128, .f32⟩
  | 105 => ⟨S_, .f32⟩
  | 106 => ⟨S2x128x128x128, .f32⟩
  | 107 => ⟨S2x128x128x128, .f32⟩
  | 108 => ⟨S2x1x128x128x128, .f32⟩
  | 109 => ⟨S2x2x128x128x128, .f32⟩
  | 110 => ⟨S2x2x128x128x128, .f32⟩
  | 111 => ⟨S2x2x128x128x128, .f32⟩
  | 112 => ⟨S_, .f32⟩
  | 113 => ⟨S2x128x128x128, .f32⟩
  | 114 => ⟨S2x1x128x128x128, .f32⟩
  | 115 => ⟨S2x2x128x128x128, .f32⟩
  | 116 => ⟨S2x2x128x128x128, .f32⟩
  | 117 => ⟨S2x2x128x128x128, .f32⟩
  | 118 => ⟨S_, .f32⟩
  | 119 => ⟨S2x2, .f32⟩
  | 120 => ⟨S_, .f32⟩
  | 121 => ⟨S2x2, .f32⟩
  | 122 => ⟨S_, .f32⟩
  | 123 => ⟨S2x2, .f32⟩
  | 124 => ⟨S_, .f32⟩
  | 125 => ⟨S2x2, .f32⟩
  | 126 => ⟨S2x2, .f32⟩
  | 127 => ⟨S2x2, .f32⟩
  | _ => ⟨S2x2x128x128x128, .f32⟩

abbrev hbmTy0_2 (i : Nat) : BufTy := match i % 128 with
  | 0 => ⟨S_, .f32⟩
  | 1 => ⟨S_, .f32⟩
  | 2 => ⟨S2x2, .f32⟩
  | 3 => ⟨S2x2, .f32⟩
  | 4 => ⟨S2x2, .f32⟩
  | 5 => ⟨S_, .f32⟩
  | 6 => ⟨S2, .f32⟩
  | 7 => ⟨S_, .f32⟩
  | 8 => ⟨S2, .f32⟩
  | 9 => ⟨S2, .f32⟩
  | 10 => ⟨S2, .f32⟩
  | 11 => ⟨S2, .f32⟩
  | 12 => ⟨S_, .i32⟩
  | 13 => ⟨S2x1x128x128x128, .i32⟩
  | 14 => ⟨S2x1x128x128x128, .i1⟩
  | 15 => ⟨S2x1x128x128x128, .i1⟩
  | 16 => ⟨S2x1x128x128x128, .i1⟩
  | 17 => ⟨S2x1x128x128x128, .i1⟩
  | 18 => ⟨S2x1x128x128x128, .f32⟩
  | 19 => ⟨S2x2x128x128x128, .f32⟩
  | 20 => ⟨S2x2x128x128x128, .f32⟩
  | 21 => ⟨S2x1x128x128x128, .i32⟩
  | 22 => ⟨S2, .i32⟩
  | 23 => ⟨S1x2x1x1x1, .i32⟩
  | 24 => ⟨S2x2x128x128x128, .i32⟩
  | 25 => ⟨S2x2x128x128x128, .i32⟩
  | 26 => ⟨S2x2x128x128x128, .i1⟩
  | 27 => ⟨S2x2x128x128x128, .f32⟩
  | 28 => ⟨S_, .f32⟩
  | 29 => ⟨S2x128x128x128, .f32⟩
  | 30 => ⟨S_, .f32⟩
  | 31 => ⟨S2x128x128x128, .f32⟩
  | 32 => ⟨S2x128x128x128, .f32⟩
  | 33 => ⟨S2x1x128x128x128, .f32⟩
  | 34 => ⟨S2x2x128x128x128, .f32⟩
  | 35 => ⟨S2x2x128x128x128, .f32⟩
  | 36 => ⟨S2x2x128x128x128, .f32⟩
  | 37 => ⟨S_, .f32⟩
  | 38 => ⟨S2x128x128x128, .f32⟩
  | 39 => ⟨S2x1x128x128x128, .f32⟩
  | 40 => ⟨S2x2x128x128x128, .f32⟩
  | 41 => ⟨S2x2x128x128x128, .f32⟩
  | 42 => ⟨S2x2x128x128x128, .f32⟩
  | 43 => ⟨S_, .f32⟩
  | 44 => ⟨S2x2, .f32⟩
  | 45 => ⟨S_, .f32⟩
  | 46 => ⟨S2x2, .f32⟩
  | 47 => ⟨S_, .f32⟩
  | 48 => ⟨S2x2, .f32⟩
  | 49 => ⟨S_, .f32⟩
  | 50 => ⟨S2x2, .f32⟩
  | 51 => ⟨S2x2, .f32⟩
  | 52 => ⟨S2x2, .f32⟩
  | 53 => ⟨S_, .f32⟩
  | 54 => ⟨S_, .f32⟩
  | 55 => ⟨S2x2, .f32⟩
  | 56 => ⟨S2x2, .f32⟩
  | 57 => ⟨S2x2, .f32⟩
  | 58 => ⟨S_, .f32⟩
  | 59 => ⟨S2, .f32⟩
  | 60 => ⟨S_, .f32⟩
  | 61 => ⟨S2, .f32⟩
  | 62 => ⟨S2, .f32⟩
  | 63 => ⟨S2, .f32⟩
  | 64 => ⟨S2, .f32⟩
  | 65 => ⟨S_, .f32⟩
  | 66 => ⟨S2, .f32⟩
  | 67 => ⟨S2, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | _ => ⟨S2x2x128x128x128, .f32⟩

abbrev hbmTy (i : Nat) : BufTy := match i / 128 with
  | 0 => hbmTy0_0 i
  | 1 => hbmTy0_1 i
  | 2 => hbmTy0_2 i
  | _ => ⟨S2x2x128x128x128, .f32⟩

abbrev bufTy : (tb : Table) → Fin (tcTables nBuf tb) → BufTy
  | .hbm, ⟨i, _⟩ => hbmTy i
  | _, _ => ⟨S2x2x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_call0_v0 : Ref sig .tc := ⟨.hbm, 35, rfl⟩
abbrev main_call0_v1 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_9 : Ref sig .tc := ⟨.hbm, 45, rfl⟩
abbrev main_v30 : Ref sig .tc := ⟨.hbm, 46, rfl⟩
abbrev main_cst_10 : Ref sig .tc := ⟨.hbm, 47, rfl⟩
abbrev main_v31 : Ref sig .tc := ⟨.hbm, 48, rfl⟩
abbrev main_cst_11 : Ref sig .tc := ⟨.hbm, 49, rfl⟩
abbrev main_v32 : Ref sig .tc := ⟨.hbm, 50, rfl⟩
abbrev main_c : Ref sig .tc := ⟨.hbm, 51, rfl⟩
abbrev main_v33 : Ref sig .tc := ⟨.hbm, 52, rfl⟩
abbrev main_v34 : Ref sig .tc := ⟨.hbm, 53, rfl⟩
abbrev main_cst_12 : Ref sig .tc := ⟨.hbm, 54, rfl⟩
abbrev main_v35 : Ref sig .tc := ⟨.hbm, 55, rfl⟩
abbrev main_c_13 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_14 : Ref sig .tc := ⟨.hbm, 72, rfl⟩
abbrev main_v51 : Ref sig .tc := ⟨.hbm, 73, rfl⟩
abbrev main_cst_15 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_16 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_17 : Ref sig .tc := ⟨.hbm, 87, rfl⟩
abbrev main_v63 : Ref sig .tc := ⟨.hbm, 88, rfl⟩
abbrev main_cst_18 : Ref sig .tc := ⟨.hbm, 89, rfl⟩
abbrev main_v64 : Ref sig .tc := ⟨.hbm, 90, rfl⟩
abbrev main_cst_19 : Ref sig .tc := ⟨.hbm, 91, rfl⟩
abbrev main_v65 : Ref sig .tc := ⟨.hbm, 92, rfl⟩
abbrev main_cst_20 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_21 : Ref sig .tc := ⟨.hbm, 97, rfl⟩
abbrev main_call1_v0 : Ref sig .tc := ⟨.hbm, 98, rfl⟩
abbrev main_call1_v1 : Ref sig .tc := ⟨.hbm, 99, rfl⟩
abbrev main_v69 : Ref sig .tc := ⟨.hbm, 100, rfl⟩
abbrev main_v70 : Ref sig .tc := ⟨.hbm, 101, rfl⟩
abbrev main_cst_22 : Ref sig .tc := ⟨.hbm, 102, rfl⟩
abbrev main_v71 : Ref sig .tc := ⟨.hbm, 103, rfl⟩
abbrev main_cst_23 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_c_24 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_25 : Ref sig .tc := ⟨.hbm, 125, rfl⟩
abbrev main_v91 : Ref sig .tc := ⟨.hbm, 126, rfl⟩
abbrev main_cst_26 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_cst_27 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_cst_28 : Ref sig .tc := ⟨.hbm, 140, rfl⟩
abbrev main_v103 : Ref sig .tc := ⟨.hbm, 141, rfl⟩
abbrev main_cst_29 : Ref sig .tc := ⟨.hbm, 142, rfl⟩
abbrev main_v104 : Ref sig .tc := ⟨.hbm, 143, rfl⟩
abbrev main_cst_30 : Ref sig .tc := ⟨.hbm, 144, rfl⟩
abbrev main_v105 : Ref sig .tc := ⟨.hbm, 145, rfl⟩
abbrev main_cst_31 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_cst_32 : Ref sig .tc := ⟨.hbm, 150, rfl⟩
abbrev main_call2_v0 : Ref sig .tc := ⟨.hbm, 151, rfl⟩
abbrev main_call2_v1 : Ref sig .tc := ⟨.hbm, 152, rfl⟩
abbrev main_v109 : Ref sig .tc := ⟨.hbm, 153, rfl⟩
abbrev main_v110 : Ref sig .tc := ⟨.hbm, 154, rfl⟩
abbrev main_cst_33 : Ref sig .tc := ⟨.hbm, 155, rfl⟩
abbrev main_v111 : Ref sig .tc := ⟨.hbm, 156, rfl⟩
abbrev main_cst_34 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_c_35 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_cst_36 : Ref sig .tc := ⟨.hbm, 178, rfl⟩
abbrev main_v131 : Ref sig .tc := ⟨.hbm, 179, rfl⟩
abbrev main_cst_37 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_cst_38 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_cst_39 : Ref sig .tc := ⟨.hbm, 193, rfl⟩
abbrev main_v143 : Ref sig .tc := ⟨.hbm, 194, rfl⟩
abbrev main_cst_40 : Ref sig .tc := ⟨.hbm, 195, rfl⟩
abbrev main_v144 : Ref sig .tc := ⟨.hbm, 196, rfl⟩
abbrev main_cst_41 : Ref sig .tc := ⟨.hbm, 197, rfl⟩
abbrev main_v145 : Ref sig .tc := ⟨.hbm, 198, rfl⟩
abbrev main_cst_42 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_cst_43 : Ref sig .tc := ⟨.hbm, 203, rfl⟩
abbrev main_call3_v0 : Ref sig .tc := ⟨.hbm, 204, rfl⟩
abbrev main_call3_v1 : Ref sig .tc := ⟨.hbm, 205, rfl⟩
abbrev main_v149 : Ref sig .tc := ⟨.hbm, 206, rfl⟩
abbrev main_v150 : Ref sig .tc := ⟨.hbm, 207, rfl⟩
abbrev main_cst_44 : Ref sig .tc := ⟨.hbm, 208, rfl⟩
abbrev main_v151 : Ref sig .tc := ⟨.hbm, 209, rfl⟩
abbrev main_cst_45 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_c_46 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_cst_47 : Ref sig .tc := ⟨.hbm, 231, rfl⟩
abbrev main_v171 : Ref sig .tc := ⟨.hbm, 232, rfl⟩
abbrev main_cst_48 : Ref sig .tc := ⟨.hbm, 233, rfl⟩
abbrev main_v172 : Ref sig .tc := ⟨.hbm, 234, rfl⟩
abbrev main_v173 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_cst_49 : Ref sig .tc := ⟨.hbm, 240, rfl⟩
abbrev main_v178 : Ref sig .tc := ⟨.hbm, 241, rfl⟩
abbrev main_v179 : Ref sig .tc := ⟨.hbm, 242, rfl⟩
abbrev main_v180 : Ref sig .tc := ⟨.hbm, 243, rfl⟩
abbrev main_v181 : Ref sig .tc := ⟨.hbm, 244, rfl⟩
abbrev main_v182 : Ref sig .tc := ⟨.hbm, 245, rfl⟩
abbrev main_cst_50 : Ref sig .tc := ⟨.hbm, 246, rfl⟩
abbrev main_v183 : Ref sig .tc := ⟨.hbm, 247, rfl⟩
abbrev main_cst_51 : Ref sig .tc := ⟨.hbm, 248, rfl⟩
abbrev main_v184 : Ref sig .tc := ⟨.hbm, 249, rfl⟩
abbrev main_cst_52 : Ref sig .tc := ⟨.hbm, 250, rfl⟩
abbrev main_v185 : Ref sig .tc := ⟨.hbm, 251, rfl⟩
abbrev main_cst_53 : Ref sig .tc := ⟨.hbm, 252, rfl⟩
abbrev main_v186 : Ref sig .tc := ⟨.hbm, 253, rfl⟩
abbrev main_v187 : Ref sig .tc := ⟨.hbm, 254, rfl⟩
abbrev main_v188 : Ref sig .tc := ⟨.hbm, 255, rfl⟩
abbrev main_cst_54 : Ref sig .tc := ⟨.hbm, 256, rfl⟩
abbrev main_call4_v0 : Ref sig .tc := ⟨.hbm, 257, rfl⟩
abbrev main_call4_v1 : Ref sig .tc := ⟨.hbm, 258, rfl⟩
abbrev main_v189 : Ref sig .tc := ⟨.hbm, 259, rfl⟩
abbrev main_v190 : Ref sig .tc := ⟨.hbm, 260, rfl⟩
abbrev main_cst_55 : Ref sig .tc := ⟨.hbm, 261, rfl⟩
abbrev main_v191 : Ref sig .tc := ⟨.hbm, 262, rfl⟩
abbrev main_cst_56 : Ref sig .tc := ⟨.hbm, 263, rfl⟩
abbrev main_v192 : Ref sig .tc := ⟨.hbm, 264, rfl⟩
abbrev main_v193 : Ref sig .tc := ⟨.hbm, 265, rfl⟩
abbrev main_v194 : Ref sig .tc := ⟨.hbm, 266, rfl⟩
abbrev main_v195 : Ref sig .tc := ⟨.hbm, 267, rfl⟩
abbrev main_c_57 : Ref sig .tc := ⟨.hbm, 268, rfl⟩
abbrev main_v196 : Ref sig .tc := ⟨.hbm, 269, rfl⟩
abbrev main_v197 : Ref sig .tc := ⟨.hbm, 270, rfl⟩
abbrev main_v198 : Ref sig .tc := ⟨.hbm, 271, rfl⟩
abbrev main_v199 : Ref sig .tc := ⟨.hbm, 272, rfl⟩
abbrev main_v200 : Ref sig .tc := ⟨.hbm, 273, rfl⟩
abbrev main_v201 : Ref sig .tc := ⟨.hbm, 274, rfl⟩
abbrev main_v202 : Ref sig .tc := ⟨.hbm, 275, rfl⟩
abbrev main_v203 : Ref sig .tc := ⟨.hbm, 276, rfl⟩
abbrev main_v204 : Ref sig .tc := ⟨.hbm, 277, rfl⟩
abbrev main_v205 : Ref sig .tc := ⟨.hbm, 278, rfl⟩
abbrev main_v206 : Ref sig .tc := ⟨.hbm, 279, rfl⟩
abbrev main_v207 : Ref sig .tc := ⟨.hbm, 280, rfl⟩
abbrev main_v208 : Ref sig .tc := ⟨.hbm, 281, rfl⟩
abbrev main_v209 : Ref sig .tc := ⟨.hbm, 282, rfl⟩
abbrev main_v210 : Ref sig .tc := ⟨.hbm, 283, rfl⟩
abbrev main_cst_58 : Ref sig .tc := ⟨.hbm, 284, rfl⟩
abbrev main_v211 : Ref sig .tc := ⟨.hbm, 285, rfl⟩
abbrev main_cst_59 : Ref sig .tc := ⟨.hbm, 286, rfl⟩
abbrev main_v212 : Ref sig .tc := ⟨.hbm, 287, rfl⟩
abbrev main_v213 : Ref sig .tc := ⟨.hbm, 288, rfl⟩
abbrev main_v214 : Ref sig .tc := ⟨.hbm, 289, rfl⟩
abbrev main_v215 : Ref sig .tc := ⟨.hbm, 290, rfl⟩
abbrev main_v216 : Ref sig .tc := ⟨.hbm, 291, rfl⟩
abbrev main_v217 : Ref sig .tc := ⟨.hbm, 292, rfl⟩
abbrev main_cst_60 : Ref sig .tc := ⟨.hbm, 293, rfl⟩
abbrev main_v218 : Ref sig .tc := ⟨.hbm, 294, rfl⟩
abbrev main_v219 : Ref sig .tc := ⟨.hbm, 295, rfl⟩
abbrev main_v220 : Ref sig .tc := ⟨.hbm, 296, rfl⟩
abbrev main_v221 : Ref sig .tc := ⟨.hbm, 297, rfl⟩
abbrev main_v222 : Ref sig .tc := ⟨.hbm, 298, rfl⟩
abbrev main_cst_61 : Ref sig .tc := ⟨.hbm, 299, rfl⟩
abbrev main_v223 : Ref sig .tc := ⟨.hbm, 300, rfl⟩
abbrev main_cst_62 : Ref sig .tc := ⟨.hbm, 301, rfl⟩
abbrev main_v224 : Ref sig .tc := ⟨.hbm, 302, rfl⟩
abbrev main_cst_63 : Ref sig .tc := ⟨.hbm, 303, rfl⟩
abbrev main_v225 : Ref sig .tc := ⟨.hbm, 304, rfl⟩
abbrev main_cst_64 : Ref sig .tc := ⟨.hbm, 305, rfl⟩
abbrev main_v226 : Ref sig .tc := ⟨.hbm, 306, rfl⟩
abbrev main_v227 : Ref sig .tc := ⟨.hbm, 307, rfl⟩
abbrev main_v228 : Ref sig .tc := ⟨.hbm, 308, rfl⟩
abbrev main_cst_65 : Ref sig .tc := ⟨.hbm, 309, rfl⟩
abbrev main_call5_v0 : Ref sig .tc := ⟨.hbm, 310, rfl⟩
abbrev main_call5_v1 : Ref sig .tc := ⟨.hbm, 311, rfl⟩
abbrev main_v229 : Ref sig .tc := ⟨.hbm, 312, rfl⟩
abbrev main_v230 : Ref sig .tc := ⟨.hbm, 313, rfl⟩
abbrev main_cst_66 : Ref sig .tc := ⟨.hbm, 314, rfl⟩
abbrev main_v231 : Ref sig .tc := ⟨.hbm, 315, rfl⟩
abbrev main_cst_67 : Ref sig .tc := ⟨.hbm, 316, rfl⟩
abbrev main_v232 : Ref sig .tc := ⟨.hbm, 317, rfl⟩
abbrev main_v233 : Ref sig .tc := ⟨.hbm, 318, rfl⟩
abbrev main_v234 : Ref sig .tc := ⟨.hbm, 319, rfl⟩
abbrev main_v235 : Ref sig .tc := ⟨.hbm, 320, rfl⟩
abbrev main_cst_68 : Ref sig .tc := ⟨.hbm, 321, rfl⟩
abbrev main_v236 : Ref sig .tc := ⟨.hbm, 322, rfl⟩
abbrev main_v237 : Ref sig .tc := ⟨.hbm, 323, rfl⟩
abbrev main_cst_69 : Ref sig .tc := ⟨.hbm, 324, rfl⟩
abbrev main_v238 : Ref sig .tc := ⟨.hbm, 325, rfl⟩
abbrev main_cst_70 : Ref sig .tc := ⟨.hbm, 326, rfl⟩
abbrev main_v239 : Ref sig .tc := ⟨.hbm, 327, rfl⟩
abbrev main_cst_71 : Ref sig .tc := ⟨.hbm, 328, rfl⟩
abbrev main_v240 : Ref sig .tc := ⟨.hbm, 329, rfl⟩
abbrev main_cst_72 : Ref sig .tc := ⟨.hbm, 330, rfl⟩
abbrev main_v241 : Ref sig .tc := ⟨.hbm, 331, rfl⟩
abbrev main_cst_73 : Ref sig .tc := ⟨.hbm, 332, rfl⟩
abbrev main_v242 : Ref sig .tc := ⟨.hbm, 333, rfl⟩
abbrev main_v243 : Ref sig .tc := ⟨.hbm, 334, rfl⟩

abbrev nD : Nat := 1
abbrev τ : Topo := Topo.v7x

variable {F : FTy → Type} [FloatOps F]

class Facts₀ : Prop where
  shapeCasts_S2_S1x2x1x1x1 : S2.ShapeCasts S1x2x1x1x1
  bcast_S2x1x128x128x128_S2x2x128x128x128_0_1_2_3_4 : S2x1x128x128x128.BroadcastsInDim S2x2x128x128x128 (![0, 1, 2, 3, 4] : Fin 5 → Fin S2x2x128x128x128.rank)
  bcast_S1x2x1x1x1_S2x2x128x128x128_0_1_2_3_4 : S1x2x1x1x1.BroadcastsInDim S2x2x128x128x128 (![0, 1, 2, 3, 4] : Fin 5 → Fin S2x2x128x128x128.rank)
  reducesTo_S2x2x128x128x128_S2x128x128x128_d1 : S2x2x128x128x128.ReducesTo [1] S2x128x128x128
  h_S_ : 0 < S_.numel
  bcast_S_S2x128x128x128 : S_.BroadcastsInDim S2x128x128x128 (![] : Fin 0 → Fin S2x128x128x128.rank)
  bcast_S2x128x128x128_S2x1x128x128x128_0_2_3_4 : S2x128x128x128.BroadcastsInDim S2x1x128x128x128 (![0, 2, 3, 4] : Fin 4 → Fin S2x1x128x128x128.rank)
  reducesTo_S2x2x128x128x128_S2x2_d2_3_4 : S2x2x128x128x128.ReducesTo [2, 3, 4] S2x2
  bcast_S_S2x2 : S_.BroadcastsInDim S2x2 (![] : Fin 0 → Fin S2x2.rank)
  reducesTo_S2x2_S2_d1 : S2x2.ReducesTo [1] S2
  bcast_S_S2 : S_.BroadcastsInDim S2 (![] : Fin 0 → Fin S2.rank)
  reducesTo_S2_S_d0 : S2.ReducesTo [0] S_
  bcast_S_S2x1x128x128x128 : S_.BroadcastsInDim S2x1x128x128x128 (![] : Fin 0 → Fin S2x1x128x128x128.rank)
  natLt_1_32 : 1 < 32

variable [Facts₀]

class Facts : Prop extends Facts₀ where

variable [Facts]
-- ==== Proof.Spec.lean ====
/-
  The blob-wise Dice loss as formulas over the extended reals.

  A volume of 2 samples × 2 classes × 128³ voxels of logits `X`, a binary label volume `Y` and a volume `ML` of
  blob numbers 0…5.  There are six VARIANTS `s`: variant 0 scores the logits against the binary label; variant
  `k ≥ 1` first multiplies both logits of a voxel by a keep factor — 0 at the voxels of the OTHER blobs (blob number
  positive and different from `k`), 1 elsewhere — and scores them against the indicator of blob `k`.
  At one voxel the class-1 probability is the logistic of the logit difference, the class-0 probability its
  complement; the class-1 one-hot value is the label read as a number, the class-0 one its complement.  Per sample,
  class and variant three sums over the voxels are taken (probability × one-hot, probability, one-hot), the Dice
  quotient `2·I / max(P + G, ε)` is formed, and the loss is a fixed linear combination of the 24 quotients.

  Everything is stated with the exact operations of the extended reals the two programs are read at, and with the
  single-precision words of the constants as they stand in the programs.
-/
import Idealize.ShloMosaic.PureOps.Ideal
import Idealize.ShloMosaic.Lib.ValueIdx

noncomputable section

open scoped BigOperators

namespace Cert.BlobDice

open Idealize.ShloMosaic Idealize.ShloMosaic.ValueIdx

/-- The logits' shape. -/
abbrev SX : Shape := ⟨5, ![2, 2, 128, 128, 128]⟩
/-- The label volumes' shape. -/
abbrev SL : Shape := ⟨5, ![2, 1, 128, 128, 128]⟩

/-! ## The constants, as the words the programs carry -/

def ZERO : EReal := Ideal.ofBits .f32 0x00000000#32
def ONE : EReal := Ideal.ofBits .f32 0x3F800000#32
def TWO : EReal := Ideal.ofBits .f32 0x40000000#32
def FIVE : EReal := Ideal.ofBits .f32 0x40A00000#32
def HALF : EReal := Ideal.ofBits .f32 0x3F000000#32
/-- The Dice denominator's floor, the single-precision word nearest 1e-8. -/
def EPS : EReal := Ideal.ofBits .f32 0x322BCC77#32

/-! ## One voxel -/

/-- The blob number of variant `s` as a 32-bit word. -/
def blobWord (s : Fin 6) : BitVec 32 := BitVec.ofNat 32 s.val

/-- The keep bit of blob `k` at a voxel whose blob number is `mw`: NOT foreground, OR this blob. -/
def keepBit (k mw : BitVec 32) : BitVec 1 :=
  IntOp.ori (IntOp.xori (IntOp.cmpi .sgt mw 0#32) 1#1) (IntOp.cmpi .eq mw k)

/-- A one-bit word read as a number: widened without sign to 32 bits, then read signed. -/
def bitF (b : BitVec 1) : EReal := ((((b.setWidth 32).toInt : ℤ) : ℝ) : EReal)

/-- The keep factor, 0 or 1. -/
def keepF (k mw : BitVec 32) : EReal := bitF (keepBit k mw)

/-- The indicator of blob `k`, 0 or 1. -/
def hotF (k mw : BitVec 32) : EReal := bitF (IntOp.cmpi .eq mw k)

/-- A 32-bit word read signed as a number. -/
def wordF (w : BitVec 32) : EReal := (((w.toInt : ℤ) : ℝ) : EReal)

/-- The logit of variant `s` at a voxel: the logit itself, for a blob variant times the keep factor. -/
def logit (s : Fin 6) (x : EReal) (mw : BitVec 32) : EReal :=
  if s = 0 then x else x * keepF (blobWord s) mw

/-- The class-1 one-hot value of variant `s` at a voxel: the binary label's word read as a number, for a blob variant
    the blob's indicator. -/
def hot (s : Fin 6) (yw mw : BitVec 32) : EReal :=
  if s = 0 then wordF yw else hotF (blobWord s) mw

/-- The probability of class `ch` from the two logits `a` (class 0) and `c` (class 1). -/
def prob (ch : Fin 2) (a c : EReal) : EReal :=
  if ch = 0 then ONE - Ideal.logistic (c - a) else Ideal.logistic (c - a)

/-- The one-hot value of class `ch` from the class-1 value `o`. -/
def oneHot (ch : Fin 2) (o : EReal) : EReal := if ch = 0 then ONE - o else o

/-- The three summands of class `ch`, variant `s` at a voxel with logits `x0`, `x1`, label word `yw`, blob word `mw`. -/
def tI (ch : Fin 2) (s : Fin 6) (x0 x1 : EReal) (yw mw : BitVec 32) : EReal :=
  prob ch (logit s x0 mw) (logit s x1 mw) * oneHot ch (hot s yw mw)
def tP (ch : Fin 2) (s : Fin 6) (x0 x1 : EReal) (mw : BitVec 32) : EReal :=
  prob ch (logit s x0 mw) (logit s x1 mw)
def tG (ch : Fin 2) (s : Fin 6) (yw mw : BitVec 32) : EReal := oneHot ch (hot s yw mw)

/-! ## The volumes -/

section Volumes

variable (X : SX.Idx → EReal) (Y ML : SL.Idx → BitVec 32)

/-- The summands at voxel `(z, h, w)` of sample `b`. -/
def vI (ch : Fin 2) (s : Fin 6) (b : Fin 2) (z h w : Fin 128) : EReal :=
  tI ch s (X (ix5 b (0 : Fin 2) z h w)) (X (ix5 b (1 : Fin 2) z h w)) (Y (ix5 b (0 : Fin 1) z h w)) (ML (ix5 b (0 : Fin 1) z h w))
def vP (ch : Fin 2) (s : Fin 6) (b : Fin 2) (z h w : Fin 128) : EReal :=
  tP ch s (X (ix5 b (0 : Fin 2) z h w)) (X (ix5 b (1 : Fin 2) z h w)) (ML (ix5 b (0 : Fin 1) z h w))
def vG (ch : Fin 2) (s : Fin 6) (b : Fin 2) (z h w : Fin 128) : EReal :=
  tG ch s (Y (ix5 b (0 : Fin 1) z h w)) (ML (ix5 b (0 : Fin 1) z h w))

end Volumes

/-- The sum over a sample's voxels in the order a depth-blocked pass adds them: 8 slabs of 16 planes, in a slab
    2048 rows (plane × row) of 128 lanes. -/
def sumSlabs (f : Fin 128 → Fin 128 → Fin 128 → EReal) : EReal :=
  ∑ d : Fin 8, ∑ r : Fin 2048, ∑ l : Fin 128,
    f ⟨16 * d.val + r.val / 128, by have := d.isLt; have := r.isLt; omega⟩ ⟨r.val % 128, Nat.mod_lt _ (by norm_num)⟩ l

/-- The sum over a sample's voxels coordinate by coordinate. -/
def sumVox (f : Fin 128 → Fin 128 → Fin 128 → EReal) : EReal := ∑ z : Fin 128, ∑ h : Fin 128, ∑ w : Fin 128, f z h w

/-! ## From the 24 triples of sums to the loss -/

section Tail

/-- The loss from the sums, in the arrangement that keeps the six variants in one array: the Dice quotients, their mean
    over the classes, variant 0's mean over the samples, the blob variants' mean over blobs and samples. -/
def lossStacked (I P G : Fin 2 → Fin 2 → Fin 6 → EReal) : EReal :=
  let dc : Fin 2 → Fin 2 → Fin 6 → EReal := fun b ch s => Ideal.div (TWO * I b ch s) (max (P b ch s + G b ch s) EPS)
  let cm : Fin 2 → Fin 6 → EReal := fun b s => Ideal.div (ZERO + ∑ ch : Fin 2, dc b ch s) TWO
  let main : EReal := (-(Ideal.div (ZERO + ∑ b : Fin 2, cm b 0) TWO)) * HALF
  let blob : EReal := (-(Ideal.div (ZERO + ∑ b : Fin 2, Ideal.div (ZERO + ∑ k : Fin 5, cm b k.succ) FIVE) TWO)) * HALF
  TWO * main + ONE * blob

end Tail

/-! ## The loss when each variant is scored on its own -/

section TailSeparate

/-- The loss from the sums in the arrangement that scores each variant separately: per variant the Dice quotients
    (the floor on the left of the maximum), minus their mean over the classes; variant 0's mean over the samples; the
    blob variants added up one after the other from zero, divided by their number, then the mean over the samples. -/
def lossSeparate (I P G : Fin 2 → Fin 2 → Fin 6 → EReal) : EReal :=
  let dc : Fin 2 → Fin 2 → Fin 6 → EReal := fun b ch s => Ideal.div (TWO * I b ch s) (max EPS (P b ch s + G b ch s))
  let l : Fin 2 → Fin 6 → EReal := fun b s => -(Ideal.div (ZERO + ∑ ch : Fin 2, dc b ch s) TWO)
  let main : EReal := (Ideal.div (ZERO + ∑ b : Fin 2, l b 0) TWO) * HALF
  let acc : Fin 2 → EReal := fun b => ((((ZERO + l b 1) + l b 2) + l b 3) + l b 4) + l b 5
  let blob : EReal := (Ideal.div (ZERO + ∑ b : Fin 2, Ideal.div (acc b) FIVE) TWO) * HALF
  TWO * main + ONE * blob

end TailSeparate

end Cert.BlobDice

end
-- ==== Proof.RefBlock.lean ====
/-
  One Dice block of the reference, as a function of a volume of logits `L` and a volume of labels `lbl`: the one-hot
  volume (label = class), the softmax over the two classes (shifted by the classes' maximum), the three voxel sums
  per sample and class, the Dice quotients, and minus their mean over the classes.  Read at a sample, for real
  logits and labels that are 0 or 1, the softmax is the logistic of the logit difference and its complement, and the
  one-hot value is the label read as a number and its complement.
-/
import proofs.«404392_j2800318677066_2_alg».proof.ReferenceIdeal
import proofs.«404392_j2800318677066_2_alg».proof.Proof.Spec
import Idealize.ShloMosaic.Lib.Pipeline.Value
import Idealize.ShloMosaic.Lib.IdealHost
import Idealize.ShloMosaic.PureOps.Ideal.Laws

noncomputable section

open scoped BigOperators

namespace Cert.ReferenceIdeal.Dice

open Cert.ReferenceIdeal Idealize.ShloMosaic Idealize.ShloMosaic.ValueIdx
open Cert.ReferenceIdeal.Facts₀ Cert.ReferenceIdeal.Facts

variable [Cert.ReferenceIdeal.Facts]
variable {F : FTy → Type} [FloatOps F]

/-- The one-hot volume of a label volume: 1 where the label equals the class number, else 0. -/
def oneHotOf (lbl : IVec S2x1x128x128x128 32) : FVec F S2x2x128x128x128 .f32 :=
  uitofp .f32 (cmpi .eq
    (broadcastInDim S2x2x128x128x128 ![0, 1, 2, 3, 4] bcast_S2x1x128x128x128_S2x2x128x128x128_0_1_2_3_4 lbl)
    (broadcastInDim S2x2x128x128x128 ![0, 1, 2, 3, 4] bcast_S1x2x1x1x1_S2x2x128x128x128_0_1_2_3_4
      (shapeCast S1x2x1x1x1 (iotaInDim S2 32 0) shapeCasts_S2_S1x2x1x1x1)))

/-- A volume [2,128,128,128] laid back over the class axis. -/
def overClasses (v : FVec F S2x128x128x128 .f32) : FVec F S2x2x128x128x128 .f32 :=
  broadcastInDim S2x2x128x128x128 ![0, 1, 2, 3, 4] bcast_S2x1x128x128x128_S2x2x128x128x128_0_1_2_3_4
    (broadcastInDim S2x1x128x128x128 ![0, 2, 3, 4] bcast_S2x128x128x128_S2x1x128x128x128_0_2_3_4 v)

/-- The exponentials of the logits less the classes' maximum. -/
def expShifted (L : FVec F S2x2x128x128x128 .f32) : FVec F S2x2x128x128x128 .f32 :=
  Host.exp (subf L (overClasses
    (maximumf (broadcastInDim S2x128x128x128 ![] bcast_S_S2x128x128x128 (constant S_ .f32 0xFF800000#32))
      (Host.reduce FloatOps.maximumf L (constant S_ .f32 0xFF800000#32) reducesTo_S2x2x128x128x128_S2x128x128x128_d1 h_S_))))

/-- The softmax over the two classes. -/
def softmaxOf (L : FVec F S2x2x128x128x128 .f32) : FVec F S2x2x128x128x128 .f32 :=
  Host.divf (expShifted L)
    (overClasses (Host.reduceAdd (expShifted L) (constant S_ .f32 0x00000000#32) reducesTo_S2x2x128x128x128_S2x128x128x128_d1 h_S_))

/-- A volume's sums over the voxels, per sample and class. -/
def voxSums (v : FVec F S2x2x128x128x128 .f32) : FVec F S2x2 .f32 :=
  Host.reduceAdd v (constant S_ .f32 0x00000000#32) reducesTo_S2x2x128x128x128_S2x2_d2_3_4 h_S_

/-- One Dice block: minus the mean over the classes of `2·I / max(ε, P + G)`, per sample. -/
def lossOf (L : FVec F S2x2x128x128x128 .f32) (lbl : IVec S2x1x128x128x128 32) : FVec F S2 .f32 :=
  Host.negf (Host.divf
    (Host.reduceAdd
      (Host.divf
        (mulf (broadcastInDim S2x2 ![] bcast_S_S2x2 (constant S_ .f32 0x40000000#32)) (voxSums (mulf (softmaxOf L) (oneHotOf (F := F) lbl))))
        (maximumf (broadcastInDim S2x2 ![] bcast_S_S2x2 (constant S_ .f32 0x322BCC77#32))
          (addf (voxSums (softmaxOf L)) (voxSums (oneHotOf (F := F) lbl)))))
      (constant S_ .f32 0x00000000#32) reducesTo_S2x2_S2_d1 h_S_)
    (broadcastInDim S2 ![] bcast_S_S2 (constant S_ .f32 0x40000000#32)))

/-! ## The layout operations at an index -/

/-- A volume with one class laid over the two classes reads the operand at the same sample and voxel. -/
theorem bcastClass_apply {α : Type} (x : S2x1x128x128x128.Idx → α) (b ch : Fin 2) (z h w : Fin 128) :
    broadcastInDim S2x2x128x128x128 ![0, 1, 2, 3, 4] bcast_S2x1x128x128x128_S2x2x128x128x128_0_1_2_3_4 x (ix5 b ch z h w)
      = x (ix5 b (0 : Fin 1) z h w) :=
  broadcastInDim_apply _ bcast_S2x1x128x128x128_S2x2x128x128x128_0_1_2_3_4 x (ix5 b ch z h w) (ix5 b (0 : Fin 1) z h w)
    (fun a => match a with
    | ⟨0, _⟩ => by show b.val = if (2 : Nat) = 1 then 0 else b.val; rw [if_neg (by decide)]
    | ⟨1, _⟩ => by show 0 = if (1 : Nat) = 1 then 0 else ch.val; rw [if_pos rfl]
    | ⟨2, _⟩ => by show z.val = if (128 : Nat) = 1 then 0 else z.val; rw [if_neg (by decide)]
    | ⟨3, _⟩ => by show h.val = if (128 : Nat) = 1 then 0 else h.val; rw [if_neg (by decide)]
    | ⟨4, _⟩ => by show w.val = if (128 : Nat) = 1 then 0 else w.val; rw [if_neg (by decide)])

/-- A volume without a class axis given a class axis of length one. -/
theorem bcastUnit_apply {α : Type} (x : S2x128x128x128.Idx → α) (b : Fin 2) (c : Fin 1) (z h w : Fin 128) :
    broadcastInDim S2x1x128x128x128 ![0, 2, 3, 4] bcast_S2x128x128x128_S2x1x128x128x128_0_2_3_4 x (ix5 b c z h w)
      = x (ix4 b z h w) :=
  broadcastInDim_apply _ bcast_S2x128x128x128_S2x1x128x128x128_0_2_3_4 x (ix5 b c z h w) (ix4 b z h w)
    (fun a => match a with
    | ⟨0, _⟩ => by show b.val = if (2 : Nat) = 1 then 0 else b.val; rw [if_neg (by decide)]
    | ⟨1, _⟩ => by show z.val = if (128 : Nat) = 1 then 0 else z.val; rw [if_neg (by decide)]
    | ⟨2, _⟩ => by show h.val = if (128 : Nat) = 1 then 0 else h.val; rw [if_neg (by decide)]
    | ⟨3, _⟩ => by show w.val = if (128 : Nat) = 1 then 0 else w.val; rw [if_neg (by decide)])

/-- A volume [2,128,128,128] laid back over the class axis reads the volume at the sample and voxel. -/
theorem overClasses_apply (v : FVec F S2x128x128x128 .f32) (b ch : Fin 2) (z h w : Fin 128) :
    overClasses v (ix5 b ch z h w) = v (ix4 b z h w) := by
  unfold overClasses
  rw [bcastClass_apply, bcastUnit_apply]

/-- The class numbers laid over the volume: at class `ch` the word of `ch`. -/
theorem classWord_apply (b ch : Fin 2) (z h w : Fin 128) :
    broadcastInDim S2x2x128x128x128 ![0, 1, 2, 3, 4] bcast_S1x2x1x1x1_S2x2x128x128x128_0_1_2_3_4
      (shapeCast S1x2x1x1x1 (iotaInDim S2 32 0) shapeCasts_S2_S1x2x1x1x1) (ix5 b ch z h w) = BitVec.ofNat 32 ch.val := by
  refine (broadcastInDim_apply _ bcast_S1x2x1x1x1_S2x2x128x128x128_0_1_2_3_4 _ (ix5 b ch z h w)
    (ix5 (0 : Fin 1) ch (0 : Fin 1) (0 : Fin 1) (0 : Fin 1)) (fun a => match a with
    | ⟨0, _⟩ => by show 0 = if (1 : Nat) = 1 then 0 else b.val; rw [if_pos rfl]
    | ⟨1, _⟩ => by show ch.val = if (2 : Nat) = 1 then 0 else ch.val; rw [if_neg (by decide)]
    | ⟨2, _⟩ => by show 0 = if (1 : Nat) = 1 then 0 else z.val; rw [if_pos rfl]
    | ⟨3, _⟩ => by show 0 = if (1 : Nat) = 1 then 0 else h.val; rw [if_pos rfl]
    | ⟨4, _⟩ => by show 0 = if (1 : Nat) = 1 then 0 else w.val; rw [if_pos rfl])).trans ?_
  refine (shapeCast_apply (iotaInDim S2 32 0) shapeCasts_S2_S1x2x1x1x1
    (ix5 (0 : Fin 1) ch (0 : Fin 1) (0 : Fin 1) (0 : Fin 1)) (ix1 ch) ?_).trans rfl
  rewrite [Shape.rowMajor_val_one, Shape.rowMajor_val_five]
  have h1 : ch.val < 2 := ch.isLt
  show ch.val = ((((0 * 2 + ch.val) * 1 + 0) * 1 + 0) * 1 + 0)
  omega

/-- The one-hot volume at a voxel: the unsigned reading of "label word = class word". -/
theorem oneHotOf_apply (lbl : IVec S2x1x128x128x128 32) (b ch : Fin 2) (z h w : Fin 128) :
    oneHotOf (F := F) lbl (ix5 b ch z h w)
      = FloatOps.uitofp .f32 (IntOp.cmpi .eq (lbl (ix5 b (0 : Fin 1) z h w)) (BitVec.ofNat 32 ch.val)) := by
  show FloatOps.uitofp .f32 (IntOp.cmpi .eq _ _) = _
  rw [bcastClass_apply, classWord_apply]

/-! ## The shifted exponentials and the softmax at a voxel -/

/-- The word of minus infinity. -/
theorem negInf_eq : Ideal.ofBits .f32 0xFF800000#32 = (⊥ : EReal) := by simp [Ideal.ofBits, Ideal.ieee]

/-- A fold of the maximum over two indices. -/
theorem fold_max_fin2 (i : EReal) (f : Fin 2 → EReal) :
    (Finset.univ : Finset (Fin 2)).fold max i f = max (f 0) (max (f 1) i) := by
  have hu : (Finset.univ : Finset (Fin 2)) = insert 0 {1} := by decide
  rw [hu, Finset.fold_insert (by decide), Finset.fold_singleton]

/-- The class axis put back into an index without it. -/
theorem lift_class (hR : S2x2x128x128x128.Reduces [(1 : Fin 5)] S2x128x128x128) (b : Fin 2) (z h w : Fin 128) (k : Fin 2) :
    hR.lift (ix4 b z h w) k = ix5 b k z h w :=
  funext fun a => Fin.ext (by
    match a with | ⟨0, _⟩ => rfl | ⟨1, _⟩ => rfl | ⟨2, _⟩ => rfl | ⟨3, _⟩ => rfl | ⟨4, _⟩ => rfl)

/-- The maximum over the two classes from minus infinity is the maximum of the two logits. -/
theorem classMax_apply (L : FVec Ideal S2x2x128x128x128 .f32) (b : Fin 2) (z h w : Fin 128) :
    Host.reduce FloatOps.maximumf L (constant (F := Ideal) S_ .f32 0xFF800000#32)
        reducesTo_S2x2x128x128x128_S2x128x128x128_d1 h_S_ (ix4 b z h w)
      = max (L (ix5 b (0 : Fin 2) z h w)) (L (ix5 b (1 : Fin 2) z h w)) := by
  have hR : S2x2x128x128x128.Reduces [(1 : Fin 5)] S2x128x128x128 := by decide
  refine (Host.reduce_eq_fold_single FloatOps.maximumf L _ reducesTo_S2x2x128x128x128_S2x128x128x128_d1 hR h_S_
    (ix4 b z h w)).trans ?_
  refine (fold_max_fin2 _ _).trans ?_
  show max (L (hR.lift (ix4 b z h w) (0 : Fin 2))) (max (L (hR.lift (ix4 b z h w) (1 : Fin 2)))
    (Ideal.ofBits .f32 0xFF800000#32)) = _
  rw [lift_class, lift_class, negInf_eq, max_bot_right]

/-- The shift: the maximum of minus infinity and the classes' maximum. -/
theorem shiftMax_apply (L : FVec Ideal S2x2x128x128x128 .f32) (b : Fin 2) (z h w : Fin 128) :
    maximumf (broadcastInDim S2x128x128x128 ![] bcast_S_S2x128x128x128 (constant (F := Ideal) S_ .f32 0xFF800000#32))
        (Host.reduce FloatOps.maximumf L (constant (F := Ideal) S_ .f32 0xFF800000#32)
          reducesTo_S2x2x128x128x128_S2x128x128x128_d1 h_S_) (ix4 b z h w)
      = max (L (ix5 b (0 : Fin 2) z h w)) (L (ix5 b (1 : Fin 2) z h w)) := by
  rw [maximumf_apply, broadcastInDim_scalar_apply, constant_apply, negInf_eq, classMax_apply, max_bot_left]

/-- The shifted exponential at a voxel. -/
theorem expShifted_apply (L : FVec Ideal S2x2x128x128x128 .f32) (b ch : Fin 2) (z h w : Fin 128) :
    expShifted (F := Ideal) L (ix5 b ch z h w)
      = Ideal.exp (L (ix5 b ch z h w) - max (L (ix5 b (0 : Fin 2) z h w)) (L (ix5 b (1 : Fin 2) z h w))) := by
  unfold expShifted
  show Ideal.exp (L (ix5 b ch z h w) - overClasses (F := Ideal) _ (ix5 b ch z h w)) = _
  rw [overClasses_apply, shiftMax_apply]

open Cert.BlobDice in
/-- The softmax at a voxel: the class's shifted exponential over the two classes' sum from zero. -/
theorem softmaxOf_apply (L : FVec Ideal S2x2x128x128x128 .f32) (b ch : Fin 2) (z h w : Fin 128) :
    softmaxOf (F := Ideal) L (ix5 b ch z h w)
      = Ideal.div (expShifted (F := Ideal) L (ix5 b ch z h w))
          (ZERO + (expShifted (F := Ideal) L (ix5 b (0 : Fin 2) z h w) + expShifted (F := Ideal) L (ix5 b (1 : Fin 2) z h w))) := by
  have hR : S2x2x128x128x128.Reduces [(1 : Fin 5)] S2x128x128x128 := by decide
  unfold softmaxOf
  show Ideal.div (expShifted (F := Ideal) L (ix5 b ch z h w)) (overClasses (F := Ideal) _ (ix5 b ch z h w)) = _
  rw [overClasses_apply]
  refine congrArg (Ideal.div _) ?_
  refine (hostReduceAdd_apply _ _ _ _ _).trans ?_
  refine (Ideal.hostReduceAdd_single reducesTo_S2x2x128x128x128_S2x128x128x128_d1 hR _ _ _).trans ?_
  refine congrArg (ZERO + ·) ((Fin.sum_univ_two _).trans ?_)
  show expShifted (F := Ideal) L (hR.lift (ix4 b z h w) (0 : Fin 2)) + expShifted (F := Ideal) L (hR.lift (ix4 b z h w) (1 : Fin 2)) = _
  rw [lift_class, lift_class]

/-! ## The constants' words and the two-class softmax on real numbers -/

open Cert.BlobDice in
private theorem ZERO_eq : ZERO = ((0 : ℝ) : EReal) := by
  simp [ZERO, Ideal.ofBits, Ideal.ieee]

open Cert.BlobDice in
private theorem ONE_eq : ONE = ((1 : ℝ) : EReal) := by
  simp [ONE, Ideal.ofBits, Ideal.ieee]
  rw [← EReal.coe_mul]; norm_num

/-- The maximum of two real numbers in the extended reals is their real maximum (the coercion is monotone). -/
private theorem max_coe (x y : ℝ) : max (x : EReal) (y : EReal) = ((max x y : ℝ) : EReal) :=
  (EReal.coe_strictMono.monotone.map_max).symm

/-- The two-class softmax of real logits, shifted by any number, is the logistic of the difference (class 1) and its
    complement (class 0): `exp (a - m) = exp (-(c - a)) · exp (c - m)`, and `exp (c - m)` cancels. -/
private theorem softmax2_one (a c m : ℝ) :
    Real.exp (c - m) * (1 / (0 + (Real.exp (a - m) + Real.exp (c - m)))) = (1 + Real.exp (-(c - a)))⁻¹ := by
  have h : Real.exp (a - m) = Real.exp (-(c - a)) * Real.exp (c - m) := by
    rw [← Real.exp_add]; congr 1; ring
  rw [h]
  have hp : Real.exp (c - m) ≠ 0 := (Real.exp_pos _).ne'
  have hq : 1 + Real.exp (-(c - a)) ≠ 0 := by positivity
  field_simp
  ring

private theorem softmax2_zero (a c m : ℝ) :
    Real.exp (a - m) * (1 / (0 + (Real.exp (a - m) + Real.exp (c - m)))) = 1 - (1 + Real.exp (-(c - a)))⁻¹ := by
  have h : Real.exp (a - m) = Real.exp (-(c - a)) * Real.exp (c - m) := by
    rw [← Real.exp_add]; congr 1; ring
  rw [h]
  have hp : Real.exp (c - m) ≠ 0 := (Real.exp_pos _).ne'
  have hq : 1 + Real.exp (-(c - a)) ≠ 0 := by positivity
  field_simp
  ring

open Cert.BlobDice in
/-- With real logits `a` (class 0) and `c` (class 1) the softmax quotient of class `ch` is the probability of the
    specification: every piece is a real number, the denominator a positive one. -/
theorem softmax_real (x : Fin 2 → ℝ) (ch : Fin 2) :
    Ideal.div (Ideal.exp ((x ch : EReal) - max (x 0 : EReal) (x 1 : EReal)))
        (ZERO + (Ideal.exp ((x 0 : EReal) - max (x 0 : EReal) (x 1 : EReal))
          + Ideal.exp ((x 1 : EReal) - max (x 0 : EReal) (x 1 : EReal))))
      = prob ch (x 0 : EReal) (x 1 : EReal) := by
  have hne : (0 + (Real.exp (x 0 - max (x 0) (x 1)) + Real.exp (x 1 - max (x 0) (x 1))) : ℝ) ≠ 0 := by positivity
  rw [max_coe, ← EReal.coe_sub, ← EReal.coe_sub, ← EReal.coe_sub, Ideal.exp_coe, Ideal.exp_coe, Ideal.exp_coe, ZERO_eq,
    ← EReal.coe_add, ← EReal.coe_add, Ideal.div_coe hne, ← EReal.coe_mul]
  unfold prob
  rw [← EReal.coe_sub, Ideal.logistic_coe, ONE_eq, ← EReal.coe_sub]
  match ch with
  | ⟨0, _⟩ => exact congrArg _ (softmax2_zero (x 0) (x 1) _)
  | ⟨1, _⟩ => exact congrArg _ (softmax2_one (x 0) (x 1) _)

open Cert.BlobDice in
/-- For a label word 0 or 1 the unsigned reading of "label word = class word" is the one-hot value of the class:
    the word read as a number (class 1) or its complement (class 0). Four cases, each a computation on literals. -/
theorem oneHot_word (ch : Fin 2) (yw : BitVec 32) (hy : yw = 0#32 ∨ yw = 1#32) :
    FloatOps.uitofp (F := Ideal) .f32 (IntOp.cmpi .eq yw (BitVec.ofNat 32 ch.val)) = oneHot ch (wordF yw) := by
  show ((((IntOp.cmpi .eq yw (BitVec.ofNat 32 ch.val)).toNat : ℕ) : ℝ) : EReal) = _
  unfold oneHot wordF
  rw [ONE_eq, ← EReal.coe_sub]
  rcases hy with rfl | rfl <;> match ch with
  | ⟨0, _⟩ => simp [IntOp.cmpi]
  | ⟨1, _⟩ => simp [IntOp.cmpi]

/-! ## The voxel sums -/

open Cert.BlobDice in
/-- A volume's sum over the voxels at sample `b` and class `ch`: the zero initial value plus the sum over the source
    indices whose first two coordinates are `(b, ch)`, re-indexed by the three voxel coordinates. -/
theorem voxSums_apply (v : FVec Ideal S2x2x128x128x128 .f32) (b ch : Fin 2) :
    voxSums (F := Ideal) v (ix2 b ch) = ZERO + sumVox fun z h w => v (ix5 b ch z h w) := by
  have hd0 : ∀ i : S2x2x128x128x128.Idx, ((reducesTo_S2x2x128x128x128_S2x2_d2_3_4.drop i (0 : Fin 2) : Fin 2) : ℕ) = (i (0 : Fin 5)).val :=
    fun i => reducesTo_S2x2x128x128x128_S2x2_d2_3_4.drop_apply_val_of_eq i (0 : Fin 2) (0 : Fin 5)
  have hd1 : ∀ i : S2x2x128x128x128.Idx, ((reducesTo_S2x2x128x128x128_S2x2_d2_3_4.drop i (1 : Fin 2) : Fin 2) : ℕ) = (i (1 : Fin 5)).val :=
    fun i => reducesTo_S2x2x128x128x128_S2x2_d2_3_4.drop_apply_val_of_eq i (1 : Fin 2) (1 : Fin 5)
  have hdrop : ∀ z h w : Fin 128, reducesTo_S2x2x128x128x128_S2x2_d2_3_4.drop (ix5 b ch z h w) = ix2 b ch := fun z h w =>
    funext fun a => Fin.ext (by
      match a with
      | ⟨0, _⟩ => exact hd0 _
      | ⟨1, _⟩ => exact hd1 _)
  have hback : ∀ i : S2x2x128x128x128.Idx, reducesTo_S2x2x128x128x128_S2x2_d2_3_4.drop i = ix2 b ch →
      ix5 b ch (i 2) (i 3) (i 4) = i := fun i hi => by
    have h0 : i 0 = b := Fin.ext ((hd0 i).symm.trans (congrArg (fun j : S2x2.Idx => (j 0).val) hi))
    have h1 : i 1 = ch := Fin.ext ((hd1 i).symm.trans (congrArg (fun j : S2x2.Idx => (j 1).val) hi))
    rw [← h0, ← h1]
    exact (eq_ix5 i).symm
  unfold voxSums
  refine (hostReduceAdd_apply _ _ _ _ _).trans ?_
  unfold Ideal.hostReduceAdd
  refine congrArg (ZERO + ·) ?_
  refine (Finset.sum_nbij' (t := (Finset.univ : Finset (Fin 128 × Fin 128 × Fin 128)))
    (g := fun p => v (ix5 b ch p.1 p.2.1 p.2.2))
    (fun i => (i 2, i 3, i 4)) (fun p => ix5 b ch p.1 p.2.1 p.2.2) ?_ ?_ ?_ ?_ ?_).trans ?_
  · intro i _; exact Finset.mem_univ _
  · intro p _; exact Finset.mem_filter.2 ⟨Finset.mem_univ _, hdrop _ _ _⟩
  · intro i hi; exact hback i (Finset.mem_filter.1 hi).2
  · intro p _; rfl
  · intro i hi; exact congrArg v (hback i (Finset.mem_filter.1 hi).2).symm
  · unfold sumVox
    refine (Fintype.sum_prod_type _).trans (Finset.sum_congr rfl fun z _ => ?_)
    exact Fintype.sum_prod_type _

open Cert.BlobDice in
/-- One Dice block at sample `b`, for real logits and labels that are 0 or 1: the voxel sums of probability × one-hot,
    of the probability and of the one-hot value, each from a zero initial value, in the quotient and the mean. -/
theorem lossOf_apply (L : FVec Ideal S2x2x128x128x128 .f32) (lbl : IVec S2x1x128x128x128 32)
    (hL : ∀ i, ∃ r : ℝ, L i = (r : EReal)) (hlbl : ∀ i, lbl i = 0#32 ∨ lbl i = 1#32) (b : Fin 2) :
    lossOf (F := Ideal) L lbl (ix1 b)
      = -(Ideal.div (ZERO + ∑ ch : Fin 2,
            Ideal.div
              (TWO * (ZERO + sumVox fun z h w => prob ch (L (ix5 b (0 : Fin 2) z h w)) (L (ix5 b (1 : Fin 2) z h w)) * oneHot ch (wordF (lbl (ix5 b (0 : Fin 1) z h w)))))
              (max EPS ((ZERO + sumVox fun z h w => prob ch (L (ix5 b (0 : Fin 2) z h w)) (L (ix5 b (1 : Fin 2) z h w)))
                + (ZERO + sumVox fun z h w => oneHot ch (wordF (lbl (ix5 b (0 : Fin 1) z h w)))))))
          TWO) := by
  choose r hr using hL
  have hR : S2x2.Reduces [(1 : Fin 2)] S2 := by decide
  have hlift : ∀ k : Fin 2, hR.lift (ix1 b) k = ix2 b k := fun k => funext fun a => Fin.ext (by
    match a with | ⟨0, _⟩ => rfl | ⟨1, _⟩ => rfl)
  -- at a voxel: the softmax is the probability, the one-hot volume the one-hot value
  have hsm : ∀ (ch : Fin 2) (z h w : Fin 128), softmaxOf (F := Ideal) L (ix5 b ch z h w)
      = prob ch (L (ix5 b (0 : Fin 2) z h w)) (L (ix5 b (1 : Fin 2) z h w)) := by
    intro ch z h w
    rw [softmaxOf_apply, expShifted_apply, expShifted_apply, expShifted_apply,
      hr (ix5 b ch z h w), hr (ix5 b (0 : Fin 2) z h w), hr (ix5 b (1 : Fin 2) z h w)]
    exact softmax_real (fun k => r (ix5 b k z h w)) ch
  have hoh : ∀ (ch : Fin 2) (z h w : Fin 128), oneHotOf (F := Ideal) lbl (ix5 b ch z h w)
      = oneHot ch (wordF (lbl (ix5 b (0 : Fin 1) z h w))) := fun ch z h w =>
    (oneHotOf_apply lbl b ch z h w).trans (oneHot_word ch _ (hlbl _))
  -- the three voxel sums
  have hI : ∀ ch : Fin 2, voxSums (F := Ideal) (mulf (softmaxOf (F := Ideal) L) (oneHotOf (F := Ideal) lbl)) (ix2 b ch)
      = ZERO + sumVox fun z h w => prob ch (L (ix5 b (0 : Fin 2) z h w)) (L (ix5 b (1 : Fin 2) z h w))
          * oneHot ch (wordF (lbl (ix5 b (0 : Fin 1) z h w))) := by
    intro ch
    rw [voxSums_apply]
    refine congrArg (ZERO + ·) (congrArg sumVox (funext fun z => funext fun h => funext fun w => ?_))
    rw [mulf_apply, hsm, hoh]
  have hP : ∀ ch : Fin 2, voxSums (F := Ideal) (softmaxOf (F := Ideal) L) (ix2 b ch)
      = ZERO + sumVox fun z h w => prob ch (L (ix5 b (0 : Fin 2) z h w)) (L (ix5 b (1 : Fin 2) z h w)) := by
    intro ch
    rw [voxSums_apply]
    exact congrArg (ZERO + ·) (congrArg sumVox (funext fun z => funext fun h => funext fun w => hsm ch z h w))
  have hG : ∀ ch : Fin 2, voxSums (F := Ideal) (oneHotOf (F := Ideal) lbl) (ix2 b ch)
      = ZERO + sumVox fun z h w => oneHot ch (wordF (lbl (ix5 b (0 : Fin 1) z h w))) := by
    intro ch
    rw [voxSums_apply]
    exact congrArg (ZERO + ·) (congrArg sumVox (funext fun z => funext fun h => funext fun w => hoh ch z h w))
  -- the quotients, their sum over the classes from zero, the mean and the sign
  unfold lossOf
  show -(Ideal.div (Host.reduceAdd (F := Ideal) _ _ reducesTo_S2x2_S2_d1 h_S_ (ix1 b))
    (broadcastInDim S2 ![] bcast_S_S2 (constant (F := Ideal) S_ .f32 0x40000000#32) (ix1 b))) = _
  rw [broadcastInDim_scalar_apply, constant_apply]
  refine congrArg (fun t => -(Ideal.div t TWO)) ?_
  refine (hostReduceAdd_apply _ _ _ _ _).trans ?_
  refine (Ideal.hostReduceAdd_single reducesTo_S2x2_S2_d1 hR _ _ _).trans ?_
  refine congrArg (ZERO + ·) (Finset.sum_congr rfl fun (ch : Fin 2) _ => ?_)
  rw [hlift ch]
  show Ideal.div
    (broadcastInDim S2x2 ![] bcast_S_S2x2 (constant (F := Ideal) S_ .f32 0x40000000#32) (ix2 b ch)
      * voxSums (F := Ideal) _ (ix2 b ch))
    (max (broadcastInDim S2x2 ![] bcast_S_S2x2 (constant (F := Ideal) S_ .f32 0x322BCC77#32) (ix2 b ch))
      (voxSums (F := Ideal) _ (ix2 b ch) + voxSums (F := Ideal) _ (ix2 b ch))) = _
  rw [broadcastInDim_scalar_apply, broadcastInDim_scalar_apply, constant_apply, constant_apply, hI, hP, hG]
  rfl

end Cert.ReferenceIdeal.Dice

end
-- ==== Proof.RefAsm.lean ====
/-
  The reference program's result as one function of its three arguments: six Dice blocks — the logits against the
  binary labels, and for each blob number k = 1…5 the logits multiplied by the keep factor (0 at the voxels of the
  other blobs) against the indicator of blob k — combined by the host lines that follow them; and that function read
  as the loss in the arrangement that scores each variant on its own.
-/
import proofs.«404392_j2800318677066_2_alg».proof.ReferenceIdeal
import proofs.«404392_j2800318677066_2_alg».proof.Proof.Spec
import proofs.«404392_j2800318677066_2_alg».proof.Proof.RefBlock
import Idealize.ShloMosaic.Lib.Pipeline.Value
import Idealize.ShloMosaic.Lib.IdealHost
import Idealize.ShloMosaic.Lib.KernelVsHost
import Idealize.ShloMosaic.PureOps.Ideal.Laws

noncomputable section

open scoped BigOperators

namespace Cert.ReferenceIdeal.Asm

open Cert.ReferenceIdeal Cert.ReferenceIdeal.Dice Idealize.ShloMosaic Idealize.ShloMosaic.ValueIdx
open Cert.ReferenceIdeal.Facts₀ Cert.ReferenceIdeal.Facts

variable [Cert.ReferenceIdeal.Facts]
variable {F : FTy → Type} [FloatOps F]

/-- The foreground bit: the blob number is positive. -/
def fgOf (ML : IVec S2x1x128x128x128 32) : IVec S2x1x128x128x128 1 :=
  cmpi .sgt ML (broadcastInDim S2x1x128x128x128 ![] bcast_S_S2x1x128x128x128 (constantI S_ 32 0#32))

/-- The indicator bit of blob `k`. -/
def theOf (k : BitVec 32) (ML : IVec S2x1x128x128x128 32) : IVec S2x1x128x128x128 1 :=
  cmpi .eq ML (broadcastInDim S2x1x128x128x128 ![] bcast_S_S2x1x128x128x128 (constantI S_ 32 k))

/-- The logits of blob variant `k`: both classes' logits times the keep factor, NOT (foreground AND NOT this blob). -/
def logitsOf (k : BitVec 32) (X : FVec F S2x2x128x128x128 .f32) (ML : IVec S2x1x128x128x128 32) : FVec F S2x2x128x128x128 .f32 :=
  mulf X (broadcastInDim S2x2x128x128x128 ![0, 1, 2, 3, 4] bcast_S2x1x128x128x128_S2x2x128x128x128_0_1_2_3_4
    (uitofp .f32 (noti (andi (fgOf ML) (noti (theOf k ML))))))

/-- The labels of blob variant `k`: the indicator bit widened to a word. -/
def labelOf (k : BitVec 32) (ML : IVec S2x1x128x128x128 32) : IVec S2x1x128x128x128 32 :=
  extui 32 (theOf k ML) natLt_1_32

/-- The host lines after the six blocks: variant 0's mean over the samples times one half; the blob variants added up
    from zero, divided by five, their mean over the samples times one half; twice the first plus once the second. -/
def tailR (l0 l1 l2 l3 l4 l5 : FVec F S2 .f32) : FVec F S_ .f32 :=
  let v32 : FVec F S_ .f32 := mulf (Host.divf (Host.reduceAdd l0 (constant S_ .f32 0x00000000#32) reducesTo_S2_S_d0 h_S_) (constant S_ .f32 0x40000000#32)) (constant S_ .f32 0x3F000000#32)
  let acc : FVec F S2 .f32 := addf (addf (addf (addf (addf (broadcastInDim S2 ![] bcast_S_S2 (constant S_ .f32 0x00000000#32)) l1) l2) l3) l4) l5
  let v237 : FVec F S2 .f32 := Host.divf acc (broadcastInDim S2 ![] bcast_S_S2 (constant S_ .f32 0x40A00000#32))
  let v240 : FVec F S_ .f32 := mulf (Host.divf (Host.reduceAdd v237 (constant S_ .f32 0x00000000#32) reducesTo_S2_S_d0 h_S_) (constant S_ .f32 0x40000000#32)) (constant S_ .f32 0x3F000000#32)
  addf (mulf (constant S_ .f32 0x40000000#32) v32) (mulf (constant S_ .f32 0x3F800000#32) v240)

/-- The reference's result as a function of the logits `X`, the binary labels `Y` and the blob numbers `ML`. -/
def refTerm (X : FVec F S2x2x128x128x128 .f32) (Y ML : IVec S2x1x128x128x128 32) : FVec F S_ .f32 :=
  tailR (lossOf X Y)
    (lossOf (logitsOf 1#32 X ML) (labelOf 1#32 ML)) (lossOf (logitsOf 2#32 X ML) (labelOf 2#32 ML))
    (lossOf (logitsOf 3#32 X ML) (labelOf 3#32 ML)) (lossOf (logitsOf 4#32 X ML) (labelOf 4#32 ML))
    (lossOf (logitsOf 5#32 X ML) (labelOf 5#32 ML))

section Reading

open Cert.BlobDice

/-! ## The host lines read at the scalar's index -/

/-- The indices of a one-axis array are the values of its coordinate. -/
def coordEquiv {n : Nat} : (⟨1, ![n]⟩ : Shape).Idx ≃ Fin n where
  toFun i := i 0
  invFun b := ix1 b
  left_inv i := (eq_ix1 i).symm
  right_inv _ := rfl

/-- The sum of a [2] array over its one axis from the zero word, read at the scalar's index: every index of the array
    is summed, and the indices are the two samples. -/
theorem sumSamples_apply (x : FVec Ideal S2 .f32) (j : S_.Idx) :
    Host.reduceAdd (F := Ideal) x (constant (F := Ideal) S_ .f32 0x00000000#32) reducesTo_S2_S_d0 h_S_ j
      = ZERO + ∑ b : Fin 2, x (ix1 b) := by
  refine (hostReduceAdd_apply x _ reducesTo_S2_S_d0 h_S_ j).trans ?_
  refine (Ideal.hostReduceAdd_total reducesTo_S2_S_d0 (fun a => a.elim0) x _ j).trans ?_
  exact congrArg (ZERO + ·) (Fintype.sum_equiv coordEquiv x (fun b => x (ix1 b)) fun i => congrArg x (eq_ix1 i))

/-- The blob variants' losses of one sample added up one after the other from zero, divided by five. -/
def blobMean (l1 l2 l3 l4 l5 : FVec Ideal S2 .f32) : FVec Ideal S2 .f32 :=
  Host.divf (F := Ideal)
    (addf (addf (addf (addf (addf (broadcastInDim S2 ![] bcast_S_S2 (constant (F := Ideal) S_ .f32 0x00000000#32)) l1) l2) l3) l4) l5)
    (broadcastInDim S2 ![] bcast_S_S2 (constant (F := Ideal) S_ .f32 0x40A00000#32))

/-- The blob variants' mean at a sample: a constant broadcast reads the constant everywhere. -/
theorem blobMean_apply (l1 l2 l3 l4 l5 : FVec Ideal S2 .f32) (b : Fin 2) :
    blobMean l1 l2 l3 l4 l5 (ix1 b)
      = Ideal.div (((((ZERO + l1 (ix1 b)) + l2 (ix1 b)) + l3 (ix1 b)) + l4 (ix1 b)) + l5 (ix1 b)) FIVE := rfl

/-- The host lines in their two parts: twice (the mean over the samples of variant 0's losses, times one half) plus
    once (the mean over the samples of the blob variants' means, times one half). -/
theorem tailR_split (l0 l1 l2 l3 l4 l5 : FVec Ideal S2 .f32) (j : S_.Idx) :
    tailR (F := Ideal) l0 l1 l2 l3 l4 l5 j
      = TWO * (Ideal.div (Host.reduceAdd (F := Ideal) l0 (constant (F := Ideal) S_ .f32 0x00000000#32) reducesTo_S2_S_d0 h_S_ j) TWO * HALF)
        + ONE * (Ideal.div (Host.reduceAdd (F := Ideal) (blobMean l1 l2 l3 l4 l5) (constant (F := Ideal) S_ .f32 0x00000000#32) reducesTo_S2_S_d0 h_S_ j) TWO * HALF) := rfl

/-- The host lines at the scalar's index, over the six blocks' losses at the two samples. -/
theorem tailR_apply (l0 l1 l2 l3 l4 l5 : FVec Ideal S2 .f32) (L : Fin 2 → Fin 6 → EReal)
    (h0 : ∀ b, l0 (ix1 b) = L b 0) (h1 : ∀ b, l1 (ix1 b) = L b 1) (h2 : ∀ b, l2 (ix1 b) = L b 2)
    (h3 : ∀ b, l3 (ix1 b) = L b 3) (h4 : ∀ b, l4 (ix1 b) = L b 4) (h5 : ∀ b, l5 (ix1 b) = L b 5) (j : S_.Idx) :
    tailR (F := Ideal) l0 l1 l2 l3 l4 l5 j
      = TWO * (Ideal.div (ZERO + ∑ b : Fin 2, L b 0) TWO * HALF)
        + ONE * (Ideal.div (ZERO + ∑ b : Fin 2,
            Ideal.div (((((ZERO + L b 1) + L b 2) + L b 3) + L b 4) + L b 5) FIVE) TWO * HALF) := by
  refine (tailR_split l0 l1 l2 l3 l4 l5 j).trans ?_
  refine congrArg₂ (fun s t => TWO * (Ideal.div s TWO * HALF) + ONE * (Ideal.div t TWO * HALF)) ?_ ?_
  · refine (sumSamples_apply l0 j).trans (congrArg (ZERO + ·) (Finset.sum_congr rfl fun b _ => h0 b))
  · refine (sumSamples_apply _ j).trans (congrArg (ZERO + ·) (Finset.sum_congr rfl fun b _ => ?_))
    refine (blobMean_apply l1 l2 l3 l4 l5 b).trans ?_
    rw [h1 b, h2 b, h3 b, h4 b, h5 b]

/-! ## The mask, the logits and the labels of a blob variant at a voxel -/

/-- On one-bit words: NOT (a AND NOT b) read unsigned is ((a XOR 1) OR b) widened to 32 bits and read signed. -/
theorem keep_bits : ∀ a b : BitVec 1,
    ((IntOp.ori (IntOp.xori a 1#1) b).setWidth 32).toInt = ((~~~(IntOp.andi a (~~~b))).toNat : ℤ) := by decide

/-- A one-bit word widened to 32 bits is the word 0 or the word 1. -/
theorem widened_binary : ∀ t : BitVec 1, t.setWidth 32 = 0#32 ∨ t.setWidth 32 = 1#32 := by decide

/-- The mask NOT (foreground AND NOT blob k), converted to a number, at a voxel: the keep factor of blob k there. -/
theorem keep_apply (k : BitVec 32) (ML : IVec S2x1x128x128x128 32) (v : S2x1x128x128x128.Idx) :
    (uitofp .f32 (noti (andi (fgOf ML) (noti (theOf k ML)))) : FVec Ideal S2x1x128x128x128 .f32) v
      = keepF k (ML v) := by
  show (((~~~(IntOp.andi (IntOp.cmpi .sgt (ML v) 0#32) (~~~(IntOp.cmpi .eq (ML v) k)))).toNat : ℝ) : EReal)
    = ((((IntOp.ori (IntOp.xori (IntOp.cmpi .sgt (ML v) 0#32) 1#1) (IntOp.cmpi .eq (ML v) k)).setWidth 32).toInt : ℝ) : EReal)
  rw [keep_bits, Int.cast_natCast]

/-- The logits of blob variant k at a voxel, either class: the logit times the keep factor at the voxel (the mask is
    laid over the class axis, so both classes read it at class coordinate 0). -/
theorem logitsOf_apply (k : BitVec 32) (X : FVec Ideal S2x2x128x128x128 .f32) (ML : IVec S2x1x128x128x128 32)
    (b c : Fin 2) (z h w : Fin 128) :
    logitsOf (F := Ideal) k X ML (ix5 b c z h w)
      = X (ix5 b c z h w) * keepF k (ML (ix5 b (0 : Fin 1) z h w)) := by
  refine (mulf_apply X _ (ix5 b c z h w)).trans (congrArg (X (ix5 b c z h w) * ·) ?_)
  refine (broadcastInDim_apply _ bcast_S2x1x128x128x128_S2x2x128x128x128_0_1_2_3_4 _ (ix5 b c z h w)
    (ix5 b (0 : Fin 1) z h w) (fun a => ?_)).trans (keep_apply k ML _)
  match a with
  | ⟨0, _⟩ => show b.val = if (2 : Nat) = 1 then 0 else b.val; rw [if_neg (by decide)]
  | ⟨1, _⟩ => show 0 = if (1 : Nat) = 1 then 0 else c.val; rw [if_pos rfl]
  | ⟨2, _⟩ => show z.val = if (128 : Nat) = 1 then 0 else z.val; rw [if_neg (by decide)]
  | ⟨3, _⟩ => show h.val = if (128 : Nat) = 1 then 0 else h.val; rw [if_neg (by decide)]
  | ⟨4, _⟩ => show w.val = if (128 : Nat) = 1 then 0 else w.val; rw [if_neg (by decide)]

/-- The logits of a blob variant are real where the given logits are: a real number times 0 or 1. -/
theorem real_logitsOf (k : BitVec 32) (X : FVec Ideal S2x2x128x128x128 .f32) (ML : IVec S2x1x128x128x128 32)
    (hX : ∀ i, ∃ r : ℝ, X i = (r : EReal)) (i : S2x2x128x128x128.Idx) :
    ∃ r : ℝ, logitsOf (F := Ideal) k X ML i = (r : EReal) := by
  obtain ⟨b, c, z, h, w, rfl⟩ : ∃ b c z h w, i = ix5 b c z h w := ⟨i 0, i 1, i 2, i 3, i 4, eq_ix5 i⟩
  obtain ⟨r, hr⟩ := hX (ix5 b c z h w)
  refine ⟨r * ((((keepBit k (ML (ix5 b (0 : Fin 1) z h w))).setWidth 32).toInt : ℤ) : ℝ), ?_⟩
  rw [logitsOf_apply, hr]
  exact (EReal.coe_mul r _).symm

/-- The labels of a blob variant are the word 0 or the word 1: an indicator bit widened. -/
theorem labelOf_binary (k : BitVec 32) (ML : IVec S2x1x128x128x128 32) (v : S2x1x128x128x128.Idx) :
    labelOf k ML v = 0#32 ∨ labelOf k ML v = 1#32 :=
  widened_binary (IntOp.cmpi .eq (ML v) k)

/-- The label of blob variant k at a voxel, read as a number, is the indicator of blob k there. -/
theorem labelOf_wordF (k : BitVec 32) (ML : IVec S2x1x128x128x128 32) (v : S2x1x128x128x128.Idx) :
    wordF (labelOf k ML v) = hotF k (ML v) := rfl

/-! ## The six blocks as the losses of the six variants -/

/-- The loss of variant s at sample b from the voxel sums of its three summands, each from a zero initial value. -/
def lossAt (X : FVec Ideal S2x2x128x128x128 .f32) (Y ML : IVec S2x1x128x128x128 32) (b : Fin 2) (s : Fin 6) : EReal :=
  -(Ideal.div (ZERO + ∑ ch : Fin 2,
      Ideal.div (TWO * (ZERO + sumVox (vI X Y ML ch s b)))
        (max EPS ((ZERO + sumVox (vP X ML ch s b)) + (ZERO + sumVox (vG Y ML ch s b))))) TWO)

/-- Variant 0's block: the logits themselves against the binary labels. -/
theorem block0 (X : FVec Ideal S2x2x128x128x128 .f32) (Y ML : IVec S2x1x128x128x128 32)
    (hX : ∀ i, ∃ r : ℝ, X i = (r : EReal)) (hY : ∀ i, Y i = 0#32 ∨ Y i = 1#32) (b : Fin 2) :
    lossOf (F := Ideal) X Y (ix1 b) = lossAt X Y ML b 0 := by
  refine (lossOf_apply X Y hX hY b).trans ?_
  refine congrArg (fun t => -(Ideal.div (ZERO + t) TWO)) (Finset.sum_congr rfl fun ch _ => ?_)
  refine congrArg₂ Ideal.div
    (congrArg (fun f => TWO * (ZERO + sumVox f)) (funext fun z => funext fun h => funext fun w => ?_))
    (congrArg₂ (fun p g => max EPS ((ZERO + sumVox p) + (ZERO + sumVox g)))
      (funext fun z => funext fun h => funext fun w => ?_) (funext fun z => funext fun h => funext fun w => ?_))
  · unfold vI tI logit hot; rw [if_pos rfl, if_pos rfl, if_pos rfl]
  · unfold vP tP logit; rw [if_pos rfl, if_pos rfl]
  · unfold vG tG hot; rw [if_pos rfl]

/-- A blob variant's block: the logits times the keep factor of the variant's blob against that blob's indicator. -/
theorem blockK (s : Fin 6) (hs : s ≠ 0) (X : FVec Ideal S2x2x128x128x128 .f32) (Y ML : IVec S2x1x128x128x128 32)
    (hX : ∀ i, ∃ r : ℝ, X i = (r : EReal)) (b : Fin 2) :
    lossOf (F := Ideal) (logitsOf (blobWord s) X ML) (labelOf (blobWord s) ML) (ix1 b) = lossAt X Y ML b s := by
  refine (lossOf_apply _ _ (real_logitsOf (blobWord s) X ML hX) (labelOf_binary (blobWord s) ML) b).trans ?_
  refine congrArg (fun t => -(Ideal.div (ZERO + t) TWO)) (Finset.sum_congr rfl fun ch _ => ?_)
  refine congrArg₂ Ideal.div
    (congrArg (fun f => TWO * (ZERO + sumVox f)) (funext fun z => funext fun h => funext fun w => ?_))
    (congrArg₂ (fun p g => max EPS ((ZERO + sumVox p) + (ZERO + sumVox g)))
      (funext fun z => funext fun h => funext fun w => ?_) (funext fun z => funext fun h => funext fun w => ?_))
  · rw [logitsOf_apply, logitsOf_apply, labelOf_wordF]
    unfold vI tI logit hot; rw [if_neg hs, if_neg hs, if_neg hs]
  · rw [logitsOf_apply, logitsOf_apply]
    unfold vP tP logit; rw [if_neg hs, if_neg hs]
  · rw [labelOf_wordF]
    unfold vG tG hot; rw [if_neg hs]

end Reading

open Cert.BlobDice in
/-- For real logits and binary labels that are 0 or 1, the reference's result is the loss, each variant scored on its
    own, over the voxel sums (each from a zero initial value) of the per-voxel summands. -/
theorem refTerm_eq (X : FVec Ideal S2x2x128x128x128 .f32) (Y ML : IVec S2x1x128x128x128 32)
    (hX : ∀ i, ∃ r : ℝ, X i = (r : EReal)) (hY : ∀ i, Y i = 0#32 ∨ Y i = 1#32) :
    refTerm (F := Ideal) X Y ML
      = fun _ => lossSeparate (fun b ch s => ZERO + sumVox (vI X Y ML ch s b)) (fun b ch s => ZERO + sumVox (vP X ML ch s b))
          (fun b ch s => ZERO + sumVox (vG Y ML ch s b)) := by
  funext j
  exact tailR_apply _ _ _ _ _ _ (lossAt X Y ML) (block0 X Y ML hX hY)
    (blockK 1 (by decide) X Y ML hX) (blockK 2 (by decide) X Y ML hX) (blockK 3 (by decide) X Y ML hX)
    (blockK 4 (by decide) X Y ML hX) (blockK 5 (by decide) X Y ML hX) j

end Cert.ReferenceIdeal.Asm

end
-- ==== Proof.RefRun.lean ====
/-
  The reference program's run, with its result named: the term the run leaves in the result buffer is the six-block
  function of the three arguments (the same operations, grouped).
-/
import proofs.«404392_j2800318677066_2_alg».proof.Proof.RefRunP
import proofs.«404392_j2800318677066_2_alg».proof.Proof.RefAsm

set_option maxRecDepth 65536

noncomputable section

namespace Cert.ReferenceIdeal.RefRun

open Cert.ReferenceIdeal Cert.ReferenceIdeal.Gen Idealize.ShloMosaic Idealize.ShloMosaic.TcCoe Idealize.SL.Sem

variable {F : FTy → Type} [FloatOps F]

set_option maxHeartbeats 4000000 in
/-- The run's result term is the six Dice blocks combined: the same operations, grouped into the blocks and the lines
    after them. -/
theorem res_eq_refTerm (m : (ℓ : Loc nD τ sig) → Buf (Elt F) ℓ) (c : Dev nD) :
    Cert.ReferenceIdeal.ValueP.res_main_v243 m c
      = Cert.ReferenceIdeal.Asm.refTerm (F := F) (m ((c.tc : Thread nD τ).loc main_arg0)) (m ((c.tc : Thread nD τ).loc main_arg1))
          (m ((c.tc : Thread nD τ).loc main_arg2)) := by
  unfold Cert.ReferenceIdeal.ValueP.res_main_v243
  rfl

end Cert.ReferenceIdeal.RefRun

end
-- ==== Proof.PreDecode.lean ====
/-
  What the precondition says of the argument arrays: every logit is a real number, and every entry of the binary
  label volume is 0 or 1.
-/
import proofs.«404392_j2800318677066_2_alg».proof.Pre_finite_inputs
import proofs.«404392_j2800318677066_2_alg».proof.Proof.Spec
import Idealize.ShloMosaic.Lib.ReduceAll
import Idealize.ShloMosaic.PureOps.Ideal.Laws

noncomputable section

namespace Cert.BlobDice

open Idealize.ShloMosaic Idealize.ShloMosaic.ValueIdx

/-- An extended real whose absolute value, the maximum of x and -x, is strictly below the word of +∞ is a real number:
    the word 0x7F800000 reads as ⊤, and of the three kinds of extended real only a real has that maximum below ⊤ (for ⊥
    and for ⊤ the maximum is ⊤ itself). -/
private theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  induction x using EReal.rec with
  | bot => simp at h
  | coe r => exact ⟨r, rfl⟩
  | top => simp at h

/-- The precondition, all ones, gives: every logit is real (its absolute value is below +∞) and every binary-label
    word is 0 or 1 (one of the two comparisons holds at every index). -/
theorem pre_decode [Cert.Pre_finite_inputs.Facts] (X : FVec Ideal SX .f32) (Y ML : IVec SL 32)
    (h : Cert.Pre_finite_inputs.fn (F := Ideal) X Y ML = fun _ => 1#1) :
    (∀ i : SX.Idx, ∃ r : ℝ, X i = (r : EReal)) ∧ (∀ i : SL.Idx, Y i = 0#32 ∨ Y i = 1#32) := by
  -- The result has a single index; read the precondition there.
  have h0 := congrFun h ValueIdx.ix0
  dsimp only [Cert.Pre_finite_inputs.fn] at h0
  haveI : Subsingleton Cert.Pre_finite_inputs.S_.Idx := ⟨fun a b => funext fun d => d.elim0⟩
  -- A conjunction of two bits is 1 only if both are: the conjunction over the logits and the one over the labels.
  obtain ⟨hA, hB⟩ := IntOp.andi_eq_one.1 h0
  refine ⟨fun i => ?_, fun i => ?_⟩
  · -- A conjunction over all indices that is 1 has a 1 at index i: |X i| < +∞ (the bound is the same at every index).
    have e := Host.reduce_andi_all _ _ _ _ _ hA i
    exact real_of_abs_lt_inf (X i) e
  · -- Likewise at index i of the labels: (Y i = 0) or (Y i = 1) as bits; a disjunction that is 1 has a side that is 1,
    -- and an equality test that is 1 is an equality.
    have e := Host.reduce_andi_all _ _ _ _ _ hB i
    rcases IntOp.ori_eq_one.1 e with e1 | e1
    · exact Or.inl (IntOp.cmpi_eq.1 e1)
    · exact Or.inr (IntOp.cmpi_eq.1 e1)

end Cert.BlobDice

end
-- ==== Proof.Algebra.lean ====
/-
  The algebra that joins the two arrangements of the blob-wise Dice loss: the depth-blocked order of a voxel sum
  against the coordinate order; realness of every summand and sum when the logits are real; the two-class softmax
  against the logistic of the logit difference; and the two arrangements of the final linear combination.
-/
import proofs.«404392_j2800318677066_2_alg».proof.Proof.Spec
import Mathlib.Analysis.SpecialFunctions.Exp
import Mathlib.Algebra.BigOperators.Fin
import Mathlib.Tactic

noncomputable section

open scoped BigOperators

namespace Cert.BlobDice

open Idealize.ShloMosaic Idealize.ShloMosaic.ValueIdx

/-! ## The constants' words as real numbers -/

theorem ZERO_eq : ZERO = ((0 : ℝ) : EReal) := by
  simp [ZERO, Ideal.ofBits, Ideal.ieee]

theorem ONE_eq : ONE = ((1 : ℝ) : EReal) := by
  simp [ONE, Ideal.ofBits, Ideal.ieee]
  rw [← EReal.coe_mul]; norm_num

theorem TWO_eq : TWO = ((2 : ℝ) : EReal) := by
  simp [TWO, Ideal.ofBits, Ideal.ieee]
  rw [← EReal.coe_mul]; norm_num

theorem FIVE_eq : FIVE = ((5 : ℝ) : EReal) := by
  simp [FIVE, Ideal.ofBits, Ideal.ieee]
  rw [← EReal.coe_mul]; norm_num

theorem HALF_eq : HALF = ((1/2 : ℝ) : EReal) := by
  simp [HALF, Ideal.ofBits, Ideal.ieee]
  rw [← EReal.coe_mul]; norm_num

/-- The floor is a positive real number (the word's value 11258999 · 2⁻⁵⁰). -/
theorem EPS_eq : ∃ e : ℝ, 0 < e ∧ EPS = ((e : ℝ) : EReal) := by
  refine ⟨11258999 * (2 ^ 50)⁻¹, by positivity, ?_⟩
  simp [EPS, Ideal.ofBits, Ideal.ieee]

/-! ## The depth-blocked order against the coordinate order -/

/-- The equivalence between (slab, row in slab) and (plane, row). -/
def slabEquiv : Fin 8 × Fin 2048 ≃ Fin 128 × Fin 128 where
  toFun p := (⟨16 * p.1.val + p.2.val / 128, by have := p.1.isLt; have := p.2.isLt; omega⟩,
              ⟨p.2.val % 128, Nat.mod_lt _ (by norm_num)⟩)
  invFun q := (⟨q.1.val / 16, by have := q.1.isLt; omega⟩,
               ⟨(q.1.val % 16) * 128 + q.2.val, by have := q.1.isLt; have := q.2.isLt; omega⟩)
  left_inv := by
    rintro ⟨⟨d, hd⟩, ⟨r, hr⟩⟩
    refine Prod.ext (Fin.ext ?_) (Fin.ext ?_)
    · show (16 * d + r / 128) / 16 = d
      omega
    · show ((16 * d + r / 128) % 16) * 128 + r % 128 = r
      omega
  right_inv := by
    rintro ⟨⟨z, hz⟩, ⟨h, hh⟩⟩
    refine Prod.ext (Fin.ext ?_) (Fin.ext ?_)
    · show 16 * (z / 16) + ((z % 16) * 128 + h) / 128 = z
      omega
    · show ((z % 16) * 128 + h) % 128 = h
      omega

/-- A sample's voxel sum does not depend on the order: 8 slabs × 2048 rows × 128 lanes against plane × row × lane.
    The inner sum over the lanes is untouched; the outer double sum is reindexed along `slabEquiv`. -/
theorem sumSlabs_eq_sumVox (f : Fin 128 → Fin 128 → Fin 128 → EReal) : sumSlabs f = sumVox f := by
  let g : Fin 128 → Fin 128 → EReal := fun z h => ∑ l : Fin 128, f z h l
  calc sumSlabs f
      = ∑ d : Fin 8, ∑ r : Fin 2048, g (slabEquiv (d, r)).1 (slabEquiv (d, r)).2 := rfl
    _ = ∑ p : Fin 8 × Fin 2048, g (slabEquiv p).1 (slabEquiv p).2 :=
        (Fintype.sum_prod_type' (fun d r => g (slabEquiv (d, r)).1 (slabEquiv (d, r)).2)).symm
    _ = ∑ q : Fin 128 × Fin 128, g q.1 q.2 := Fintype.sum_equiv slabEquiv _ _ (fun _ => rfl)
    _ = ∑ z : Fin 128, ∑ h : Fin 128, g z h := Fintype.sum_prod_type' g
    _ = sumVox f := rfl

/-! ## Realness -/

/-- A finite sum of real numbers is a real number (induction on the index set, the coercion being additive). -/
theorem real_sum {ι : Type*} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨r1, h1⟩ := h a (Finset.mem_insert_self a s)
    obtain ⟨r2, h2⟩ := ih (fun i hi => h i (Finset.mem_insert_of_mem hi))
    exact ⟨r1 + r2, by rw [Finset.sum_insert ha, h1, h2, EReal.coe_add]⟩

/-- A voxel sum of real numbers is a real number. -/
theorem real_sumVox (f : Fin 128 → Fin 128 → Fin 128 → EReal) (h : ∀ z y x, ∃ r : ℝ, f z y x = (r : EReal)) :
    ∃ r : ℝ, sumVox f = (r : EReal) := by
  unfold sumVox
  exact real_sum _ _ (fun z _ => real_sum _ _ (fun y _ => real_sum _ _ (fun x _ => h z y x)))

/-- A variant's logit of a real logit is real: the logit itself or its product with a keep factor 0 or 1. -/
theorem real_logit (s : Fin 6) (a : ℝ) (mw : BitVec 32) : ∃ r : ℝ, logit s (a : EReal) mw = (r : EReal) := by
  unfold logit keepF bitF
  split_ifs
  · exact ⟨a, rfl⟩
  · exact ⟨_, (EReal.coe_mul _ _).symm⟩

/-- The probabilities of real logits are real: the logistic of a real number and its complement to 1. -/
theorem real_prob (ch : Fin 2) (a c : ℝ) : ∃ r : ℝ, prob ch (a : EReal) (c : EReal) = (r : EReal) := by
  unfold prob
  rw [← EReal.coe_sub, Ideal.logistic_coe, ONE_eq]
  split_ifs
  · exact ⟨_, (EReal.coe_sub _ _).symm⟩
  · exact ⟨_, rfl⟩

/-- The class-1 one-hot value is a word read as a number, hence real. -/
theorem real_hot (s : Fin 6) (yw mw : BitVec 32) : ∃ r : ℝ, hot s yw mw = (r : EReal) := by
  unfold hot wordF hotF bitF
  split_ifs <;> exact ⟨_, rfl⟩

/-- The one-hot value of either class of a real class-1 value is real. -/
theorem real_oneHot (ch : Fin 2) (o : ℝ) : ∃ r : ℝ, oneHot ch (o : EReal) = (r : EReal) := by
  unfold oneHot
  rw [ONE_eq]
  split_ifs
  · exact ⟨_, (EReal.coe_sub _ _).symm⟩
  · exact ⟨_, rfl⟩

/-- With real logits every summand is real (the label and blob words may be anything). -/
theorem real_tP (ch : Fin 2) (s : Fin 6) (a c : ℝ) (mw : BitVec 32) : ∃ r : ℝ, tP ch s (a : EReal) (c : EReal) mw = (r : EReal) := by
  obtain ⟨a', ha⟩ := real_logit s a mw
  obtain ⟨c', hc⟩ := real_logit s c mw
  unfold tP
  rw [ha, hc]
  exact real_prob ch a' c'

/-- The one-hot summand is real whatever the words. -/
theorem real_tG (ch : Fin 2) (s : Fin 6) (yw mw : BitVec 32) : ∃ r : ℝ, tG ch s yw mw = (r : EReal) := by
  obtain ⟨o, ho⟩ := real_hot s yw mw
  unfold tG
  rw [ho]
  exact real_oneHot ch o

/-- The product summand is the product of the two real summands above. -/
theorem real_tI (ch : Fin 2) (s : Fin 6) (a c : ℝ) (yw mw : BitVec 32) : ∃ r : ℝ, tI ch s (a : EReal) (c : EReal) yw mw = (r : EReal) := by
  obtain ⟨p, hp⟩ := real_tP ch s a c mw
  obtain ⟨g, hg⟩ := real_tG ch s yw mw
  refine ⟨p * g, ?_⟩
  have : tI ch s (a : EReal) (c : EReal) yw mw = tP ch s (a : EReal) (c : EReal) mw * tG ch s yw mw := rfl
  rw [this, hp, hg, EReal.coe_mul]

/-! ## The two-class softmax -/

/-- The two-class softmax of real logits, shifted by their maximum, is the logistic of the difference (class 1) and
    its complement (class 0): `exp (a - m) = exp (-(c - a)) · exp (c - m)`, and `exp (c - m)` cancels. -/
theorem softmax2_one (a c : ℝ) :
    Real.exp (c - max a c) / (Real.exp (a - max a c) + Real.exp (c - max a c)) = (1 + Real.exp (-(c - a)))⁻¹ := by
  generalize max a c = m
  have h : Real.exp (a - m) = Real.exp (-(c - a)) * Real.exp (c - m) := by
    rw [← Real.exp_add]; congr 1; ring
  rw [h]
  have hp : Real.exp (c - m) ≠ 0 := (Real.exp_pos _).ne'
  have hq : 1 + Real.exp (-(c - a)) ≠ 0 := by positivity
  field_simp
  ring

/-- Class 0: the same cancellation, `E / (E + 1) = 1 - 1 / (1 + E)` with `E = exp (-(c - a))`. -/
theorem softmax2_zero (a c : ℝ) :
    Real.exp (a - max a c) / (Real.exp (a - max a c) + Real.exp (c - max a c)) = 1 - (1 + Real.exp (-(c - a)))⁻¹ := by
  generalize max a c = m
  have h : Real.exp (a - m) = Real.exp (-(c - a)) * Real.exp (c - m) := by
    rw [← Real.exp_add]; congr 1; ring
  rw [h]
  have hp : Real.exp (c - m) ≠ 0 := (Real.exp_pos _).ne'
  have hq : 1 + Real.exp (-(c - a)) ≠ 0 := by positivity
  field_simp
  ring

/-! ## The two arrangements of the loss -/

/-- The maximum of two real numbers in the extended reals is their real maximum (the coercion is monotone). -/
theorem max_coe (x y : ℝ) : max (x : EReal) (y : EReal) = ((max x y : ℝ) : EReal) :=
  (EReal.coe_strictMono.monotone.map_max).symm

/-- A Dice quotient of real sums is the real quotient, the floor on the right of the maximum. -/
theorem dice_right (i p g e : ℝ) (he : 0 < e) :
    Ideal.div (TWO * (i : EReal)) (max ((p : EReal) + (g : EReal)) (e : EReal))
      = ((2 * i * (1 / max (p + g) e) : ℝ) : EReal) := by
  have hne : max (p + g) e ≠ 0 := (lt_of_lt_of_le he (le_max_right _ _)).ne'
  rw [TWO_eq, ← EReal.coe_add, max_coe, ← EReal.coe_mul, Ideal.div_coe hne, ← EReal.coe_mul]

/-- The same with the floor on the left of the maximum. -/
theorem dice_left (i p g e : ℝ) (he : 0 < e) :
    Ideal.div (TWO * (i : EReal)) (max (e : EReal) ((p : EReal) + (g : EReal)))
      = ((2 * i * (1 / max (p + g) e) : ℝ) : EReal) := by
  rw [max_comm]; exact dice_right i p g e he

/-- On real sums the two arrangements of the loss agree: each Dice quotient is the same real number in both (the
    maximum is commutative, the denominator is at least the positive floor), and the two linear combinations of the 24
    quotients are equal in ℝ. -/
theorem lossStacked_eq_lossSeparate (I P G : Fin 2 → Fin 2 → Fin 6 → EReal)
    (hI : ∀ b ch s, ∃ r : ℝ, I b ch s = (r : EReal)) (hP : ∀ b ch s, ∃ r : ℝ, P b ch s = (r : EReal))
    (hG : ∀ b ch s, ∃ r : ℝ, G b ch s = (r : EReal)) :
    lossStacked I P G = lossSeparate I P G := by
  choose rI hI using hI
  choose rP hP using hP
  choose rG hG using hG
  obtain ⟨e, he, hE⟩ := EPS_eq
  -- the 24 Dice quotients, as real numbers
  let d : Fin 2 → Fin 2 → Fin 6 → ℝ := fun b ch s => 2 * rI b ch s * (1 / max (rP b ch s + rG b ch s) e)
  have hR : ∀ b ch s, Ideal.div (TWO * I b ch s) (max (P b ch s + G b ch s) EPS) = ((d b ch s : ℝ) : EReal) := by
    intro b ch s; rw [hI, hP, hG, hE]; exact dice_right _ _ _ _ he
  have hL : ∀ b ch s, Ideal.div (TWO * I b ch s) (max EPS (P b ch s + G b ch s)) = ((d b ch s : ℝ) : EReal) := by
    intro b ch s; rw [hI, hP, hG, hE]; exact dice_left _ _ _ _ he
  -- the successors of the five blob indices, as numerals
  have s0 : (0 : Fin 5).succ = (1 : Fin 6) := rfl
  have s1 : (1 : Fin 5).succ = (2 : Fin 6) := rfl
  have s2 : (2 : Fin 5).succ = (3 : Fin 6) := rfl
  have s3 : (3 : Fin 5).succ = (4 : Fin 6) := rfl
  have s4 : (4 : Fin 5).succ = (5 : Fin 6) := rfl
  have two_ne : (2 : ℝ) ≠ 0 := by norm_num
  have five_ne : (5 : ℝ) ≠ 0 := by norm_num
  simp only [lossStacked, lossSeparate, hR, hL]
  simp only [Fin.sum_univ_five, Fin.sum_univ_two, s0, s1, s2, s3, s4, ZERO_eq, ONE_eq, TWO_eq, FIVE_eq, HALF_eq,
    Ideal.div_coe two_ne, Ideal.div_coe five_ne, ← EReal.coe_add, ← EReal.coe_mul, ← EReal.coe_neg]
  congr 1
  ring

end Cert.BlobDice
end
-- ==== Proof.Bridge.lean ====
/-
  The two programs' results are one value: for real logits the stacked arrangement of the loss over the depth-blocked
  voxel sums equals the arrangement that scores each variant on its own over the coordinate-order voxel sums started
  from zero — the voxel sums do not depend on the order, zero added in front changes nothing, every sum is a real
  number, and on real sums the two arrangements agree.
-/
import proofs.«404392_j2800318677066_2_alg».proof.Proof.Spec
import proofs.«404392_j2800318677066_2_alg».proof.Proof.Algebra

noncomputable section

open scoped BigOperators

namespace Cert.BlobDice

open Idealize.ShloMosaic Idealize.ShloMosaic.ValueIdx

/-- For real logits the kernel's arrangement of the loss and the reference's are one extended real. -/
theorem stacked_eq_separate (X : SX.Idx → EReal) (Y ML : SL.Idx → BitVec 32) (hX : ∀ i, ∃ r : ℝ, X i = (r : EReal)) :
    lossStacked (fun b ch s => sumSlabs (vI X Y ML ch s b)) (fun b ch s => sumSlabs (vP X ML ch s b)) (fun b ch s => sumSlabs (vG Y ML ch s b))
      = lossSeparate (fun b ch s => ZERO + sumVox (vI X Y ML ch s b)) (fun b ch s => ZERO + sumVox (vP X ML ch s b))
          (fun b ch s => ZERO + sumVox (vG Y ML ch s b)) := by
  -- every voxel sum is a real number: each summand is, the logits being real
  have hI : ∀ b ch s, ∃ r : ℝ, sumVox (vI X Y ML ch s b) = (r : EReal) := fun b ch s =>
    real_sumVox _ (fun z y x => by
      obtain ⟨a, ha⟩ := hX (ix5 b (0 : Fin 2) z y x)
      obtain ⟨c, hc⟩ := hX (ix5 b (1 : Fin 2) z y x)
      unfold vI; rw [ha, hc]; exact real_tI ch s a c _ _)
  have hP : ∀ b ch s, ∃ r : ℝ, sumVox (vP X ML ch s b) = (r : EReal) := fun b ch s =>
    real_sumVox _ (fun z y x => by
      obtain ⟨a, ha⟩ := hX (ix5 b (0 : Fin 2) z y x)
      obtain ⟨c, hc⟩ := hX (ix5 b (1 : Fin 2) z y x)
      unfold vP; rw [ha, hc]; exact real_tP ch s a c _)
  have hG : ∀ b ch s, ∃ r : ℝ, sumVox (vG Y ML ch s b) = (r : EReal) := fun b ch s =>
    real_sumVox _ (fun z y x => real_tG ch s _ _)
  -- zero added in front changes nothing
  have hzero : ∀ x : EReal, ZERO + x = x := fun x => by rw [ZERO_eq, EReal.coe_zero, zero_add]
  -- the depth-blocked order is the coordinate order; then the two arrangements agree on real sums
  simp only [sumSlabs_eq_sumVox, hzero]
  exact lossStacked_eq_lossSeparate _ _ _ hI hP hG

end Cert.BlobDice

end
-- ==== Proof.KernelBody.lean ====
/-
  What one grid point adds to the kernel's three accumulators, as one function of the point's three input blocks and
  the accumulator's earlier contents, and that function read at an entry: the earlier entry plus the sum, over the
  block's 2048 rows of 128 lanes, of the entry's summand (probability × one-hot, probability, one-hot) of class `ch`
  and variant `s`.
-/
import proofs.«404392_j2800318677066_2_alg».proof.Proof.Gen.KernelIdeal.Skeleton
import proofs.«404392_j2800318677066_2_alg».proof.Proof.Spec
import Idealize.ShloMosaic.Lib.Pipeline.Value
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx

variable {F : FTy → Type} [FloatOps F]

/-- The accumulator of the probability × one-hot sums after a point: the point's contribution, the six variants'
    pairs of block sums stacked along the last axis, added to the earlier contents `xs`. `x0` is the block of logits,
    `x1` the block of binary labels, `x2` the block of blob numbers. -/
def addI (x0 : Vec F S1x2x16x128x128 .f32) (x1 x2 : Vec F S1x1x16x128x128 .i32) (xs : Vec F S1x2x6 .f32) : FVec F S1x2x6 .f32 :=
  let v6 : FVec F S1x1x16x128x128 .f32 := k0_pay4 (F := F) x0
  let v7 : FVec F S1x1x16x128x128 .f32 := k0_pay5 (F := F) x0
  let v51 : IVec S1x1x16x128x128 1 := k0_pay14 (F := F) x2
  let v257 : IVec S1x1x16x128x128 1 := k0_pay51 (F := F) x2
  let v258 : IVec S1x1x16x128x128 1 := k0_pay52 v51
  k0_pay61 (F := F) (k0_pay10 (F := F) x0 x1)
    (k0_pay22 (F := F) (k0_pay20 (F := F) x2 v6 v7) (k0_pay21 (F := F) x2 v6 v7))
    (k0_pay31 (F := F) (k0_pay26 (F := F) x2 v6 v7 v51) (k0_pay28 (F := F) x2) (k0_pay30 (F := F) x2 v6 v7 v51))
    (k0_pay40 (F := F) (k0_pay35 (F := F) x2 v6 v7 v51) (k0_pay36 (F := F) x2 v6 v7 v51) (k0_pay37 (F := F) x2) (k0_pay38 (F := F)))
    (k0_pay48 (F := F) (k0_pay43 (F := F) x2) (k0_pay44 (F := F) x2 v6 v7 v51))
    (k0_pay57 (F := F) v6 v7 v257 v258)
    xs

/-- The accumulator of the probability sums after a point. -/
def addP (x0 : Vec F S1x2x16x128x128 .f32) (x2 : Vec F S1x1x16x128x128 .i32) (xs : Vec F S1x2x6 .f32) : FVec F S1x2x6 .f32 :=
  let v6 : FVec F S1x1x16x128x128 .f32 := k0_pay4 (F := F) x0
  let v7 : FVec F S1x1x16x128x128 .f32 := k0_pay5 (F := F) x0
  let v51 : IVec S1x1x16x128x128 1 := k0_pay14 (F := F) x2
  let v257 : IVec S1x1x16x128x128 1 := k0_pay51 (F := F) x2
  let v258 : IVec S1x1x16x128x128 1 := k0_pay52 v51
  k0_pay62 (F := F) (k0_pay12 (F := F) (k0_pay6 (F := F) x0) (k0_pay11 (F := F) x0))
    (k0_pay23 (F := F) (k0_pay16 (F := F) x2 v6 v7) (k0_pay17 (F := F) x2 v6 v7))
    (k0_pay32 (F := F) (k0_pay26 (F := F) x2 v6 v7 v51) (k0_pay27 (F := F) x2 v6 v7 v51))
    (k0_pay41 (F := F) (k0_pay35 (F := F) x2 v6 v7 v51) (k0_pay36 (F := F) x2 v6 v7 v51))
    (k0_pay49 (F := F) (k0_pay44 (F := F) x2 v6 v7 v51))
    (k0_pay58 (F := F) v6 v7 v257 v258)
    xs

/-- The accumulator of the one-hot sums after a point. -/
def addG (x1 x2 : Vec F S1x1x16x128x128 .i32) (xs : Vec F S1x2x6 .f32) : FVec F S1x2x6 .f32 :=
  let v257 : IVec S1x1x16x128x128 1 := k0_pay51 (F := F) x2
  k0_pay63 (F := F) (k0_pay13 (F := F) (k0_pay8 (F := F) x1) (k0_pay9 (F := F) x1))
    (k0_pay24 (F := F) (k0_pay18 (F := F) x2) (k0_pay19 (F := F) x2))
    (k0_pay33 (F := F) (k0_pay28 (F := F) x2) (k0_pay29 (F := F) x2))
    (k0_pay42 (F := F) (k0_pay37 (F := F) x2) (k0_pay38 (F := F)))
    (k0_pay50 (F := F) (k0_pay43 (F := F) x2))
    (k0_pay59 (F := F) v257) (k0_pay60 (F := F) v257)
    xs

/-- Row `r` of a block's 2048 rows is plane `r / 128`, row `r % 128`. -/
abbrev rowPlane (r : Fin 2048) : Fin 16 := ⟨r.val / 128, by have := r.isLt; omega⟩
abbrev rowRow (r : Fin 2048) : Fin 128 := ⟨r.val % 128, Nat.mod_lt _ (by norm_num)⟩

/-! ## The layout of one accumulator update

A block of shape [1,1,16,128,128] is summed by viewing it as 2048 rows of 128 lanes, adding along the lanes, then along
the rows; two such sums (class 0, class 1) are laid side by side, the six variants' pairs are stacked along a last axis,
and the stack is added to the accumulator's earlier contents. -/

/-- The sum of a block over its 2048 rows of 128 lanes: lanes first, then rows, each from the neutral zero. -/
def blockSum (t : FVec F S1x1x16x128x128 .f32) : FVec F S1x1 .f32 :=
  shapeCast S1x1
    (multiReduction .add [0] S1
      (shapeCast S2048x1
        (multiReduction .add [1] S2048 (shapeCast S2048x128 t shapeCasts_S1x1x16x128x128_S2048x128) 0x00000000#32
          reduces_S2048x128_S2048 (.inl rfl) rfl)
        shapeCasts_S2048_S2048x1)
      0x00000000#32 reduces_S2048x1_S1 (.inl rfl) rfl)
    shapeCasts_S1_S1x1

/-- Over the extended reals the block sum is the double sum over rows and lanes: row r, lane l of the [2048,128] view
    is the block's element (0, 0, r / 128, r % 128, l), both at row-major position r * 128 + l. -/
theorem blockSum_apply (t : FVec Ideal S1x1x16x128x128 .f32) :
    blockSum (F := Ideal) t (ix2 (0 : Fin 1) (0 : Fin 1))
      = ∑ r : Fin 2048, ∑ l : Fin 128, t (ix5 (0 : Fin 1) (0 : Fin 1) (rowPlane r) (rowRow r) l) := by
  unfold blockSum
  -- the unit axis added in front reads through
  refine (shapeCast_a_1a_apply _ _ (0 : Fin 1) (0 : Fin 1)).trans ?_
  -- the sum along the rows
  refine (Ideal.multiReduction_add_single _ _ _ _ _ _).trans ?_
  show ∑ r : Fin 2048, _ = _
  refine Finset.sum_congr rfl fun r _ => ?_
  -- entry (r, 0) of the [2048,1] column is entry r of the [2048] vector
  refine (shapeCast_apply _ _ _ (ix1 r) ?_).trans ?_
  · rw [Shape.rowMajor_val_one, Shape.rowMajor_val_two]
    show r.val = r.val * 1 + 0
    omega
  -- the sum along the lanes
  refine (Ideal.multiReduction_add_single _ _ _ _ _ _).trans ?_
  show ∑ l : Fin 128, _ = _
  refine Finset.sum_congr rfl fun l _ => ?_
  -- entry (r, l) of the [2048,128] view is the block's element at the same row-major position
  refine shapeCast_apply _ _ _ (ix5 (0 : Fin 1) (0 : Fin 1) (rowPlane r) (rowRow r) l) ?_
  rw [Shape.rowMajor_val_five, Shape.rowMajor_val_two]
  show ((((0 * 1 + 0) * 16 + r.val / 128) * 128 + r.val % 128) * 128 + l.val) = r.val * 128 + l.val
  omega

/-- Two block sums side by side along axis 1: class 0, then class 1. -/
def pair (a b : FVec F S1x1 .f32) : FVec F S1x2 .f32 :=
  concatenate S1x2 1 [⟨S1x1, a⟩, ⟨S1x1, b⟩] concatenates_S1x1_S1x1_S1x2_d1

/-- Column 0 of the pair is the first piece. -/
theorem pair_apply_zero (a b : FVec F S1x1 .f32) :
    pair a b (ix2 (0 : Fin 1) (0 : Fin 2)) = a (ix2 (0 : Fin 1) (0 : Fin 1)) := by
  unfold pair
  refine concatenate_pair_apply_left (t := S1x2) (s₁ := S1x1) (s₂ := S1x1) (1 : Fin 2) a b _ _ rfl (ix2 (0 : Fin 1) (0 : Fin 1)) ?_
  intro b
  match b with
  | ⟨0, _⟩ => rfl
  | ⟨1, _⟩ => rfl

/-- Column 1 of the pair is the second piece (the first piece has extent 1 along the axis). -/
theorem pair_apply_one (a b : FVec F S1x1 .f32) :
    pair a b (ix2 (0 : Fin 1) (1 : Fin 2)) = b (ix2 (0 : Fin 1) (0 : Fin 1)) := by
  unfold pair
  refine concatenate_pair_apply_right (t := S1x2) (s₁ := S1x1) (s₂ := S1x1) (1 : Fin 2) a b _ _ rfl rfl (ix2 (0 : Fin 1) (0 : Fin 1)) ?_ rfl
  intro b hb
  match b with
  | ⟨0, _⟩ => rfl
  | ⟨1, _⟩ => exact absurd rfl hb

/-- Six pairs, one per variant, each given a trailing unit axis and stacked along it. -/
def stack6 (p : Fin 6 → FVec F S1x2 .f32) : FVec F S1x2x6 .f32 :=
  concatenate S1x2x6 2
    [⟨S1x2x1, shapeCast S1x2x1 (p 0) shapeCasts_S1x2_S1x2x1⟩, ⟨S1x2x1, shapeCast S1x2x1 (p 1) shapeCasts_S1x2_S1x2x1⟩,
     ⟨S1x2x1, shapeCast S1x2x1 (p 2) shapeCasts_S1x2_S1x2x1⟩, ⟨S1x2x1, shapeCast S1x2x1 (p 3) shapeCasts_S1x2_S1x2x1⟩,
     ⟨S1x2x1, shapeCast S1x2x1 (p 4) shapeCasts_S1x2_S1x2x1⟩, ⟨S1x2x1, shapeCast S1x2x1 (p 5) shapeCasts_S1x2_S1x2x1⟩]
    concatenates_S1x2x1_S1x2x1_S1x2x1_S1x2x1_S1x2x1_S1x2x1_S1x2x6_d2

/-- A [1,2] array given a trailing unit axis reads, at (0, ch, 0), the array at (0, ch): both at row-major position ch. -/
theorem cast121_apply {α : Type} (q : S1x2.Idx → α) (ch : Fin 2) :
    shapeCast S1x2x1 q shapeCasts_S1x2_S1x2x1 (ix3 (0 : Fin 1) ch (0 : Fin 1)) = q (ix2 (0 : Fin 1) ch) := by
  refine shapeCast_apply _ _ _ _ ?_
  rw [Shape.rowMajor_val_two, Shape.rowMajor_val_three]
  show 0 * 2 + ch.val = (0 * 2 + ch.val) * 1 + 0
  omega

/-- Entry (0, ch, s) of the stack is entry (0, ch) of pair s: the pieces before piece s have total extent s along the
    stacking axis, each piece extent 1. -/
theorem stack6_apply (p : Fin 6 → FVec F S1x2 .f32) (ch : Fin 2) (s : Fin 6) :
    stack6 p (ix3 (0 : Fin 1) ch s) = p s (ix2 (0 : Fin 1) ch) := by
  unfold stack6
  -- off the stacking axis the index into a piece has the coordinates of the index into the stack
  have hi : ∀ (k : Fin 6) (b : Fin S1x2x1.rank), b.cast (rfl : S1x2x1.rank = S1x2x6.rank) ≠ (2 : Fin 3) →
      ((ix3 (0 : Fin 1) ch (0 : Fin 1) : S1x2x1.Idx) b).val = ((ix3 (0 : Fin 1) ch k : S1x2x6.Idx) (b.cast rfl)).val := by
    intro k b hb
    match b with
    | ⟨0, _⟩ => rfl
    | ⟨1, _⟩ => rfl
    | ⟨2, _⟩ => exact absurd rfl hb
  match s with
  | ⟨0, _⟩ => exact Eq.trans (concatenate_apply_piece (t := S1x2x6) (2 : Fin 3) _ _ _ 0 (by show 0 < 6; omega) S1x2x1 _ rfl rfl 0 rfl _ (hi 0) rfl) (cast121_apply _ ch)
  | ⟨1, _⟩ => exact Eq.trans (concatenate_apply_piece (t := S1x2x6) (2 : Fin 3) _ _ _ 1 (by show 1 < 6; omega) S1x2x1 _ rfl rfl 1 rfl _ (hi 1) rfl) (cast121_apply _ ch)
  | ⟨2, _⟩ => exact Eq.trans (concatenate_apply_piece (t := S1x2x6) (2 : Fin 3) _ _ _ 2 (by show 2 < 6; omega) S1x2x1 _ rfl rfl 2 rfl _ (hi 2) rfl) (cast121_apply _ ch)
  | ⟨3, _⟩ => exact Eq.trans (concatenate_apply_piece (t := S1x2x6) (2 : Fin 3) _ _ _ 3 (by show 3 < 6; omega) S1x2x1 _ rfl rfl 3 rfl _ (hi 3) rfl) (cast121_apply _ ch)
  | ⟨4, _⟩ => exact Eq.trans (concatenate_apply_piece (t := S1x2x6) (2 : Fin 3) _ _ _ 4 (by show 4 < 6; omega) S1x2x1 _ rfl rfl 4 rfl _ (hi 4) rfl) (cast121_apply _ ch)
  | ⟨5, _⟩ => exact Eq.trans (concatenate_apply_piece (t := S1x2x6) (2 : Fin 3) _ _ _ 5 (by show 5 < 6; omega) S1x2x1 _ rfl rfl 5 rfl _ (hi 5) rfl) (cast121_apply _ ch)

/-- An accumulator after a point: its earlier contents plus the stack whose entry (ch, s) is the block sum of the
    volume t ch s. -/
def accum (xs : Vec F S1x2x6 .f32) (t : Fin 2 → Fin 6 → FVec F S1x1x16x128x128 .f32) : FVec F S1x2x6 .f32 :=
  shapeCast S1x2x6 (addf xs (stack6 fun s => pair (blockSum (t 0 s)) (blockSum (t 1 s)))) shapeCasts_S1x2x6_S1x2x6

/-- Entry (ch, s) of the accumulator after a point: the earlier entry plus the double sum of the volume t ch s over the
    block's rows and lanes. -/
theorem accum_apply (xs : Vec Ideal S1x2x6 .f32) (t : Fin 2 → Fin 6 → FVec Ideal S1x1x16x128x128 .f32) (ch : Fin 2) (s : Fin 6) :
    accum (F := Ideal) xs t (ix3 (0 : Fin 1) ch s)
      = xs (ix3 (0 : Fin 1) ch s) + ∑ r : Fin 2048, ∑ l : Fin 128, t ch s (ix5 (0 : Fin 1) (0 : Fin 1) (rowPlane r) (rowRow r) l) := by
  unfold accum
  -- a cast to the same shape is the identity; the addition is entry by entry
  rw [shapeCast_self]
  show xs (ix3 (0 : Fin 1) ch s) + stack6 (fun s => pair (blockSum (t 0 s)) (blockSum (t 1 s))) (ix3 (0 : Fin 1) ch s) = _
  refine congrArg (xs (ix3 (0 : Fin 1) ch s) + ·) ?_
  refine (stack6_apply _ ch s).trans ?_
  show pair (blockSum (t 0 s)) (blockSum (t 1 s)) (ix2 (0 : Fin 1) ch) = _
  match ch with
  | ⟨0, _⟩ => exact (pair_apply_zero _ _).trans (blockSum_apply (t 0 s))
  | ⟨1, _⟩ => exact (pair_apply_one _ _).trans (blockSum_apply (t 1 s))

/-! ## The volumes the kernel sums -/

/-- The probability volume of class ch, variant s: for class 1 the logistic of the difference of the two logits (for a
    blob variant each first multiplied by the keep factor), for class 0 one minus it. -/
def kP (x0 : Vec F S1x2x16x128x128 .f32) (x2 : Vec F S1x1x16x128x128 .i32) (ch : Fin 2) (s : Fin 6) : FVec F S1x1x16x128x128 .f32 :=
  let v6 : FVec F S1x1x16x128x128 .f32 := k0_pay4 (F := F) x0
  let v7 : FVec F S1x1x16x128x128 .f32 := k0_pay5 (F := F) x0
  let v51 : IVec S1x1x16x128x128 1 := k0_pay14 (F := F) x2
  let v257 : IVec S1x1x16x128x128 1 := k0_pay51 (F := F) x2
  let v258 : IVec S1x1x16x128x128 1 := k0_pay52 v51
  ![![k0_pay7 (F := F) x0, k0_pay17 (F := F) x2 v6 v7, k0_pay27 (F := F) x2 v6 v7 v51, k0_pay36 (F := F) x2 v6 v7 v51,
      k0_pay45 (F := F) (k0_pay44 (F := F) x2 v6 v7 v51), k0_pay54 (F := F) v6 v7 v257 v258],
    ![k0_pay6 (F := F) x0, k0_pay16 (F := F) x2 v6 v7, k0_pay26 (F := F) x2 v6 v7 v51, k0_pay35 (F := F) x2 v6 v7 v51,
      k0_pay44 (F := F) x2 v6 v7 v51, k0_pay53 (F := F) v6 v7 v257 v258]] ch s

/-- The one-hot volume of class ch, variant s: for class 1 the binary label (variant 0) or the blob's indicator read as a
    number, for class 0 one minus it. -/
def kH (x1 x2 : Vec F S1x1x16x128x128 .i32) (ch : Fin 2) (s : Fin 6) : FVec F S1x1x16x128x128 .f32 :=
  let v257 : IVec S1x1x16x128x128 1 := k0_pay51 (F := F) x2
  ![![k0_pay9 (F := F) x1, k0_pay19 (F := F) x2, k0_pay29 (F := F) x2, k0_pay39 (F := F) (k0_pay37 (F := F) x2) (k0_pay38 (F := F)),
      k0_pay47 (F := F) (k0_pay43 (F := F) x2), k0_pay56 (F := F) v257],
    ![k0_pay8 (F := F) x1, k0_pay18 (F := F) x2, k0_pay28 (F := F) x2, k0_pay37 (F := F) x2,
      k0_pay46 (F := F) (k0_pay43 (F := F) x2), k0_pay55 (F := F) v257]] ch s

/-- The first accumulator's update sums, at entry (ch, s), the product of the probability and one-hot volumes: the two
    sides are the same composition of operations. -/
theorem addI_eq (x0 : Vec F S1x2x16x128x128 .f32) (x1 x2 : Vec F S1x1x16x128x128 .i32) (xs : Vec F S1x2x6 .f32) :
    addI (F := F) x0 x1 x2 xs = accum xs (fun ch s => mulf (kP x0 x2 ch s) (kH x1 x2 ch s)) := rfl

/-- The second accumulator's update sums the probability volumes. -/
theorem addP_eq (x0 : Vec F S1x2x16x128x128 .f32) (x2 : Vec F S1x1x16x128x128 .i32) (xs : Vec F S1x2x6 .f32) :
    addP (F := F) x0 x2 xs = accum xs (kP x0 x2) := rfl

/-- The third accumulator's update sums the one-hot volumes. -/
theorem addG_eq (x1 x2 : Vec F S1x1x16x128x128 .i32) (xs : Vec F S1x2x6 .f32) :
    addG (F := F) x1 x2 xs = accum xs (kH x1 x2) := rfl

/-! ## The volumes at a voxel -/

/-- The class-0 slice of the logits at a voxel is the logits' element of class 0. -/
theorem pay4_apply (x0 : Vec Ideal S1x2x16x128x128 .f32) (p : Fin 16) (r l : Fin 128) :
    k0_pay4 (F := Ideal) x0 (ix5 (0 : Fin 1) (0 : Fin 1) p r l) = x0 (ix5 (0 : Fin 1) (0 : Fin 2) p r l) := by
  unfold k0_pay4
  refine extractStridedSlice_apply _ _ _ _ _ ?_
  intro a
  match a with
  | ⟨0, _⟩ => rfl
  | ⟨1, _⟩ => rfl
  | ⟨2, _⟩ => show p.val = 0 + p.val; omega
  | ⟨3, _⟩ => show r.val = 0 + r.val; omega
  | ⟨4, _⟩ => show l.val = 0 + l.val; omega

/-- The class-1 slice of the logits at a voxel is the logits' element of class 1 (offset 1 on the class axis). -/
theorem pay5_apply (x0 : Vec Ideal S1x2x16x128x128 .f32) (p : Fin 16) (r l : Fin 128) :
    k0_pay5 (F := Ideal) x0 (ix5 (0 : Fin 1) (0 : Fin 1) p r l) = x0 (ix5 (0 : Fin 1) (1 : Fin 2) p r l) := by
  unfold k0_pay5
  refine extractStridedSlice_apply _ _ _ _ _ ?_
  intro a
  match a with
  | ⟨0, _⟩ => rfl
  | ⟨1, _⟩ => rfl
  | ⟨2, _⟩ => show p.val = 0 + p.val; omega
  | ⟨3, _⟩ => show r.val = 0 + r.val; omega
  | ⟨4, _⟩ => show l.val = 0 + l.val; omega

/-- At a voxel the probability volume is the specification's probability summand of the two logit slices and the blob
    word: every operation involved acts element by element, so for each of the 12 literal (ch, s) both sides are the same
    expression in the three values. -/
theorem kP_apply (x0 : Vec Ideal S1x2x16x128x128 .f32) (x2 : Vec Ideal S1x1x16x128x128 .i32) (ch : Fin 2) (s : Fin 6)
    (i : S1x1x16x128x128.Idx) :
    kP (F := Ideal) x0 x2 ch s i
      = Cert.BlobDice.tP ch s (k0_pay4 (F := Ideal) x0 i) (k0_pay5 (F := Ideal) x0 i) (x2 i) := by
  fin_cases ch <;> fin_cases s <;> rfl

/-- At a voxel the one-hot volume is the specification's one-hot summand of the label word and the blob word. -/
theorem kH_apply (x1 x2 : Vec Ideal S1x1x16x128x128 .i32) (ch : Fin 2) (s : Fin 6) (i : S1x1x16x128x128.Idx) :
    kH (F := Ideal) x1 x2 ch s i = Cert.BlobDice.tG ch s (x1 i) (x2 i) := by
  fin_cases ch <;> fin_cases s <;> rfl

/-- The probability × one-hot accumulator at entry `(ch, s)` after a point: the earlier entry plus the block's sum of
    that entry's summand. -/
theorem addI_apply (x0 : Vec Ideal S1x2x16x128x128 .f32) (x1 x2 : Vec Ideal S1x1x16x128x128 .i32) (xs : Vec Ideal S1x2x6 .f32)
    (ch : Fin 2) (s : Fin 6) :
    addI (F := Ideal) x0 x1 x2 xs (ix3 (0 : Fin 1) ch s)
      = xs (ix3 (0 : Fin 1) ch s) + ∑ r : Fin 2048, ∑ l : Fin 128,
          Cert.BlobDice.tI ch s (x0 (ix5 (0 : Fin 1) (0 : Fin 2) (rowPlane r) (rowRow r) l)) (x0 (ix5 (0 : Fin 1) (1 : Fin 2) (rowPlane r) (rowRow r) l))
            (x1 (ix5 (0 : Fin 1) (0 : Fin 1) (rowPlane r) (rowRow r) l)) (x2 (ix5 (0 : Fin 1) (0 : Fin 1) (rowPlane r) (rowRow r) l)) := by
  refine (congrFun (addI_eq x0 x1 x2 xs) _).trans ?_
  refine (accum_apply xs _ ch s).trans ?_
  refine congrArg (xs (ix3 (0 : Fin 1) ch s) + ·) ?_
  refine Finset.sum_congr rfl fun r _ => Finset.sum_congr rfl fun l _ => ?_
  -- at a voxel: the product of the two volumes, each its summand; the product of the two summands is the summand
  show kP (F := Ideal) x0 x2 ch s _ * kH (F := Ideal) x1 x2 ch s _ = _
  rw [kP_apply, kH_apply, pay4_apply, pay5_apply]
  rfl

/-- The probability accumulator at entry `(ch, s)` after a point. -/
theorem addP_apply (x0 : Vec Ideal S1x2x16x128x128 .f32) (x2 : Vec Ideal S1x1x16x128x128 .i32) (xs : Vec Ideal S1x2x6 .f32)
    (ch : Fin 2) (s : Fin 6) :
    addP (F := Ideal) x0 x2 xs (ix3 (0 : Fin 1) ch s)
      = xs (ix3 (0 : Fin 1) ch s) + ∑ r : Fin 2048, ∑ l : Fin 128,
          Cert.BlobDice.tP ch s (x0 (ix5 (0 : Fin 1) (0 : Fin 2) (rowPlane r) (rowRow r) l)) (x0 (ix5 (0 : Fin 1) (1 : Fin 2) (rowPlane r) (rowRow r) l))
            (x2 (ix5 (0 : Fin 1) (0 : Fin 1) (rowPlane r) (rowRow r) l)) := by
  refine (congrFun (addP_eq x0 x2 xs) _).trans ?_
  refine (accum_apply xs _ ch s).trans ?_
  refine congrArg (xs (ix3 (0 : Fin 1) ch s) + ·) ?_
  refine Finset.sum_congr rfl fun r _ => Finset.sum_congr rfl fun l _ => ?_
  rw [kP_apply, pay4_apply, pay5_apply]

/-- The one-hot accumulator at entry `(ch, s)` after a point. -/
theorem addG_apply (x1 x2 : Vec Ideal S1x1x16x128x128 .i32) (xs : Vec Ideal S1x2x6 .f32) (ch : Fin 2) (s : Fin 6) :
    addG (F := Ideal) x1 x2 xs (ix3 (0 : Fin 1) ch s)
      = xs (ix3 (0 : Fin 1) ch s) + ∑ r : Fin 2048, ∑ l : Fin 128,
          Cert.BlobDice.tG ch s (x1 (ix5 (0 : Fin 1) (0 : Fin 1) (rowPlane r) (rowRow r) l)) (x2 (ix5 (0 : Fin 1) (0 : Fin 1) (rowPlane r) (rowRow r) l)) := by
  refine (congrFun (addG_eq x1 x2 xs) _).trans ?_
  refine (accum_apply xs _ ch s).trans ?_
  refine congrArg (xs (ix3 (0 : Fin 1) ch s) + ·) ?_
  refine Finset.sum_congr rfl fun r _ => Finset.sum_congr rfl fun l _ => ?_
  exact kH_apply x1 x2 ch s _

end Cert.KernelIdeal.Body

end
-- ==== Proof.KernelPieces.lean ====
/-
  What each control case of the kernel body leaves in the three accumulators and, at a sample's last depth slab, in
  the three output blocks: in every case the point's contribution (one function of the point's input blocks) added
  to the accumulator's earlier contents — the zeros just stored at a sample's first slab, else what the point
  before left.
-/
import proofs.«404392_j2800318677066_2_alg».proof.Proof.Gen.KernelIdeal.Frame
import proofs.«404392_j2800318677066_2_alg».proof.Proof.KernelBody

set_option maxRecDepth 16384

noncomputable section

namespace Cert.KernelIdeal.Pieces

open Cert.KernelIdeal Cert.KernelIdeal.Gen Idealize.ShloMosaic Idealize.ShloMosaic.Tactic Idealize.SL.Sem

variable {F : FTy → Type} [FloatOps F]

/-- The three offsets of a whole-block rectangle are zero. -/
theorem hz : (![0, 0, 0] : Fin 3 → Nat) = fun _ => 0 := funext fun a => by fin_cases a <;> rfl

/-- The five offsets of a whole-block rectangle are zero. -/
theorem hz5 : (![0, 0, 0, 0, 0] : Fin 5 → Nat) = fun _ => 0 := funext fun a => by fin_cases a <;> rfl

/-- Case A: what the point leaves in the probability × one-hot accumulator is the point's contribution added to the zeros it was reset to. -/
theorem sout0_A_0_eq (c : Dev nD) (i : grid0.Coords) (arg2 : Memref sig .tc .vmem S1x2x16x128x128 .f32) (harg2 : arg2.IsWhole) (arg3 : Memref sig .tc .vmem S1x1x16x128x128 .i32) (harg3 : arg3.IsWhole) (arg4 : Memref sig .tc .vmem S1x1x16x128x128 .i32) (harg4 : arg4.IsWhole) (arg5 : Memref sig .tc .vmem S1x2x6 .f32) (harg5 : arg5.IsWhole) (arg6 : Memref sig .tc .vmem S1x2x6 .f32) (harg6 : arg6.IsWhole) (arg7 : Memref sig .tc .vmem S1x2x6 .f32) (harg7 : arg7.IsWhole) (arg8 : Memref sig .tc .vmem S1x2x6 .f32) (harg8 : arg8.IsWhole) (arg9 : Memref sig .tc .vmem S1x2x6 .f32) (harg9 : arg9.IsWhole) (arg10 : Memref sig .tc .vmem S1x2x6 .f32) (harg10 : arg10.IsWhole) (hc0 : cond0_0 i) (hc1 : ¬cond0_1 i)
    (x0 : Vec F S1x2x16x128x128 .f32) (x1 : Vec F S1x1x16x128x128 .i32) (x2 : Vec F S1x1x16x128x128 .i32) :
    sout0_A_0 c i arg2 harg2 arg3 harg3 arg4 harg4 arg5 harg5 arg6 harg6 arg7 harg7 arg8 harg8 arg9 harg9 arg10 harg10 hc0 hc1 x0 x1 x2 = Body.addI x0 x1 x2 (k0_pay1 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S1x2x6) hz, View.readCov_unit_zero (S := S1x2x6) _ hz]
  simp only [View.readAt_eq_ld, harg2.read_unread, harg3.read_unread, harg4.read_unread, harg8.read_unread, harg9.read_unread, harg10.read_unread, View.ld_unit_zero (S := S1x2x6) hz, View.ld_unit_zero (S := S1x2x16x128x128) hz5, View.ld_unit_zero (S := S1x1x16x128x128) hz5, View.readCov_unit_zero (S := S1x2x6) _ hz]
  rfl

/-- Case A: what the point leaves in the probability accumulator is the point's contribution added to the zeros it was reset to. -/
theorem sout0_A_1_eq (c : Dev nD) (i : grid0.Coords) (arg2 : Memref sig .tc .vmem S1x2x16x128x128 .f32) (harg2 : arg2.IsWhole) (arg3 : Memref sig .tc .vmem S1x1x16x128x128 .i32) (harg3 : arg3.IsWhole) (arg4 : Memref sig .tc .vmem S1x1x16x128x128 .i32) (harg4 : arg4.IsWhole) (arg5 : Memref sig .tc .vmem S1x2x6 .f32) (harg5 : arg5.IsWhole) (arg6 : Memref sig .tc .vmem S1x2x6 .f32) (harg6 : arg6.IsWhole) (arg7 : Memref sig .tc .vmem S1x2x6 .f32) (harg7 : arg7.IsWhole) (arg8 : Memref sig .tc .vmem S1x2x6 .f32) (harg8 : arg8.IsWhole) (arg9 : Memref sig .tc .vmem S1x2x6 .f32) (harg9 : arg9.IsWhole) (arg10 : Memref sig .tc .vmem S1x2x6 .f32) (harg10 : arg10.IsWhole) (hc0 : cond0_0 i) (hc1 : ¬cond0_1 i)
    (x0 : Vec F S1x2x16x128x128 .f32) (x1 : Vec F S1x1x16x128x128 .i32) (x2 : Vec F S1x1x16x128x128 .i32) :
    sout0_A_1 c i arg2 harg2 arg3 harg3 arg4 harg4 arg5 harg5 arg6 harg6 arg7 harg7 arg8 harg8 arg9 harg9 arg10 harg10 hc0 hc1 x0 x1 x2 = Body.addP x0 x2 (k0_pay2 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S1x2x6) hz, View.readCov_unit_zero (S := S1x2x6) _ hz]
  simp only [View.readAt_eq_ld, harg2.read_unread, harg3.read_unread, harg4.read_unread, harg8.read_unread, harg9.read_unread, harg10.read_unread, View.ld_unit_zero (S := S1x2x6) hz, View.ld_unit_zero (S := S1x2x16x128x128) hz5, View.ld_unit_zero (S := S1x1x16x128x128) hz5, View.readCov_unit_zero (S := S1x2x6) _ hz]
  rfl

/-- Case A: what the point leaves in the one-hot accumulator is the point's contribution added to the zeros it was reset to. -/
theorem sout0_A_2_eq (c : Dev nD) (i : grid0.Coords) (arg2 : Memref sig .tc .vmem S1x2x16x128x128 .f32) (harg2 : arg2.IsWhole) (arg3 : Memref sig .tc .vmem S1x1x16x128x128 .i32) (harg3 : arg3.IsWhole) (arg4 : Memref sig .tc .vmem S1x1x16x128x128 .i32) (harg4 : arg4.IsWhole) (arg5 : Memref sig .tc .vmem S1x2x6 .f32) (harg5 : arg5.IsWhole) (arg6 : Memref sig .tc .vmem S1x2x6 .f32) (harg6 : arg6.IsWhole) (arg7 : Memref sig .tc .vmem S1x2x6 .f32) (harg7 : arg7.IsWhole) (arg8 : Memref sig .tc .vmem S1x2x6 .f32) (harg8 : arg8.IsWhole) (arg9 : Memref sig .tc .vmem S1x2x6 .f32) (harg9 : arg9.IsWhole) (arg10 : Memref sig .tc .vmem S1x2x6 .f32) (harg10 : arg10.IsWhole) (hc0 : cond0_0 i) (hc1 : ¬cond0_1 i)
    (x0 : Vec F S1x2x16x128x128 .f32) (x1 : Vec F S1x1x16x128x128 .i32) (x2 : Vec F S1x1x16x128x128 .i32) :
    sout0_A_2 c i arg2 harg2 arg3 harg3 arg4 harg4 arg5 harg5 arg6 harg6 arg7 harg7 arg8 harg8 arg9 harg9 arg10 harg10 hc0 hc1 x0 x1 x2 = Body.addG x1 x2 (k0_pay3 (F := F)) := by
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S1x2x6) hz, View.readCov_unit_zero (S := S1x2x6) _ hz]
  simp only [View.readAt_eq_ld, harg2.read_unread, harg3.read_unread, harg4.read_unread, harg8.read_unread, harg9.read_unread, harg10.read_unread, View.ld_unit_zero (S := S1x2x6) hz, View.ld_unit_zero (S := S1x2x16x128x128) hz5, View.ld_unit_zero (S := S1x1x16x128x128) hz5, View.readCov_unit_zero (S := S1x2x6) _ hz]
  rfl

/-- Case B: what the point leaves in the probability × one-hot accumulator is the point's contribution added to what the point before left. -/
theorem sout0_B_0_eq (c : Dev nD) (i : grid0.Coords) (arg2 : Memref sig .tc .vmem S1x2x16x128x128 .f32) (harg2 : arg2.IsWhole) (arg3 : Memref sig .tc .vmem S1x1x16x128x128 .i32) (harg3 : arg3.IsWhole) (arg4 : Memref sig .tc .vmem S1x1x16x128x128 .i32) (harg4 : arg4.IsWhole) (arg5 : Memref sig .tc .vmem S1x2x6 .f32) (harg5 : arg5.IsWhole) (arg6 : Memref sig .tc .vmem S1x2x6 .f32) (harg6 : arg6.IsWhole) (arg7 : Memref sig .tc .vmem S1x2x6 .f32) (harg7 : arg7.IsWhole) (arg8 : Memref sig .tc .vmem S1x2x6 .f32) (harg8 : arg8.IsWhole) (arg9 : Memref sig .tc .vmem S1x2x6 .f32) (harg9 : arg9.IsWhole) (arg10 : Memref sig .tc .vmem S1x2x6 .f32) (harg10 : arg10.IsWhole) (hc0 : ¬cond0_0 i) (hc1 : ¬cond0_1 i)
    (x0 : Vec F S1x2x16x128x128 .f32) (x1 : Vec F S1x1x16x128x128 .i32) (x2 : Vec F S1x1x16x128x128 .i32) (xs0 : Vec F S1x2x6 .f32) (xs1 : Vec F S1x2x6 .f32) (xs2 : Vec F S1x2x6 .f32) :
    sout0_B_0 c i arg2 harg2 arg3 harg3 arg4 harg4 arg5 harg5 arg6 harg6 arg7 harg7 arg8 harg8 arg9 harg9 arg10 harg10 hc0 hc1 x0 x1 x2 xs0 xs1 xs2 = Body.addI x0 x1 x2 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 xs0 xs1 xs2)]
  unfold kernelRun0_B
  dsimp only
  sl_unfold_words
  rw [View.canon_unit_zero hz]
  simp only [View.readAt_eq_ld, harg2.read_unread, harg3.read_unread, harg4.read_unread, harg8.read_unread, harg9.read_unread, harg10.read_unread, View.ld_unit_zero (S := S1x2x6) hz, View.ld_unit_zero (S := S1x2x16x128x128) hz5, View.ld_unit_zero (S := S1x1x16x128x128) hz5]
  rfl

/-- Case B: what the point leaves in the probability accumulator is the point's contribution added to what the point before left. -/
theorem sout0_B_1_eq (c : Dev nD) (i : grid0.Coords) (arg2 : Memref sig .tc .vmem S1x2x16x128x128 .f32) (harg2 : arg2.IsWhole) (arg3 : Memref sig .tc .vmem S1x1x16x128x128 .i32) (harg3 : arg3.IsWhole) (arg4 : Memref sig .tc .vmem S1x1x16x128x128 .i32) (harg4 : arg4.IsWhole) (arg5 : Memref sig .tc .vmem S1x2x6 .f32) (harg5 : arg5.IsWhole) (arg6 : Memref sig .tc .vmem S1x2x6 .f32) (harg6 : arg6.IsWhole) (arg7 : Memref sig .tc .vmem S1x2x6 .f32) (harg7 : arg7.IsWhole) (arg8 : Memref sig .tc .vmem S1x2x6 .f32) (harg8 : arg8.IsWhole) (arg9 : Memref sig .tc .vmem S1x2x6 .f32) (harg9 : arg9.IsWhole) (arg10 : Memref sig .tc .vmem S1x2x6 .f32) (harg10 : arg10.IsWhole) (hc0 : ¬cond0_0 i) (hc1 : ¬cond0_1 i)
    (x0 : Vec F S1x2x16x128x128 .f32) (x1 : Vec F S1x1x16x128x128 .i32) (x2 : Vec F S1x1x16x128x128 .i32) (xs0 : Vec F S1x2x6 .f32) (xs1 : Vec F S1x2x6 .f32) (xs2 : Vec F S1x2x6 .f32) :
    sout0_B_1 c i arg2 harg2 arg3 harg3 arg4 harg4 arg5 harg5 arg6 harg6 arg7 harg7 arg8 harg8 arg9 harg9 arg10 harg10 hc0 hc1 x0 x1 x2 xs0 xs1 xs2 = Body.addP x0 x2 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 xs0 xs1 xs2)]
  unfold kernelRun0_B
  dsimp only
  sl_unfold_words
  rw [View.canon_unit_zero hz]
  simp only [View.readAt_eq_ld, harg2.read_unread, harg3.read_unread, harg4.read_unread, harg8.read_unread, harg9.read_unread, harg10.read_unread, View.ld_unit_zero (S := S1x2x6) hz, View.ld_unit_zero (S := S1x2x16x128x128) hz5, View.ld_unit_zero (S := S1x1x16x128x128) hz5]
  rfl

/-- Case B: what the point leaves in the one-hot accumulator is the point's contribution added to what the point before left. -/
theorem sout0_B_2_eq (c : Dev nD) (i : grid0.Coords) (arg2 : Memref sig .tc .vmem S1x2x16x128x128 .f32) (harg2 : arg2.IsWhole) (arg3 : Memref sig .tc .vmem S1x1x16x128x128 .i32) (harg3 : arg3.IsWhole) (arg4 : Memref sig .tc .vmem S1x1x16x128x128 .i32) (harg4 : arg4.IsWhole) (arg5 : Memref sig .tc .vmem S1x2x6 .f32) (harg5 : arg5.IsWhole) (arg6 : Memref sig .tc .vmem S1x2x6 .f32) (harg6 : arg6.IsWhole) (arg7 : Memref sig .tc .vmem S1x2x6 .f32) (harg7 : arg7.IsWhole) (arg8 : Memref sig .tc .vmem S1x2x6 .f32) (harg8 : arg8.IsWhole) (arg9 : Memref sig .tc .vmem S1x2x6 .f32) (harg9 : arg9.IsWhole) (arg10 : Memref sig .tc .vmem S1x2x6 .f32) (harg10 : arg10.IsWhole) (hc0 : ¬cond0_0 i) (hc1 : ¬cond0_1 i)
    (x0 : Vec F S1x2x16x128x128 .f32) (x1 : Vec F S1x1x16x128x128 .i32) (x2 : Vec F S1x1x16x128x128 .i32) (xs0 : Vec F S1x2x6 .f32) (xs1 : Vec F S1x2x6 .f32) (xs2 : Vec F S1x2x6 .f32) :
    sout0_B_2 c i arg2 harg2 arg3 harg3 arg4 harg4 arg5 harg5 arg6 harg6 arg7 harg7 arg8 harg8 arg9 harg9 arg10 harg10 hc0 hc1 x0 x1 x2 xs0 xs1 xs2 = Body.addG x1 x2 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 hc0 hc1 x0 x1 x2 xs0 xs1 xs2)]
  unfold kernelRun0_B
  dsimp only
  sl_unfold_words
  rw [View.canon_unit_zero hz]
  simp only [View.readAt_eq_ld, harg2.read_unread, harg3.read_unread, harg4.read_unread, harg8.read_unread, harg9.read_unread, harg10.read_unread, View.ld_unit_zero (S := S1x2x6) hz, View.ld_unit_zero (S := S1x2x16x128x128) hz5, View.ld_unit_zero (S := S1x1x16x128x128) hz5]
  rfl

/-- Case C: what the point leaves in the probability × one-hot accumulator is the point's contribution added to what the point before left. -/
theorem sout0_C_0_eq (c : Dev nD) (i : grid0.Coords) (arg2 : Memref sig .tc .vmem S1x2x16x128x128 .f32) (harg2 : arg2.IsWhole) (arg3 : Memref sig .tc .vmem S1x1x16x128x128 .i32) (harg3 : arg3.IsWhole) (arg4 : Memref sig .tc .vmem S1x1x16x128x128 .i32) (harg4 : arg4.IsWhole) (arg5 : Memref sig .tc .vmem S1x2x6 .f32) (harg5 : arg5.IsWhole) (arg6 : Memref sig .tc .vmem S1x2x6 .f32) (harg6 : arg6.IsWhole) (arg7 : Memref sig .tc .vmem S1x2x6 .f32) (harg7 : arg7.IsWhole) (arg8 : Memref sig .tc .vmem S1x2x6 .f32) (harg8 : arg8.IsWhole) (arg9 : Memref sig .tc .vmem S1x2x6 .f32) (harg9 : arg9.IsWhole) (arg10 : Memref sig .tc .vmem S1x2x6 .f32) (harg10 : arg10.IsWhole) (hc0 : ¬cond0_0 i) (hc1 : cond0_1 i)
    (x0 : Vec F S1x2x16x128x128 .f32) (x1 : Vec F S1x1x16x128x128 .i32) (x2 : Vec F S1x1x16x128x128 .i32) (xs0 : Vec F S1x2x6 .f32) (xs1 : Vec F S1x2x6 .f32) (xs2 : Vec F S1x2x6 .f32) :
    sout0_C_0 c i arg2 harg2 arg3 harg3 arg4 harg4 arg5 harg5 arg6 harg6 arg7 harg7 arg8 harg8 arg9 harg9 arg10 harg10 hc0 hc1 x0 x1 x2 xs0 xs1 xs2 = Body.addI x0 x1 x2 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero hz]
  simp only [View.readAt_eq_ld, harg2.read_unread, harg3.read_unread, harg4.read_unread, harg8.read_unread, harg9.read_unread, harg10.read_unread, View.ld_unit_zero (S := S1x2x6) hz, View.ld_unit_zero (S := S1x2x16x128x128) hz5, View.ld_unit_zero (S := S1x1x16x128x128) hz5, View.readCov_unit_zero (S := S1x2x6) _ hz]
  rfl

/-- Case C: what the point leaves in the probability accumulator is the point's contribution added to what the point before left. -/
theorem sout0_C_1_eq (c : Dev nD) (i : grid0.Coords) (arg2 : Memref sig .tc .vmem S1x2x16x128x128 .f32) (harg2 : arg2.IsWhole) (arg3 : Memref sig .tc .vmem S1x1x16x128x128 .i32) (harg3 : arg3.IsWhole) (arg4 : Memref sig .tc .vmem S1x1x16x128x128 .i32) (harg4 : arg4.IsWhole) (arg5 : Memref sig .tc .vmem S1x2x6 .f32) (harg5 : arg5.IsWhole) (arg6 : Memref sig .tc .vmem S1x2x6 .f32) (harg6 : arg6.IsWhole) (arg7 : Memref sig .tc .vmem S1x2x6 .f32) (harg7 : arg7.IsWhole) (arg8 : Memref sig .tc .vmem S1x2x6 .f32) (harg8 : arg8.IsWhole) (arg9 : Memref sig .tc .vmem S1x2x6 .f32) (harg9 : arg9.IsWhole) (arg10 : Memref sig .tc .vmem S1x2x6 .f32) (harg10 : arg10.IsWhole) (hc0 : ¬cond0_0 i) (hc1 : cond0_1 i)
    (x0 : Vec F S1x2x16x128x128 .f32) (x1 : Vec F S1x1x16x128x128 .i32) (x2 : Vec F S1x1x16x128x128 .i32) (xs0 : Vec F S1x2x6 .f32) (xs1 : Vec F S1x2x6 .f32) (xs2 : Vec F S1x2x6 .f32) :
    sout0_C_1 c i arg2 harg2 arg3 harg3 arg4 harg4 arg5 harg5 arg6 harg6 arg7 harg7 arg8 harg8 arg9 harg9 arg10 harg10 hc0 hc1 x0 x1 x2 xs0 xs1 xs2 = Body.addP x0 x2 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero hz]
  simp only [View.readAt_eq_ld, harg2.read_unread, harg3.read_unread, harg4.read_unread, harg8.read_unread, harg9.read_unread, harg10.read_unread, View.ld_unit_zero (S := S1x2x6) hz, View.ld_unit_zero (S := S1x2x16x128x128) hz5, View.ld_unit_zero (S := S1x1x16x128x128) hz5, View.readCov_unit_zero (S := S1x2x6) _ hz]
  rfl

/-- Case C: what the point leaves in the one-hot accumulator is the point's contribution added to what the point before left. -/
theorem sout0_C_2_eq (c : Dev nD) (i : grid0.Coords) (arg2 : Memref sig .tc .vmem S1x2x16x128x128 .f32) (harg2 : arg2.IsWhole) (arg3 : Memref sig .tc .vmem S1x1x16x128x128 .i32) (harg3 : arg3.IsWhole) (arg4 : Memref sig .tc .vmem S1x1x16x128x128 .i32) (harg4 : arg4.IsWhole) (arg5 : Memref sig .tc .vmem S1x2x6 .f32) (harg5 : arg5.IsWhole) (arg6 : Memref sig .tc .vmem S1x2x6 .f32) (harg6 : arg6.IsWhole) (arg7 : Memref sig .tc .vmem S1x2x6 .f32) (harg7 : arg7.IsWhole) (arg8 : Memref sig .tc .vmem S1x2x6 .f32) (harg8 : arg8.IsWhole) (arg9 : Memref sig .tc .vmem S1x2x6 .f32) (harg9 : arg9.IsWhole) (arg10 : Memref sig .tc .vmem S1x2x6 .f32) (harg10 : arg10.IsWhole) (hc0 : ¬cond0_0 i) (hc1 : cond0_1 i)
    (x0 : Vec F S1x2x16x128x128 .f32) (x1 : Vec F S1x1x16x128x128 .i32) (x2 : Vec F S1x1x16x128x128 .i32) (xs0 : Vec F S1x2x6 .f32) (xs1 : Vec F S1x2x6 .f32) (xs2 : Vec F S1x2x6 .f32) :
    sout0_C_2 c i arg2 harg2 arg3 harg3 arg4 harg4 arg5 harg5 arg6 harg6 arg7 harg7 arg8 harg8 arg9 harg9 arg10 harg10 hc0 hc1 x0 x1 x2 xs0 xs1 xs2 = Body.addG x1 x2 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero hz]
  simp only [View.readAt_eq_ld, harg2.read_unread, harg3.read_unread, harg4.read_unread, harg8.read_unread, harg9.read_unread, harg10.read_unread, View.ld_unit_zero (S := S1x2x6) hz, View.ld_unit_zero (S := S1x2x16x128x128) hz5, View.ld_unit_zero (S := S1x1x16x128x128) hz5, View.readCov_unit_zero (S := S1x2x6) _ hz]
  rfl

/-- Case C (a sample's last depth slab): the probability × one-hot output block is the accumulator's final contents. -/
theorem out0_C_3_eq (c : Dev nD) (i : grid0.Coords) (arg2 : Memref sig .tc .vmem S1x2x16x128x128 .f32) (harg2 : arg2.IsWhole) (arg3 : Memref sig .tc .vmem S1x1x16x128x128 .i32) (harg3 : arg3.IsWhole) (arg4 : Memref sig .tc .vmem S1x1x16x128x128 .i32) (harg4 : arg4.IsWhole) (arg5 : Memref sig .tc .vmem S1x2x6 .f32) (harg5 : arg5.IsWhole) (arg6 : Memref sig .tc .vmem S1x2x6 .f32) (harg6 : arg6.IsWhole) (arg7 : Memref sig .tc .vmem S1x2x6 .f32) (harg7 : arg7.IsWhole) (arg8 : Memref sig .tc .vmem S1x2x6 .f32) (harg8 : arg8.IsWhole) (arg9 : Memref sig .tc .vmem S1x2x6 .f32) (harg9 : arg9.IsWhole) (arg10 : Memref sig .tc .vmem S1x2x6 .f32) (harg10 : arg10.IsWhole) (hc0 : ¬cond0_0 i) (hc1 : cond0_1 i)
    (x0 : Vec F S1x2x16x128x128 .f32) (x1 : Vec F S1x1x16x128x128 .i32) (x2 : Vec F S1x1x16x128x128 .i32) (xs0 : Vec F S1x2x6 .f32) (xs1 : Vec F S1x2x6 .f32) (xs2 : Vec F S1x2x6 .f32) :
    out0_C_3 c i arg2 harg2 arg3 harg3 arg4 harg4 arg5 harg5 arg6 harg6 arg7 harg7 arg8 harg8 arg9 harg9 arg10 harg10 hc0 hc1 x0 x1 x2 xs0 xs1 xs2 = Body.addI x0 x1 x2 xs0 := by
  unfold out0_C_3
  rw [View.read_writes_eq_canon _ _ _ (cover0_C_3 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero hz]
  simp only [View.readAt_eq_ld, harg2.read_unread, harg3.read_unread, harg4.read_unread, harg8.read_unread, harg9.read_unread, harg10.read_unread, View.ld_unit_zero (S := S1x2x6) hz, View.ld_unit_zero (S := S1x2x16x128x128) hz5, View.ld_unit_zero (S := S1x1x16x128x128) hz5, View.readCov_unit_zero (S := S1x2x6) _ hz]
  rfl

/-- Case C (a sample's last depth slab): the probability output block is the accumulator's final contents. -/
theorem out0_C_4_eq (c : Dev nD) (i : grid0.Coords) (arg2 : Memref sig .tc .vmem S1x2x16x128x128 .f32) (harg2 : arg2.IsWhole) (arg3 : Memref sig .tc .vmem S1x1x16x128x128 .i32) (harg3 : arg3.IsWhole) (arg4 : Memref sig .tc .vmem S1x1x16x128x128 .i32) (harg4 : arg4.IsWhole) (arg5 : Memref sig .tc .vmem S1x2x6 .f32) (harg5 : arg5.IsWhole) (arg6 : Memref sig .tc .vmem S1x2x6 .f32) (harg6 : arg6.IsWhole) (arg7 : Memref sig .tc .vmem S1x2x6 .f32) (harg7 : arg7.IsWhole) (arg8 : Memref sig .tc .vmem S1x2x6 .f32) (harg8 : arg8.IsWhole) (arg9 : Memref sig .tc .vmem S1x2x6 .f32) (harg9 : arg9.IsWhole) (arg10 : Memref sig .tc .vmem S1x2x6 .f32) (harg10 : arg10.IsWhole) (hc0 : ¬cond0_0 i) (hc1 : cond0_1 i)
    (x0 : Vec F S1x2x16x128x128 .f32) (x1 : Vec F S1x1x16x128x128 .i32) (x2 : Vec F S1x1x16x128x128 .i32) (xs0 : Vec F S1x2x6 .f32) (xs1 : Vec F S1x2x6 .f32) (xs2 : Vec F S1x2x6 .f32) :
    out0_C_4 c i arg2 harg2 arg3 harg3 arg4 harg4 arg5 harg5 arg6 harg6 arg7 harg7 arg8 harg8 arg9 harg9 arg10 harg10 hc0 hc1 x0 x1 x2 xs0 xs1 xs2 = Body.addP x0 x2 xs1 := by
  unfold out0_C_4
  rw [View.read_writes_eq_canon _ _ _ (cover0_C_4 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero hz]
  simp only [View.readAt_eq_ld, harg2.read_unread, harg3.read_unread, harg4.read_unread, harg8.read_unread, harg9.read_unread, harg10.read_unread, View.ld_unit_zero (S := S1x2x6) hz, View.ld_unit_zero (S := S1x2x16x128x128) hz5, View.ld_unit_zero (S := S1x1x16x128x128) hz5, View.readCov_unit_zero (S := S1x2x6) _ hz]
  rfl

/-- Case C (a sample's last depth slab): the one-hot output block is the accumulator's final contents. -/
theorem out0_C_5_eq (c : Dev nD) (i : grid0.Coords) (arg2 : Memref sig .tc .vmem S1x2x16x128x128 .f32) (harg2 : arg2.IsWhole) (arg3 : Memref sig .tc .vmem S1x1x16x128x128 .i32) (harg3 : arg3.IsWhole) (arg4 : Memref sig .tc .vmem S1x1x16x128x128 .i32) (harg4 : arg4.IsWhole) (arg5 : Memref sig .tc .vmem S1x2x6 .f32) (harg5 : arg5.IsWhole) (arg6 : Memref sig .tc .vmem S1x2x6 .f32) (harg6 : arg6.IsWhole) (arg7 : Memref sig .tc .vmem S1x2x6 .f32) (harg7 : arg7.IsWhole) (arg8 : Memref sig .tc .vmem S1x2x6 .f32) (harg8 : arg8.IsWhole) (arg9 : Memref sig .tc .vmem S1x2x6 .f32) (harg9 : arg9.IsWhole) (arg10 : Memref sig .tc .vmem S1x2x6 .f32) (harg10 : arg10.IsWhole) (hc0 : ¬cond0_0 i) (hc1 : cond0_1 i)
    (x0 : Vec F S1x2x16x128x128 .f32) (x1 : Vec F S1x1x16x128x128 .i32) (x2 : Vec F S1x1x16x128x128 .i32) (xs0 : Vec F S1x2x6 .f32) (xs1 : Vec F S1x2x6 .f32) (xs2 : Vec F S1x2x6 .f32) :
    out0_C_5 c i arg2 harg2 arg3 harg3 arg4 harg4 arg5 harg5 arg6 harg6 arg7 harg7 arg8 harg8 arg9 harg9 arg10 harg10 hc0 hc1 x0 x1 x2 xs0 xs1 xs2 = Body.addG x1 x2 xs2 := by
  unfold out0_C_5
  rw [View.read_writes_eq_canon _ _ _ (cover0_C_5 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero hz]
  simp only [View.readAt_eq_ld, harg2.read_unread, harg3.read_unread, harg4.read_unread, harg8.read_unread, harg9.read_unread, harg10.read_unread, View.ld_unit_zero (S := S1x2x6) hz, View.ld_unit_zero (S := S1x2x16x128x128) hz5, View.ld_unit_zero (S := S1x1x16x128x128) hz5, View.readCov_unit_zero (S := S1x2x6) _ hz]
  rfl

end Cert.KernelIdeal.Pieces

end
-- ==== Proof.KernelFinal.lean ====
/-
  The kernel's three result arrays read as values.  After the point of sample `b` and depth slab `d` each accumulator
  holds the sum of its summand over slabs 0…d of that sample (the first slab resets to zero, every slab adds its
  block's sum); at the last slab the accumulators are copied to the output blocks, which are written back there and
  nowhere else, so the result arrays hold at `(b, ch, s)` the sum over all eight slabs.
-/
import proofs.«404392_j2800318677066_2_alg».proof.Proof.Gen.KernelIdeal.Frame
import proofs.«404392_j2800318677066_2_alg».proof.Proof.KernelPieces
import proofs.«404392_j2800318677066_2_alg».proof.Proof.KernelBody
import proofs.«404392_j2800318677066_2_alg».proof.Proof.Spec
import Idealize.ShloMosaic.Lib.Pipeline.Value
import Idealize.ShloMosaic.Lib.StableHlo.Run

set_option maxRecDepth 16384

noncomputable section

open scoped BigOperators

namespace Cert.KernelIdeal.Final

open Cert.KernelIdeal Cert.KernelIdeal.Gen Idealize.ShloMosaic Idealize.ShloMosaic.ValueIdx Idealize.ShloMosaic.TcCoe Idealize.SL.Sem
open Cert.BlobDice (SX SL vI vP vG sumSlabs)

variable (m : (ℓ : Loc nD τ sig) → Buf (Elt Ideal) ℓ)

/-- The argument arrays on core `c`: the logits, the binary labels, the blob numbers. -/
abbrev argX (c : Dev nD) : SX.Idx → EReal := m ((c.tc : Thread nD τ).loc main_arg0)
abbrev argY (c : Dev nD) : SL.Idx → BitVec 32 := m ((c.tc : Thread nD τ).loc main_arg1)
abbrev argML (c : Dev nD) : SL.Idx → BitVec 32 := m ((c.tc : Thread nD τ).loc main_arg2)

/-- The three input blocks at point `t`: the logits', the binary labels', the blob numbers'. -/
abbrev xblk (c : Dev nD) (t : Fin cfg0.N) : Vec Ideal S1x2x16x128x128 .f32 := iblk m c 0 t
abbrev yblk (c : Dev nD) (t : Fin cfg0.N) : Vec Ideal S1x1x16x128x128 .i32 := iblk m c 1 t
abbrev mblk (c : Dev nD) (t : Fin cfg0.N) : Vec Ideal S1x1x16x128x128 .i32 := iblk m c 2 t

/-! ## The printed index maps, decided over the grid -/

/-- An input block sits at sample `t / 8`, depth slab `t % 8`, and spans the other axes. -/
theorem idx_facts0 : ∀ t : Fin cfg0.N, win0_0.index t (0 : Fin 5) = t.val / 8 ∧ win0_0.index t (1 : Fin 5) = 0
    ∧ win0_0.index t (2 : Fin 5) = t.val % 8 ∧ win0_0.index t (3 : Fin 5) = 0 ∧ win0_0.index t (4 : Fin 5) = 0 :=
  (by decide +kernel : ∀ t : Fin grid0.N, _)
theorem idx_facts1 : ∀ t : Fin cfg0.N, win0_1.index t (0 : Fin 5) = t.val / 8 ∧ win0_1.index t (1 : Fin 5) = 0
    ∧ win0_1.index t (2 : Fin 5) = t.val % 8 ∧ win0_1.index t (3 : Fin 5) = 0 ∧ win0_1.index t (4 : Fin 5) = 0 :=
  (by decide +kernel : ∀ t : Fin grid0.N, _)
theorem idx_facts2 : ∀ t : Fin cfg0.N, win0_2.index t (0 : Fin 5) = t.val / 8 ∧ win0_2.index t (1 : Fin 5) = 0
    ∧ win0_2.index t (2 : Fin 5) = t.val % 8 ∧ win0_2.index t (3 : Fin 5) = 0 ∧ win0_2.index t (4 : Fin 5) = 0 :=
  (by decide +kernel : ∀ t : Fin grid0.N, _)
/-- An output block sits at sample `t / 8` and spans the other axes. -/
theorem idx_facts3 : ∀ t : Fin cfg0.N, win0_3.index t (0 : Fin 3) = t.val / 8 ∧ win0_3.index t (1 : Fin 3) = 0 ∧ win0_3.index t (2 : Fin 3) = 0 :=
  (by decide +kernel : ∀ t : Fin grid0.N, _)
theorem idx_facts4 : ∀ t : Fin cfg0.N, win0_4.index t (0 : Fin 3) = t.val / 8 ∧ win0_4.index t (1 : Fin 3) = 0 ∧ win0_4.index t (2 : Fin 3) = 0 :=
  (by decide +kernel : ∀ t : Fin grid0.N, _)
theorem idx_facts5 : ∀ t : Fin cfg0.N, win0_5.index t (0 : Fin 3) = t.val / 8 ∧ win0_5.index t (1 : Fin 3) = 0 ∧ win0_5.index t (2 : Fin 3) = 0 :=
  (by decide +kernel : ∀ t : Fin grid0.N, _)

/-- The sample of point `t`. -/
abbrev smp (t : Fin cfg0.N) : Fin 2 := ⟨t.val / 8, by have := t.isLt; have hN : cfg0.N = 16 := N_0; omega⟩
/-- Plane `z` of point `t`'s depth slab, as a plane of the volume. -/
abbrev pln (t : Fin cfg0.N) (z : Fin 16) : Fin 128 := ⟨16 * (t.val % 8) + z.val, by have := z.isLt; omega⟩

/-! ## The input blocks read at an entry: the argument arrays at the block's place -/

theorem xblk_apply (c : Dev nD) (t : Fin cfg0.N) (k : Fin 2) (z : Fin 16) (h l : Fin 128) :
    xblk m c t (ix5 (0 : Fin 1) k z h l) = argX m c (ix5 (smp t) k (pln t z) h l) := by
  obtain ⟨e0, e1, e2, e3, e4⟩ := idx_facts0 t
  unfold xblk iblk
  rw [View.read_apply]
  show V m c main_arg0 _ = m (c.tc.loc main_arg0) _
  unfold V
  congr 1
  funext a
  apply Fin.ext
  match a with
  | ⟨0, _⟩ => show win0_0.index t (0 : Fin 5) * 1 + 1 * 0 = t.val / 8; rw [e0]; omega
  | ⟨1, _⟩ => show win0_0.index t (1 : Fin 5) * 2 + 1 * k.val = k.val; rw [e1]; omega
  | ⟨2, _⟩ => show win0_0.index t (2 : Fin 5) * 16 + 1 * z.val = 16 * (t.val % 8) + z.val; rw [e2]; omega
  | ⟨3, _⟩ => show win0_0.index t (3 : Fin 5) * 128 + 1 * h.val = h.val; rw [e3]; omega
  | ⟨4, _⟩ => show win0_0.index t (4 : Fin 5) * 128 + 1 * l.val = l.val; rw [e4]; omega

theorem yblk_apply (c : Dev nD) (t : Fin cfg0.N) (z : Fin 16) (h l : Fin 128) :
    yblk m c t (ix5 (0 : Fin 1) (0 : Fin 1) z h l) = argY m c (ix5 (smp t) (0 : Fin 1) (pln t z) h l) := by
  obtain ⟨e0, e1, e2, e3, e4⟩ := idx_facts1 t
  unfold yblk iblk
  rw [View.read_apply]
  show V m c main_arg1 _ = m (c.tc.loc main_arg1) _
  unfold V
  congr 1
  funext a
  apply Fin.ext
  match a with
  | ⟨0, _⟩ => show win0_1.index t (0 : Fin 5) * 1 + 1 * 0 = t.val / 8; rw [e0]; omega
  | ⟨1, _⟩ => show win0_1.index t (1 : Fin 5) * 1 + 1 * 0 = 0; rw [e1]
  | ⟨2, _⟩ => show win0_1.index t (2 : Fin 5) * 16 + 1 * z.val = 16 * (t.val % 8) + z.val; rw [e2]; omega
  | ⟨3, _⟩ => show win0_1.index t (3 : Fin 5) * 128 + 1 * h.val = h.val; rw [e3]; omega
  | ⟨4, _⟩ => show win0_1.index t (4 : Fin 5) * 128 + 1 * l.val = l.val; rw [e4]; omega

theorem mblk_apply (c : Dev nD) (t : Fin cfg0.N) (z : Fin 16) (h l : Fin 128) :
    mblk m c t (ix5 (0 : Fin 1) (0 : Fin 1) z h l) = argML m c (ix5 (smp t) (0 : Fin 1) (pln t z) h l) := by
  obtain ⟨e0, e1, e2, e3, e4⟩ := idx_facts2 t
  unfold mblk iblk
  rw [View.read_apply]
  show V m c main_arg2 _ = m (c.tc.loc main_arg2) _
  unfold V
  congr 1
  funext a
  apply Fin.ext
  match a with
  | ⟨0, _⟩ => show win0_2.index t (0 : Fin 5) * 1 + 1 * 0 = t.val / 8; rw [e0]; omega
  | ⟨1, _⟩ => show win0_2.index t (1 : Fin 5) * 1 + 1 * 0 = 0; rw [e1]
  | ⟨2, _⟩ => show win0_2.index t (2 : Fin 5) * 16 + 1 * z.val = 16 * (t.val % 8) + z.val; rw [e2]; omega
  | ⟨3, _⟩ => show win0_2.index t (3 : Fin 5) * 128 + 1 * h.val = h.val; rw [e3]; omega
  | ⟨4, _⟩ => show win0_2.index t (4 : Fin 5) * 128 + 1 * l.val = l.val; rw [e4]; omega

/-! ## The probability × one-hot sums -/

/-- A sample's first slab: the accumulator is the point's contribution added to zeros. -/
theorem accI_A (c : Dev nD) (t : Fin cfg0.N) (h0 : t.val % 8 = 0) (h1 : ¬t.val % 8 = 7) :
    (outsAt0 m c t.val t.isLt).2.2.2.1 = Body.addI (xblk m c t) (yblk m c t) (mblk m c t) (k0_pay1 (F := Ideal)) := by
  rw [outsAt0_A m c t h0 h1]
  dsimp only
  exact Pieces.sout0_A_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (xblk m c t) (yblk m c t) (mblk m c t)

/-- A middle slab: the accumulator is the point's contribution added to what the point before left. -/
theorem accI_B (c : Dev nD) (t : Fin cfg0.N) (h0 : ¬t.val % 8 = 0) (h1 : ¬t.val % 8 = 7) :
    (outsAt0 m c t.val t.isLt).2.2.2.1 = Body.addI (xblk m c t) (yblk m c t) (mblk m c t) (outsAt0 m c (t.val - 1) (Nat.lt_of_le_of_lt (Nat.sub_le _ _) t.isLt)).2.2.2.1 := by
  rw [outsAt0_B m c t h0 h1]
  dsimp only
  exact Pieces.sout0_B_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (xblk m c t) (yblk m c t) (mblk m c t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

/-- A sample's last slab: the same, -/
theorem accI_C (c : Dev nD) (t : Fin cfg0.N) (h0 : ¬t.val % 8 = 0) (h1 : t.val % 8 = 7) :
    (outsAt0 m c t.val t.isLt).2.2.2.1 = Body.addI (xblk m c t) (yblk m c t) (mblk m c t) (outsAt0 m c (t.val - 1) (Nat.lt_of_le_of_lt (Nat.sub_le _ _) t.isLt)).2.2.2.1 := by
  rw [outsAt0_C m c t h0 h1]
  dsimp only
  exact Pieces.sout0_C_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (xblk m c t) (yblk m c t) (mblk m c t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

/-- and the output block holds the same. -/
theorem outI_C (c : Dev nD) (t : Fin cfg0.N) (h0 : ¬t.val % 8 = 0) (h1 : t.val % 8 = 7) :
    (outsAt0 m c t.val t.isLt).1 = Body.addI (xblk m c t) (yblk m c t) (mblk m c t) (outsAt0 m c (t.val - 1) (Nat.lt_of_le_of_lt (Nat.sub_le _ _) t.isLt)).2.2.2.1 := by
  rw [outsAt0_C m c t h0 h1]
  dsimp only
  exact Pieces.out0_C_3_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (xblk m c t) (yblk m c t) (mblk m c t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

/-! ## The probability sums -/

/-- A sample's first slab: the accumulator is the point's contribution added to zeros. -/
theorem accP_A (c : Dev nD) (t : Fin cfg0.N) (h0 : t.val % 8 = 0) (h1 : ¬t.val % 8 = 7) :
    (outsAt0 m c t.val t.isLt).2.2.2.2.1 = Body.addP (xblk m c t) (mblk m c t) (k0_pay2 (F := Ideal)) := by
  rw [outsAt0_A m c t h0 h1]
  dsimp only
  exact Pieces.sout0_A_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (xblk m c t) (yblk m c t) (mblk m c t)

/-- A middle slab: the accumulator is the point's contribution added to what the point before left. -/
theorem accP_B (c : Dev nD) (t : Fin cfg0.N) (h0 : ¬t.val % 8 = 0) (h1 : ¬t.val % 8 = 7) :
    (outsAt0 m c t.val t.isLt).2.2.2.2.1 = Body.addP (xblk m c t) (mblk m c t) (outsAt0 m c (t.val - 1) (Nat.lt_of_le_of_lt (Nat.sub_le _ _) t.isLt)).2.2.2.2.1 := by
  rw [outsAt0_B m c t h0 h1]
  dsimp only
  exact Pieces.sout0_B_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (xblk m c t) (yblk m c t) (mblk m c t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

/-- A sample's last slab: the same, -/
theorem accP_C (c : Dev nD) (t : Fin cfg0.N) (h0 : ¬t.val % 8 = 0) (h1 : t.val % 8 = 7) :
    (outsAt0 m c t.val t.isLt).2.2.2.2.1 = Body.addP (xblk m c t) (mblk m c t) (outsAt0 m c (t.val - 1) (Nat.lt_of_le_of_lt (Nat.sub_le _ _) t.isLt)).2.2.2.2.1 := by
  rw [outsAt0_C m c t h0 h1]
  dsimp only
  exact Pieces.sout0_C_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (xblk m c t) (yblk m c t) (mblk m c t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

/-- and the output block holds the same. -/
theorem outP_C (c : Dev nD) (t : Fin cfg0.N) (h0 : ¬t.val % 8 = 0) (h1 : t.val % 8 = 7) :
    (outsAt0 m c t.val t.isLt).2.1 = Body.addP (xblk m c t) (mblk m c t) (outsAt0 m c (t.val - 1) (Nat.lt_of_le_of_lt (Nat.sub_le _ _) t.isLt)).2.2.2.2.1 := by
  rw [outsAt0_C m c t h0 h1]
  dsimp only
  exact Pieces.out0_C_4_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (xblk m c t) (yblk m c t) (mblk m c t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

/-! ## The one-hot sums -/

/-- A sample's first slab: the accumulator is the point's contribution added to zeros. -/
theorem accG_A (c : Dev nD) (t : Fin cfg0.N) (h0 : t.val % 8 = 0) (h1 : ¬t.val % 8 = 7) :
    (outsAt0 m c t.val t.isLt).2.2.2.2.2 = Body.addG (yblk m c t) (mblk m c t) (k0_pay3 (F := Ideal)) := by
  rw [outsAt0_A m c t h0 h1]
  dsimp only
  exact Pieces.sout0_A_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (xblk m c t) (yblk m c t) (mblk m c t)

/-- A middle slab: the accumulator is the point's contribution added to what the point before left. -/
theorem accG_B (c : Dev nD) (t : Fin cfg0.N) (h0 : ¬t.val % 8 = 0) (h1 : ¬t.val % 8 = 7) :
    (outsAt0 m c t.val t.isLt).2.2.2.2.2 = Body.addG (yblk m c t) (mblk m c t) (outsAt0 m c (t.val - 1) (Nat.lt_of_le_of_lt (Nat.sub_le _ _) t.isLt)).2.2.2.2.2 := by
  rw [outsAt0_B m c t h0 h1]
  dsimp only
  exact Pieces.sout0_B_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (xblk m c t) (yblk m c t) (mblk m c t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

/-- A sample's last slab: the same, -/
theorem accG_C (c : Dev nD) (t : Fin cfg0.N) (h0 : ¬t.val % 8 = 0) (h1 : t.val % 8 = 7) :
    (outsAt0 m c t.val t.isLt).2.2.2.2.2 = Body.addG (yblk m c t) (mblk m c t) (outsAt0 m c (t.val - 1) (Nat.lt_of_le_of_lt (Nat.sub_le _ _) t.isLt)).2.2.2.2.2 := by
  rw [outsAt0_C m c t h0 h1]
  dsimp only
  exact Pieces.sout0_C_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (xblk m c t) (yblk m c t) (mblk m c t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

/-- and the output block holds the same. -/
theorem outG_C (c : Dev nD) (t : Fin cfg0.N) (h0 : ¬t.val % 8 = 0) (h1 : t.val % 8 = 7) :
    (outsAt0 m c t.val t.isLt).2.2.1 = Body.addG (yblk m c t) (mblk m c t) (outsAt0 m c (t.val - 1) (Nat.lt_of_le_of_lt (Nat.sub_le _ _) t.isLt)).2.2.2.2.2 := by
  rw [outsAt0_C m c t h0 h1]
  dsimp only
  exact Pieces.out0_C_5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (xblk m c t) (yblk m c t) (mblk m c t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

/-- The zeros a sample's first slab resets the accumulators to. -/
theorem pay1_zero (ch : Fin 2) (s : Fin 6) : (k0_pay1 (F := Ideal)) (ix3 (0 : Fin 1) ch s) = 0 := by
  unfold k0_pay1
  exact Ideal.ofBits_zero_f32
theorem pay2_zero (ch : Fin 2) (s : Fin 6) : (k0_pay2 (F := Ideal)) (ix3 (0 : Fin 1) ch s) = 0 := by
  unfold k0_pay2
  exact Ideal.ofBits_zero_f32
theorem pay3_zero (ch : Fin 2) (s : Fin 6) : (k0_pay3 (F := Ideal)) (ix3 (0 : Fin 1) ch s) = 0 := by
  unfold k0_pay3
  exact Ideal.ofBits_zero_f32

/-- Point `8·b + d`. -/
abbrev ptOf (b : Fin 2) (d : Fin 8) : Fin cfg0.N := ⟨8 * b.val + d.val, by have := b.isLt; have := d.isLt; have hN : cfg0.N = 16 := N_0; omega⟩

/-- What point `t` adds to entry `(ch, s)` of the probability × one-hot accumulator: its block's sum of the entry's summand. -/
def ptI (c : Dev nD) (ch : Fin 2) (s : Fin 6) (t : Fin cfg0.N) : EReal :=
  ∑ r : Fin 2048, ∑ l : Fin 128, Cert.BlobDice.tI ch s
      (xblk m c t (ix5 (0 : Fin 1) (0 : Fin 2) (Body.rowPlane r) (Body.rowRow r) l))
      (xblk m c t (ix5 (0 : Fin 1) (1 : Fin 2) (Body.rowPlane r) (Body.rowRow r) l))
      (yblk m c t (ix5 (0 : Fin 1) (0 : Fin 1) (Body.rowPlane r) (Body.rowRow r) l))
      (mblk m c t (ix5 (0 : Fin 1) (0 : Fin 1) (Body.rowPlane r) (Body.rowRow r) l))

/-- The same for any natural number, zero past the grid. -/
def ptIN (c : Dev nD) (ch : Fin 2) (s : Fin 6) (n : ℕ) : EReal := if h : n < cfg0.N then ptI m c ch s ⟨n, h⟩ else 0

/-- The sum of the entry's summand over depth slab `d` of sample `b` of the argument arrays. -/
def slabI (c : Dev nD) (ch : Fin 2) (s : Fin 6) (b : Fin 2) (d : Fin 8) : EReal :=
  ∑ r : Fin 2048, ∑ l : Fin 128, vI (argX m c) (argY m c) (argML m c) ch s b
    ⟨16 * d.val + r.val / 128, by have := d.isLt; have := r.isLt; omega⟩ ⟨r.val % 128, Nat.mod_lt _ (by norm_num)⟩ l

/-- A point's contribution is its slab's sum: the blocks read the argument arrays at sample `t / 8`, planes `16·(t % 8) + r / 128`. -/
theorem ptI_eq (c : Dev nD) (ch : Fin 2) (s : Fin 6) (b : Fin 2) (d : Fin 8) :
    ptI m c ch s (ptOf b d) = slabI m c ch s b d := by
  unfold ptI slabI
  have hb : smp (ptOf b d) = b := Fin.ext (by show (8 * b.val + d.val) / 8 = b.val; have := d.isLt; omega)
  have hd : ∀ z : Fin 16, pln (ptOf b d) z = ⟨16 * d.val + z.val, by have := d.isLt; have := z.isLt; omega⟩ := fun z =>
    Fin.ext (by show 16 * ((8 * b.val + d.val) % 8) + z.val = 16 * d.val + z.val; have := d.isLt; omega)
  refine Finset.sum_congr rfl fun r _ => Finset.sum_congr rfl fun l _ => ?_
  rw [xblk_apply, xblk_apply, yblk_apply, mblk_apply, hb, hd]
  rfl

/-- At a sample's first slab the accumulator's entry is the point's contribution. -/
theorem stepI_A (c : Dev nD) (ch : Fin 2) (s : Fin 6) (t : Fin cfg0.N) (h0 : t.val % 8 = 0) :
    (outsAt0 m c t.val t.isLt).2.2.2.1 (ix3 (0 : Fin 1) ch s) = ptI m c ch s t := by
  refine (congrFun (accI_A m c t h0 (by omega)) (ix3 (0 : Fin 1) ch s)).trans ?_
  refine (Body.addI_apply (xblk m c t) (yblk m c t) (mblk m c t) (k0_pay1 (F := Ideal)) ch s).trans ?_
  rw [pay1_zero, zero_add]
  rfl

/-- At a later slab it is the entry the point before left plus the point's contribution. -/
theorem stepI_BC (c : Dev nD) (ch : Fin 2) (s : Fin 6) (t : Fin cfg0.N) (h0 : ¬t.val % 8 = 0) :
    (outsAt0 m c t.val t.isLt).2.2.2.1 (ix3 (0 : Fin 1) ch s)
      = (outsAt0 m c (t.val - 1) (Nat.lt_of_le_of_lt (Nat.sub_le _ _) t.isLt)).2.2.2.1 (ix3 (0 : Fin 1) ch s) + ptI m c ch s t := by
  by_cases h1 : t.val % 8 = 7
  · refine (congrFun (accI_C m c t h0 h1) (ix3 (0 : Fin 1) ch s)).trans ?_
    exact Body.addI_apply (xblk m c t) (yblk m c t) (mblk m c t) (outsAt0 m c (t.val - 1) (Nat.lt_of_le_of_lt (Nat.sub_le _ _) t.isLt)).2.2.2.1 ch s
  · refine (congrFun (accI_B m c t h0 h1) (ix3 (0 : Fin 1) ch s)).trans ?_
    exact Body.addI_apply (xblk m c t) (yblk m c t) (mblk m c t) (outsAt0 m c (t.val - 1) (Nat.lt_of_le_of_lt (Nat.sub_le _ _) t.isLt)).2.2.2.1 ch s

/-- THE INVARIANT: after point `n` the accumulator's entry is the sum of the contributions of the points of
    `n`'s sample up to `n`. By induction on the point. -/
theorem accI_eq (c : Dev nD) (ch : Fin 2) (s : Fin 6) : ∀ (n : ℕ) (hn : n < cfg0.N),
    (outsAt0 m c n hn).2.2.2.1 (ix3 (0 : Fin 1) ch s) = ∑ j ∈ Finset.range (n % 8 + 1), ptIN m c ch s (n - n % 8 + j) := by
  intro n
  induction n with
  | zero =>
    intro hn
    refine (stepI_A m c ch s ⟨0, hn⟩ rfl).trans ?_
    rw [Finset.sum_range_one]
    unfold ptIN
    rw [dif_pos hn]
  | succ n ih =>
    intro hn
    by_cases h0 : (n + 1) % 8 = 0
    · refine (stepI_A m c ch s ⟨n + 1, hn⟩ h0).trans ?_
      rw [h0, Finset.sum_range_one]
      show ptI m c ch s ⟨n + 1, hn⟩ = ptIN m c ch s (n + 1)
      unfold ptIN
      rw [dif_pos hn]
    · refine (stepI_BC m c ch s ⟨n + 1, hn⟩ h0).trans ?_
      have e1 : (n + 1) % 8 + 1 = (n % 8 + 1) + 1 := by omega
      have e2 : n + 1 - (n + 1) % 8 = n - n % 8 := by omega
      have e3 : n - n % 8 + (n % 8 + 1) = n + 1 := by omega
      rw [e1, e2, Finset.sum_range_succ, e3]
      show (outsAt0 m c n _).2.2.2.1 (ix3 (0 : Fin 1) ch s) + _ = _
      rw [ih (Nat.lt_of_succ_lt hn)]
      unfold ptIN
      rw [dif_pos hn]

/-- After a sample's last slab the entry is the sum over the sample's eight slabs. -/
theorem accI_last (c : Dev nD) (ch : Fin 2) (s : Fin 6) (b : Fin 2) :
    (outsAt0 m c (ptOf b 7).val (ptOf b 7).isLt).2.2.2.1 (ix3 (0 : Fin 1) ch s) = ∑ d : Fin 8, slabI m c ch s b d := by
  rw [accI_eq m c ch s (ptOf b 7).val (ptOf b 7).isLt]
  have e1 : (ptOf b 7).val % 8 + 1 = 8 := by show (8 * b.val + 7) % 8 + 1 = 8; omega
  have e2 : (ptOf b 7).val - (ptOf b 7).val % 8 = 8 * b.val := by show (8 * b.val + 7) - (8 * b.val + 7) % 8 = 8 * b.val; omega
  rw [e1, e2, Finset.sum_range]
  refine Finset.sum_congr rfl fun d _ => ?_
  rw [← ptI_eq m c ch s b d]
  unfold ptIN
  rw [dif_pos (ptOf b d).isLt]

/-- What point `t` adds to entry `(ch, s)` of the probability accumulator: its block's sum of the entry's summand. -/
def ptP (c : Dev nD) (ch : Fin 2) (s : Fin 6) (t : Fin cfg0.N) : EReal :=
  ∑ r : Fin 2048, ∑ l : Fin 128, Cert.BlobDice.tP ch s
      (xblk m c t (ix5 (0 : Fin 1) (0 : Fin 2) (Body.rowPlane r) (Body.rowRow r) l))
      (xblk m c t (ix5 (0 : Fin 1) (1 : Fin 2) (Body.rowPlane r) (Body.rowRow r) l))
      (mblk m c t (ix5 (0 : Fin 1) (0 : Fin 1) (Body.rowPlane r) (Body.rowRow r) l))

/-- The same for any natural number, zero past the grid. -/
def ptPN (c : Dev nD) (ch : Fin 2) (s : Fin 6) (n : ℕ) : EReal := if h : n < cfg0.N then ptP m c ch s ⟨n, h⟩ else 0

/-- The sum of the entry's summand over depth slab `d` of sample `b` of the argument arrays. -/
def slabP (c : Dev nD) (ch : Fin 2) (s : Fin 6) (b : Fin 2) (d : Fin 8) : EReal :=
  ∑ r : Fin 2048, ∑ l : Fin 128, vP (argX m c) (argML m c) ch s b
    ⟨16 * d.val + r.val / 128, by have := d.isLt; have := r.isLt; omega⟩ ⟨r.val % 128, Nat.mod_lt _ (by norm_num)⟩ l

/-- A point's contribution is its slab's sum: the blocks read the argument arrays at sample `t / 8`, planes `16·(t % 8) + r / 128`. -/
theorem ptP_eq (c : Dev nD) (ch : Fin 2) (s : Fin 6) (b : Fin 2) (d : Fin 8) :
    ptP m c ch s (ptOf b d) = slabP m c ch s b d := by
  unfold ptP slabP
  have hb : smp (ptOf b d) = b := Fin.ext (by show (8 * b.val + d.val) / 8 = b.val; have := d.isLt; omega)
  have hd : ∀ z : Fin 16, pln (ptOf b d) z = ⟨16 * d.val + z.val, by have := d.isLt; have := z.isLt; omega⟩ := fun z =>
    Fin.ext (by show 16 * ((8 * b.val + d.val) % 8) + z.val = 16 * d.val + z.val; have := d.isLt; omega)
  refine Finset.sum_congr rfl fun r _ => Finset.sum_congr rfl fun l _ => ?_
  rw [xblk_apply, xblk_apply, mblk_apply, hb, hd]
  rfl

/-- At a sample's first slab the accumulator's entry is the point's contribution. -/
theorem stepP_A (c : Dev nD) (ch : Fin 2) (s : Fin 6) (t : Fin cfg0.N) (h0 : t.val % 8 = 0) :
    (outsAt0 m c t.val t.isLt).2.2.2.2.1 (ix3 (0 : Fin 1) ch s) = ptP m c ch s t := by
  refine (congrFun (accP_A m c t h0 (by omega)) (ix3 (0 : Fin 1) ch s)).trans ?_
  refine (Body.addP_apply (xblk m c t) (mblk m c t) (k0_pay2 (F := Ideal)) ch s).trans ?_
  rw [pay2_zero, zero_add]
  rfl

/-- At a later slab it is the entry the point before left plus the point's contribution. -/
theorem stepP_BC (c : Dev nD) (ch : Fin 2) (s : Fin 6) (t : Fin cfg0.N) (h0 : ¬t.val % 8 = 0) :
    (outsAt0 m c t.val t.isLt).2.2.2.2.1 (ix3 (0 : Fin 1) ch s)
      = (outsAt0 m c (t.val - 1) (Nat.lt_of_le_of_lt (Nat.sub_le _ _) t.isLt)).2.2.2.2.1 (ix3 (0 : Fin 1) ch s) + ptP m c ch s t := by
  by_cases h1 : t.val % 8 = 7
  · refine (congrFun (accP_C m c t h0 h1) (ix3 (0 : Fin 1) ch s)).trans ?_
    exact Body.addP_apply (xblk m c t) (mblk m c t) (outsAt0 m c (t.val - 1) (Nat.lt_of_le_of_lt (Nat.sub_le _ _) t.isLt)).2.2.2.2.1 ch s
  · refine (congrFun (accP_B m c t h0 h1) (ix3 (0 : Fin 1) ch s)).trans ?_
    exact Body.addP_apply (xblk m c t) (mblk m c t) (outsAt0 m c (t.val - 1) (Nat.lt_of_le_of_lt (Nat.sub_le _ _) t.isLt)).2.2.2.2.1 ch s

/-- THE INVARIANT: after point `n` the accumulator's entry is the sum of the contributions of the points of
    `n`'s sample up to `n`. By induction on the point. -/
theorem accP_eq (c : Dev nD) (ch : Fin 2) (s : Fin 6) : ∀ (n : ℕ) (hn : n < cfg0.N),
    (outsAt0 m c n hn).2.2.2.2.1 (ix3 (0 : Fin 1) ch s) = ∑ j ∈ Finset.range (n % 8 + 1), ptPN m c ch s (n - n % 8 + j) := by
  intro n
  induction n with
  | zero =>
    intro hn
    refine (stepP_A m c ch s ⟨0, hn⟩ rfl).trans ?_
    rw [Finset.sum_range_one]
    unfold ptPN
    rw [dif_pos hn]
  | succ n ih =>
    intro hn
    by_cases h0 : (n + 1) % 8 = 0
    · refine (stepP_A m c ch s ⟨n + 1, hn⟩ h0).trans ?_
      rw [h0, Finset.sum_range_one]
      show ptP m c ch s ⟨n + 1, hn⟩ = ptPN m c ch s (n + 1)
      unfold ptPN
      rw [dif_pos hn]
    · refine (stepP_BC m c ch s ⟨n + 1, hn⟩ h0).trans ?_
      have e1 : (n + 1) % 8 + 1 = (n % 8 + 1) + 1 := by omega
      have e2 : n + 1 - (n + 1) % 8 = n - n % 8 := by omega
      have e3 : n - n % 8 + (n % 8 + 1) = n + 1 := by omega
      rw [e1, e2, Finset.sum_range_succ, e3]
      show (outsAt0 m c n _).2.2.2.2.1 (ix3 (0 : Fin 1) ch s) + _ = _
      rw [ih (Nat.lt_of_succ_lt hn)]
      unfold ptPN
      rw [dif_pos hn]

/-- After a sample's last slab the entry is the sum over the sample's eight slabs. -/
theorem accP_last (c : Dev nD) (ch : Fin 2) (s : Fin 6) (b : Fin 2) :
    (outsAt0 m c (ptOf b 7).val (ptOf b 7).isLt).2.2.2.2.1 (ix3 (0 : Fin 1) ch s) = ∑ d : Fin 8, slabP m c ch s b d := by
  rw [accP_eq m c ch s (ptOf b 7).val (ptOf b 7).isLt]
  have e1 : (ptOf b 7).val % 8 + 1 = 8 := by show (8 * b.val + 7) % 8 + 1 = 8; omega
  have e2 : (ptOf b 7).val - (ptOf b 7).val % 8 = 8 * b.val := by show (8 * b.val + 7) - (8 * b.val + 7) % 8 = 8 * b.val; omega
  rw [e1, e2, Finset.sum_range]
  refine Finset.sum_congr rfl fun d _ => ?_
  rw [← ptP_eq m c ch s b d]
  unfold ptPN
  rw [dif_pos (ptOf b d).isLt]

/-- What point `t` adds to entry `(ch, s)` of the one-hot accumulator: its block's sum of the entry's summand. -/
def ptG (c : Dev nD) (ch : Fin 2) (s : Fin 6) (t : Fin cfg0.N) : EReal :=
  ∑ r : Fin 2048, ∑ l : Fin 128, Cert.BlobDice.tG ch s
      (yblk m c t (ix5 (0 : Fin 1) (0 : Fin 1) (Body.rowPlane r) (Body.rowRow r) l))
      (mblk m c t (ix5 (0 : Fin 1) (0 : Fin 1) (Body.rowPlane r) (Body.rowRow r) l))

/-- The same for any natural number, zero past the grid. -/
def ptGN (c : Dev nD) (ch : Fin 2) (s : Fin 6) (n : ℕ) : EReal := if h : n < cfg0.N then ptG m c ch s ⟨n, h⟩ else 0

/-- The sum of the entry's summand over depth slab `d` of sample `b` of the argument arrays. -/
def slabG (c : Dev nD) (ch : Fin 2) (s : Fin 6) (b : Fin 2) (d : Fin 8) : EReal :=
  ∑ r : Fin 2048, ∑ l : Fin 128, vG (argY m c) (argML m c) ch s b
    ⟨16 * d.val + r.val / 128, by have := d.isLt; have := r.isLt; omega⟩ ⟨r.val % 128, Nat.mod_lt _ (by norm_num)⟩ l

/-- A point's contribution is its slab's sum: the blocks read the argument arrays at sample `t / 8`, planes `16·(t % 8) + r / 128`. -/
theorem ptG_eq (c : Dev nD) (ch : Fin 2) (s : Fin 6) (b : Fin 2) (d : Fin 8) :
    ptG m c ch s (ptOf b d) = slabG m c ch s b d := by
  unfold ptG slabG
  have hb : smp (ptOf b d) = b := Fin.ext (by show (8 * b.val + d.val) / 8 = b.val; have := d.isLt; omega)
  have hd : ∀ z : Fin 16, pln (ptOf b d) z = ⟨16 * d.val + z.val, by have := d.isLt; have := z.isLt; omega⟩ := fun z =>
    Fin.ext (by show 16 * ((8 * b.val + d.val) % 8) + z.val = 16 * d.val + z.val; have := d.isLt; omega)
  refine Finset.sum_congr rfl fun r _ => Finset.sum_congr rfl fun l _ => ?_
  rw [yblk_apply, mblk_apply, hb, hd]
  rfl

/-- At a sample's first slab the accumulator's entry is the point's contribution. -/
theorem stepG_A (c : Dev nD) (ch : Fin 2) (s : Fin 6) (t : Fin cfg0.N) (h0 : t.val % 8 = 0) :
    (outsAt0 m c t.val t.isLt).2.2.2.2.2 (ix3 (0 : Fin 1) ch s) = ptG m c ch s t := by
  refine (congrFun (accG_A m c t h0 (by omega)) (ix3 (0 : Fin 1) ch s)).trans ?_
  refine (Body.addG_apply (yblk m c t) (mblk m c t) (k0_pay3 (F := Ideal)) ch s).trans ?_
  rw [pay3_zero, zero_add]
  rfl

/-- At a later slab it is the entry the point before left plus the point's contribution. -/
theorem stepG_BC (c : Dev nD) (ch : Fin 2) (s : Fin 6) (t : Fin cfg0.N) (h0 : ¬t.val % 8 = 0) :
    (outsAt0 m c t.val t.isLt).2.2.2.2.2 (ix3 (0 : Fin 1) ch s)
      = (outsAt0 m c (t.val - 1) (Nat.lt_of_le_of_lt (Nat.sub_le _ _) t.isLt)).2.2.2.2.2 (ix3 (0 : Fin 1) ch s) + ptG m c ch s t := by
  by_cases h1 : t.val % 8 = 7
  · refine (congrFun (accG_C m c t h0 h1) (ix3 (0 : Fin 1) ch s)).trans ?_
    exact Body.addG_apply (yblk m c t) (mblk m c t) (outsAt0 m c (t.val - 1) (Nat.lt_of_le_of_lt (Nat.sub_le _ _) t.isLt)).2.2.2.2.2 ch s
  · refine (congrFun (accG_B m c t h0 h1) (ix3 (0 : Fin 1) ch s)).trans ?_
    exact Body.addG_apply (yblk m c t) (mblk m c t) (outsAt0 m c (t.val - 1) (Nat.lt_of_le_of_lt (Nat.sub_le _ _) t.isLt)).2.2.2.2.2 ch s

/-- THE INVARIANT: after point `n` the accumulator's entry is the sum of the contributions of the points of
    `n`'s sample up to `n`. By induction on the point. -/
theorem accG_eq (c : Dev nD) (ch : Fin 2) (s : Fin 6) : ∀ (n : ℕ) (hn : n < cfg0.N),
    (outsAt0 m c n hn).2.2.2.2.2 (ix3 (0 : Fin 1) ch s) = ∑ j ∈ Finset.range (n % 8 + 1), ptGN m c ch s (n - n % 8 + j) := by
  intro n
  induction n with
  | zero =>
    intro hn
    refine (stepG_A m c ch s ⟨0, hn⟩ rfl).trans ?_
    rw [Finset.sum_range_one]
    unfold ptGN
    rw [dif_pos hn]
  | succ n ih =>
    intro hn
    by_cases h0 : (n + 1) % 8 = 0
    · refine (stepG_A m c ch s ⟨n + 1, hn⟩ h0).trans ?_
      rw [h0, Finset.sum_range_one]
      show ptG m c ch s ⟨n + 1, hn⟩ = ptGN m c ch s (n + 1)
      unfold ptGN
      rw [dif_pos hn]
    · refine (stepG_BC m c ch s ⟨n + 1, hn⟩ h0).trans ?_
      have e1 : (n + 1) % 8 + 1 = (n % 8 + 1) + 1 := by omega
      have e2 : n + 1 - (n + 1) % 8 = n - n % 8 := by omega
      have e3 : n - n % 8 + (n % 8 + 1) = n + 1 := by omega
      rw [e1, e2, Finset.sum_range_succ, e3]
      show (outsAt0 m c n _).2.2.2.2.2 (ix3 (0 : Fin 1) ch s) + _ = _
      rw [ih (Nat.lt_of_succ_lt hn)]
      unfold ptGN
      rw [dif_pos hn]

/-- After a sample's last slab the entry is the sum over the sample's eight slabs. -/
theorem accG_last (c : Dev nD) (ch : Fin 2) (s : Fin 6) (b : Fin 2) :
    (outsAt0 m c (ptOf b 7).val (ptOf b 7).isLt).2.2.2.2.2 (ix3 (0 : Fin 1) ch s) = ∑ d : Fin 8, slabG m c ch s b d := by
  rw [accG_eq m c ch s (ptOf b 7).val (ptOf b 7).isLt]
  have e1 : (ptOf b 7).val % 8 + 1 = 8 := by show (8 * b.val + 7) % 8 + 1 = 8; omega
  have e2 : (ptOf b 7).val - (ptOf b 7).val % 8 = 8 * b.val := by show (8 * b.val + 7) - (8 * b.val + 7) % 8 = 8 * b.val; omega
  rw [e1, e2, Finset.sum_range]
  refine Finset.sum_congr rfl fun d _ => ?_
  rw [← ptG_eq m c ch s b d]
  unfold ptGN
  rw [dif_pos (ptOf b d).isLt]

/-- What the probability × one-hot result array ends holding: at `(b, ch, s)` the sum over sample `b`'s eight slabs. -/
def arrI (c : Dev nD) : S2x2x6.Idx → EReal := fun i => ∑ d : Fin 8, slabI m c (i 1) (i 2) (i 0) d

/-- WHAT A SAMPLE'S LAST POINT WRITES BACK is its block of that array: the output block holds the accumulator's
    final contents, entry `(0, ch, s)` of the block is entry `(t / 8, ch, s)` of the array. -/
theorem flushedI_eq (c : Dev nD) (t : Fin cfg0.N) (hf : (cfg0.win 3).flush t = true) :
    (dats m 0 c).flushed 3 t = ((cfg0.win 3).blk t).view.read (Elt Ideal) (arrI m c) := by
  have h7 : t.val % 8 = 7 := (flush0_3 t).mp hf
  have hN : cfg0.N = 16 := N_0
  have ht : t = ptOf (smp t) 7 := Fin.ext (by show t.val = 8 * (t.val / 8) + 7; omega)
  obtain ⟨e0, e1, e2⟩ := idx_facts3 t
  show (cfg0.win 3).cut (grid0.coords t) ((dats m 0 c).after 3 t) = _
  rw [after0_3, outI_C m c t (by omega) h7, ← accI_C m c t (by omega) h7]
  funext j
  rw [View.read_apply]
  have hj0 : (j 0).val < 1 := (j 0).isLt
  have hj1 : (j 1).val < 2 := (j 1).isLt
  have hj2 : (j 2).val < 6 := (j 2).isLt
  have ex : (cfg0.win 3).xinj (grid0.coords t) j = ix3 (0 : Fin 1) (⟨(j 1).val, hj1⟩ : Fin 2) (⟨(j 2).val, hj2⟩ : Fin 6) := by
    funext a
    apply Fin.ext
    match a with
    | ⟨0, _⟩ => show (j 0).val = 0; omega
    | ⟨1, _⟩ => rfl
    | ⟨2, _⟩ => rfl
  have ee : ((cfg0.win 3).blk t).view.emb j = ix3 (smp t) (⟨(j 1).val, hj1⟩ : Fin 2) (⟨(j 2).val, hj2⟩ : Fin 6) := by
    funext a
    apply Fin.ext
    match a with
    | ⟨0, _⟩ => show win0_3.index t (0 : Fin 3) * 1 + 1 * (j 0).val = t.val / 8; rw [e0]; omega
    | ⟨1, _⟩ => show win0_3.index t (1 : Fin 3) * 2 + 1 * (j 1).val = (j 1).val; rw [e1]; omega
    | ⟨2, _⟩ => show win0_3.index t (2 : Fin 3) * 6 + 1 * (j 2).val = (j 2).val; rw [e2]; omega
  show (outsAt0 m c t.val t.isLt).2.2.2.1 ((cfg0.win 3).xinj (grid0.coords t) j) = arrI m c (((cfg0.win 3).blk t).view.emb j)
  rw [ex, ee]
  show _ = ∑ d : Fin 8, slabI m c (⟨(j 1).val, hj1⟩ : Fin 2) (⟨(j 2).val, hj2⟩ : Fin 6) (smp t) d
  rw [← accI_last m c (⟨(j 1).val, hj1⟩ : Fin 2) (⟨(j 2).val, hj2⟩ : Fin 6) (smp t)]
  have hv : ∀ (u : Fin cfg0.N), u = t → (outsAt0 m c t.val t.isLt).2.2.2.1 = (outsAt0 m c u.val u.isLt).2.2.2.1 := fun u hu => by subst hu; rfl
  exact congrFun (hv _ ht.symm) _

/-- Every entry of the array is in the block some sample's last point writes back. -/
theorem coverI (i : S2x2x6.Idx) : ∃ t : Fin cfg0.N, (cfg0.win 3).flush t = true ∧ i ∈ ((cfg0.win 3).blk t).view.set := by
  have hi0 : (i 0).val < 2 := (i 0).isLt
  have hi1 : (i 1).val < 2 := (i 1).isLt
  have hi2 : (i 2).val < 6 := (i 2).isLt
  have hN : cfg0.N = 16 := N_0
  refine ⟨ptOf ⟨(i 0).val, hi0⟩ 7, (flush0_3 _).mpr (by show (8 * (i 0).val + 7) % 8 = 7; omega), ?_⟩
  obtain ⟨e0, e1, e2⟩ := idx_facts3 (ptOf ⟨(i 0).val, hi0⟩ 7)
  have e0' : win0_3.index (ptOf ⟨(i 0).val, hi0⟩ 7) (0 : Fin 3) = (i 0).val := e0.trans (by show (8 * (i 0).val + 7) / 8 = (i 0).val; omega)
  show i ∈ ((View.whole main_v0_0).slice (win0_3.rect (ptOf ⟨(i 0).val, hi0⟩ 7))).set
  rw [View.set_slice_whole, Rect.mem_set_unit]
  intro a
  match a with
  | ⟨0, _⟩ => show win0_3.index (ptOf ⟨(i 0).val, hi0⟩ 7) (0 : Fin 3) * 1 ≤ (i 0).val ∧ (i 0).val < win0_3.index (ptOf ⟨(i 0).val, hi0⟩ 7) (0 : Fin 3) * 1 + 1; rw [e0']; omega
  | ⟨1, _⟩ => show win0_3.index (ptOf ⟨(i 0).val, hi0⟩ 7) (1 : Fin 3) * 2 ≤ (i 1).val ∧ (i 1).val < win0_3.index (ptOf ⟨(i 0).val, hi0⟩ 7) (1 : Fin 3) * 2 + 2; rw [e1]; omega
  | ⟨2, _⟩ => show win0_3.index (ptOf ⟨(i 0).val, hi0⟩ 7) (2 : Fin 3) * 6 ≤ (i 2).val ∧ (i 2).val < win0_3.index (ptOf ⟨(i 0).val, hi0⟩ 7) (2 : Fin 3) * 6 + 6; rw [e2]; omega

/-- So the result array ends holding the slab sums. -/
theorem arrAtI_eq (c : Dev nD) : (dats m 0 c).arrAt 3 cfg0.N = arrI m c :=
  (dats m 0 c).arrAt_eq_of_cover 3 (arrI m c) (flushedI_eq m c) (coverI)

/-- What the probability result array ends holding: at `(b, ch, s)` the sum over sample `b`'s eight slabs. -/
def arrP (c : Dev nD) : S2x2x6.Idx → EReal := fun i => ∑ d : Fin 8, slabP m c (i 1) (i 2) (i 0) d

/-- WHAT A SAMPLE'S LAST POINT WRITES BACK is its block of that array: the output block holds the accumulator's
    final contents, entry `(0, ch, s)` of the block is entry `(t / 8, ch, s)` of the array. -/
theorem flushedP_eq (c : Dev nD) (t : Fin cfg0.N) (hf : (cfg0.win 4).flush t = true) :
    (dats m 0 c).flushed 4 t = ((cfg0.win 4).blk t).view.read (Elt Ideal) (arrP m c) := by
  have h7 : t.val % 8 = 7 := (flush0_4 t).mp hf
  have hN : cfg0.N = 16 := N_0
  have ht : t = ptOf (smp t) 7 := Fin.ext (by show t.val = 8 * (t.val / 8) + 7; omega)
  obtain ⟨e0, e1, e2⟩ := idx_facts4 t
  show (cfg0.win 4).cut (grid0.coords t) ((dats m 0 c).after 4 t) = _
  rw [after0_4, outP_C m c t (by omega) h7, ← accP_C m c t (by omega) h7]
  funext j
  rw [View.read_apply]
  have hj0 : (j 0).val < 1 := (j 0).isLt
  have hj1 : (j 1).val < 2 := (j 1).isLt
  have hj2 : (j 2).val < 6 := (j 2).isLt
  have ex : (cfg0.win 4).xinj (grid0.coords t) j = ix3 (0 : Fin 1) (⟨(j 1).val, hj1⟩ : Fin 2) (⟨(j 2).val, hj2⟩ : Fin 6) := by
    funext a
    apply Fin.ext
    match a with
    | ⟨0, _⟩ => show (j 0).val = 0; omega
    | ⟨1, _⟩ => rfl
    | ⟨2, _⟩ => rfl
  have ee : ((cfg0.win 4).blk t).view.emb j = ix3 (smp t) (⟨(j 1).val, hj1⟩ : Fin 2) (⟨(j 2).val, hj2⟩ : Fin 6) := by
    funext a
    apply Fin.ext
    match a with
    | ⟨0, _⟩ => show win0_4.index t (0 : Fin 3) * 1 + 1 * (j 0).val = t.val / 8; rw [e0]; omega
    | ⟨1, _⟩ => show win0_4.index t (1 : Fin 3) * 2 + 1 * (j 1).val = (j 1).val; rw [e1]; omega
    | ⟨2, _⟩ => show win0_4.index t (2 : Fin 3) * 6 + 1 * (j 2).val = (j 2).val; rw [e2]; omega
  show (outsAt0 m c t.val t.isLt).2.2.2.2.1 ((cfg0.win 4).xinj (grid0.coords t) j) = arrP m c (((cfg0.win 4).blk t).view.emb j)
  rw [ex, ee]
  show _ = ∑ d : Fin 8, slabP m c (⟨(j 1).val, hj1⟩ : Fin 2) (⟨(j 2).val, hj2⟩ : Fin 6) (smp t) d
  rw [← accP_last m c (⟨(j 1).val, hj1⟩ : Fin 2) (⟨(j 2).val, hj2⟩ : Fin 6) (smp t)]
  have hv : ∀ (u : Fin cfg0.N), u = t → (outsAt0 m c t.val t.isLt).2.2.2.2.1 = (outsAt0 m c u.val u.isLt).2.2.2.2.1 := fun u hu => by subst hu; rfl
  exact congrFun (hv _ ht.symm) _

/-- Every entry of the array is in the block some sample's last point writes back. -/
theorem coverP (i : S2x2x6.Idx) : ∃ t : Fin cfg0.N, (cfg0.win 4).flush t = true ∧ i ∈ ((cfg0.win 4).blk t).view.set := by
  have hi0 : (i 0).val < 2 := (i 0).isLt
  have hi1 : (i 1).val < 2 := (i 1).isLt
  have hi2 : (i 2).val < 6 := (i 2).isLt
  have hN : cfg0.N = 16 := N_0
  refine ⟨ptOf ⟨(i 0).val, hi0⟩ 7, (flush0_4 _).mpr (by show (8 * (i 0).val + 7) % 8 = 7; omega), ?_⟩
  obtain ⟨e0, e1, e2⟩ := idx_facts4 (ptOf ⟨(i 0).val, hi0⟩ 7)
  have e0' : win0_4.index (ptOf ⟨(i 0).val, hi0⟩ 7) (0 : Fin 3) = (i 0).val := e0.trans (by show (8 * (i 0).val + 7) / 8 = (i 0).val; omega)
  show i ∈ ((View.whole main_v0_1).slice (win0_4.rect (ptOf ⟨(i 0).val, hi0⟩ 7))).set
  rw [View.set_slice_whole, Rect.mem_set_unit]
  intro a
  match a with
  | ⟨0, _⟩ => show win0_4.index (ptOf ⟨(i 0).val, hi0⟩ 7) (0 : Fin 3) * 1 ≤ (i 0).val ∧ (i 0).val < win0_4.index (ptOf ⟨(i 0).val, hi0⟩ 7) (0 : Fin 3) * 1 + 1; rw [e0']; omega
  | ⟨1, _⟩ => show win0_4.index (ptOf ⟨(i 0).val, hi0⟩ 7) (1 : Fin 3) * 2 ≤ (i 1).val ∧ (i 1).val < win0_4.index (ptOf ⟨(i 0).val, hi0⟩ 7) (1 : Fin 3) * 2 + 2; rw [e1]; omega
  | ⟨2, _⟩ => show win0_4.index (ptOf ⟨(i 0).val, hi0⟩ 7) (2 : Fin 3) * 6 ≤ (i 2).val ∧ (i 2).val < win0_4.index (ptOf ⟨(i 0).val, hi0⟩ 7) (2 : Fin 3) * 6 + 6; rw [e2]; omega

/-- So the result array ends holding the slab sums. -/
theorem arrAtP_eq (c : Dev nD) : (dats m 0 c).arrAt 4 cfg0.N = arrP m c :=
  (dats m 0 c).arrAt_eq_of_cover 4 (arrP m c) (flushedP_eq m c) (coverP)

/-- What the one-hot result array ends holding: at `(b, ch, s)` the sum over sample `b`'s eight slabs. -/
def arrG (c : Dev nD) : S2x2x6.Idx → EReal := fun i => ∑ d : Fin 8, slabG m c (i 1) (i 2) (i 0) d

/-- WHAT A SAMPLE'S LAST POINT WRITES BACK is its block of that array: the output block holds the accumulator's
    final contents, entry `(0, ch, s)` of the block is entry `(t / 8, ch, s)` of the array. -/
theorem flushedG_eq (c : Dev nD) (t : Fin cfg0.N) (hf : (cfg0.win 5).flush t = true) :
    (dats m 0 c).flushed 5 t = ((cfg0.win 5).blk t).view.read (Elt Ideal) (arrG m c) := by
  have h7 : t.val % 8 = 7 := (flush0_5 t).mp hf
  have hN : cfg0.N = 16 := N_0
  have ht : t = ptOf (smp t) 7 := Fin.ext (by show t.val = 8 * (t.val / 8) + 7; omega)
  obtain ⟨e0, e1, e2⟩ := idx_facts5 t
  show (cfg0.win 5).cut (grid0.coords t) ((dats m 0 c).after 5 t) = _
  rw [after0_5, outG_C m c t (by omega) h7, ← accG_C m c t (by omega) h7]
  funext j
  rw [View.read_apply]
  have hj0 : (j 0).val < 1 := (j 0).isLt
  have hj1 : (j 1).val < 2 := (j 1).isLt
  have hj2 : (j 2).val < 6 := (j 2).isLt
  have ex : (cfg0.win 5).xinj (grid0.coords t) j = ix3 (0 : Fin 1) (⟨(j 1).val, hj1⟩ : Fin 2) (⟨(j 2).val, hj2⟩ : Fin 6) := by
    funext a
    apply Fin.ext
    match a with
    | ⟨0, _⟩ => show (j 0).val = 0; omega
    | ⟨1, _⟩ => rfl
    | ⟨2, _⟩ => rfl
  have ee : ((cfg0.win 5).blk t).view.emb j = ix3 (smp t) (⟨(j 1).val, hj1⟩ : Fin 2) (⟨(j 2).val, hj2⟩ : Fin 6) := by
    funext a
    apply Fin.ext
    match a with
    | ⟨0, _⟩ => show win0_5.index t (0 : Fin 3) * 1 + 1 * (j 0).val = t.val / 8; rw [e0]; omega
    | ⟨1, _⟩ => show win0_5.index t (1 : Fin 3) * 2 + 1 * (j 1).val = (j 1).val; rw [e1]; omega
    | ⟨2, _⟩ => show win0_5.index t (2 : Fin 3) * 6 + 1 * (j 2).val = (j 2).val; rw [e2]; omega
  show (outsAt0 m c t.val t.isLt).2.2.2.2.2 ((cfg0.win 5).xinj (grid0.coords t) j) = arrG m c (((cfg0.win 5).blk t).view.emb j)
  rw [ex, ee]
  show _ = ∑ d : Fin 8, slabG m c (⟨(j 1).val, hj1⟩ : Fin 2) (⟨(j 2).val, hj2⟩ : Fin 6) (smp t) d
  rw [← accG_last m c (⟨(j 1).val, hj1⟩ : Fin 2) (⟨(j 2).val, hj2⟩ : Fin 6) (smp t)]
  have hv : ∀ (u : Fin cfg0.N), u = t → (outsAt0 m c t.val t.isLt).2.2.2.2.2 = (outsAt0 m c u.val u.isLt).2.2.2.2.2 := fun u hu => by subst hu; rfl
  exact congrFun (hv _ ht.symm) _

/-- Every entry of the array is in the block some sample's last point writes back. -/
theorem coverG (i : S2x2x6.Idx) : ∃ t : Fin cfg0.N, (cfg0.win 5).flush t = true ∧ i ∈ ((cfg0.win 5).blk t).view.set := by
  have hi0 : (i 0).val < 2 := (i 0).isLt
  have hi1 : (i 1).val < 2 := (i 1).isLt
  have hi2 : (i 2).val < 6 := (i 2).isLt
  have hN : cfg0.N = 16 := N_0
  refine ⟨ptOf ⟨(i 0).val, hi0⟩ 7, (flush0_5 _).mpr (by show (8 * (i 0).val + 7) % 8 = 7; omega), ?_⟩
  obtain ⟨e0, e1, e2⟩ := idx_facts5 (ptOf ⟨(i 0).val, hi0⟩ 7)
  have e0' : win0_5.index (ptOf ⟨(i 0).val, hi0⟩ 7) (0 : Fin 3) = (i 0).val := e0.trans (by show (8 * (i 0).val + 7) / 8 = (i 0).val; omega)
  show i ∈ ((View.whole main_v0_2).slice (win0_5.rect (ptOf ⟨(i 0).val, hi0⟩ 7))).set
  rw [View.set_slice_whole, Rect.mem_set_unit]
  intro a
  match a with
  | ⟨0, _⟩ => show win0_5.index (ptOf ⟨(i 0).val, hi0⟩ 7) (0 : Fin 3) * 1 ≤ (i 0).val ∧ (i 0).val < win0_5.index (ptOf ⟨(i 0).val, hi0⟩ 7) (0 : Fin 3) * 1 + 1; rw [e0']; omega
  | ⟨1, _⟩ => show win0_5.index (ptOf ⟨(i 0).val, hi0⟩ 7) (1 : Fin 3) * 2 ≤ (i 1).val ∧ (i 1).val < win0_5.index (ptOf ⟨(i 0).val, hi0⟩ 7) (1 : Fin 3) * 2 + 2; rw [e1]; omega
  | ⟨2, _⟩ => show win0_5.index (ptOf ⟨(i 0).val, hi0⟩ 7) (2 : Fin 3) * 6 ≤ (i 2).val ∧ (i 2).val < win0_5.index (ptOf ⟨(i 0).val, hi0⟩ 7) (2 : Fin 3) * 6 + 6; rw [e2]; omega

/-- So the result array ends holding the slab sums. -/
theorem arrAtG_eq (c : Dev nD) : (dats m 0 c).arrAt 5 cfg0.N = arrG m c :=
  (dats m 0 c).arrAt_eq_of_cover 5 (arrG m c) (flushedG_eq m c) (coverG)

/-- The three result arrays after the call, on core `c`, at entry `(b, ch, s)`: the depth-blocked voxel sums. -/
theorem final_I (c : Dev nD) (b : Fin 2) (ch : Fin 2) (s : Fin 6) :
    ((dats m 0 c).arrAt 3 cfg0.N : S2x2x6.Idx → EReal) (ix3 b ch s) = sumSlabs (vI (argX m c) (argY m c) (argML m c) ch s b) :=
  congrFun (arrAtI_eq m c) (ix3 b ch s)
theorem final_P (c : Dev nD) (b : Fin 2) (ch : Fin 2) (s : Fin 6) :
    ((dats m 0 c).arrAt 4 cfg0.N : S2x2x6.Idx → EReal) (ix3 b ch s) = sumSlabs (vP (argX m c) (argML m c) ch s b) :=
  congrFun (arrAtP_eq m c) (ix3 b ch s)
theorem final_G (c : Dev nD) (b : Fin 2) (ch : Fin 2) (s : Fin 6) :
    ((dats m 0 c).arrAt 5 cfg0.N : S2x2x6.Idx → EReal) (ix3 b ch s) = sumSlabs (vG (argY m c) (argML m c) ch s b) :=
  congrFun (arrAtG_eq m c) (ix3 b ch s)

end Cert.KernelIdeal.Final

end
-- ==== Proof.KernelTail.lean ====
/-
  The host lines after the kernel's one call, as one function of the three arrays of sums the call returns, and
  that function read at its one index: the loss in the arrangement that keeps the six variants in one array.
-/
import proofs.«404392_j2800318677066_2_alg».proof.KernelIdeal
import proofs.«404392_j2800318677066_2_alg».proof.Proof.Spec
import Idealize.ShloMosaic.Lib.Pipeline.Value
import Idealize.ShloMosaic.Lib.IdealHost
import Idealize.ShloMosaic.PureOps.Ideal.Laws

noncomputable section

open scoped BigOperators

namespace Cert.KernelIdeal.Tail

open Cert.KernelIdeal Idealize.ShloMosaic Idealize.ShloMosaic.ValueIdx
open Cert.KernelIdeal.Facts₀ Cert.KernelIdeal.Facts
open Cert.BlobDice (ZERO ONE TWO FIVE HALF EPS)

variable [Cert.KernelIdeal.Facts]

/-- The forty host operations after the call, composed: from the sums `I` (probability × one-hot), `P` (probability),
    `G` (one-hot), each of shape [2, 2, 6], to the scalar loss. -/
def tailK {F : FTy → Type} [FloatOps F] (I P G : FVec F S2x2x6 .f32) : FVec F S_ .f32 :=
  let v2 : FVec F S2x2x6 .f32 := mulf (broadcastInDim S2x2x6 ![] bcast_S_S2x2x6 (constant S_ .f32 0x40000000#32)) I
  let v3 : FVec F S2x2x6 .f32 := addf P G
  let v5 : FVec F S2x2x6 .f32 := maximumf v3 (broadcastInDim S2x2x6 ![] bcast_S_S2x2x6 (constant S_ .f32 0x322BCC77#32))
  let v6 : FVec F S2x2x6 .f32 := Host.divf v2 v5
  let v7 : FVec F S2x6 .f32 := Host.reduceAdd v6 (constant S_ .f32 0x00000000#32) reducesTo_S2x2x6_S2x6_d1 h_S_
  let v9 : FVec F S2x6 .f32 := Host.divf v7 (broadcastInDim S2x6 ![] bcast_S_S2x6 (constant S_ .f32 0x40000000#32))
  let v10 : FVec F S2x1 .f32 := extractStridedSlice S2x1 ![0, 0] v9 slices_S2x6_S2x1_0_0
  let v11 : FVec F S2 .f32 := shapeCast S2 v10 shapeCasts_S2x1_S2
  let v12 : FVec F S_ .f32 := Host.reduceAdd v11 (constant S_ .f32 0x00000000#32) reducesTo_S2_S_d0 h_S_
  let v13 : FVec F S_ .f32 := Host.divf v12 (constant S_ .f32 0x40000000#32)
  let v14 : FVec F S_ .f32 := Host.negf v13
  let v15 : FVec F S_ .f32 := mulf v14 (constant S_ .f32 0x3F000000#32)
  let v16 : FVec F S2x5 .f32 := extractStridedSlice S2x5 ![0, 1] v9 slices_S2x6_S2x5_0_1
  let v17 : FVec F S2 .f32 := Host.reduceAdd v16 (constant S_ .f32 0x00000000#32) reducesTo_S2x5_S2_d1 h_S_
  let v19 : FVec F S2 .f32 := Host.divf v17 (broadcastInDim S2 ![] bcast_S_S2 (constant S_ .f32 0x40A00000#32))
  let v20 : FVec F S_ .f32 := Host.reduceAdd v19 (constant S_ .f32 0x00000000#32) reducesTo_S2_S_d0 h_S_
  let v21 : FVec F S_ .f32 := Host.divf v20 (constant S_ .f32 0x40000000#32)
  let v22 : FVec F S_ .f32 := Host.negf v21
  let v23 : FVec F S_ .f32 := mulf v22 (constant S_ .f32 0x3F000000#32)
  let v24 : FVec F S_ .f32 := mulf (constant S_ .f32 0x40000000#32) v15
  let v25 : FVec F S_ .f32 := mulf (constant S_ .f32 0x3F800000#32) v23
  addf v24 v25

/-! ## The three sums read at an index -/

/-- The sum over the class axis of a [2, 2, 6] array, from the zero word: at (b, s) the zero plus the sum over ch. -/
theorem sumClass_apply (x : FVec Ideal S2x2x6 .f32) (b : Fin 2) (s : Fin 6) :
    Host.reduceAdd (F := Ideal) x (constant (F := Ideal) S_ .f32 0x00000000#32) reducesTo_S2x2x6_S2x6_d1 h_S_ (ix2 b s)
      = ZERO + ∑ ch : Fin 2, x (ix3 b ch s) := by
  refine (hostReduceAdd_apply x _ reducesTo_S2x2x6_S2x6_d1 h_S_ (ix2 b s)).trans ?_
  refine (Ideal.hostReduceAdd_single reducesTo_S2x2x6_S2x6_d1 (by decide) x _ (ix2 b s)).trans ?_
  refine congrArg (_ + ·) (Finset.sum_congr rfl fun k _ => ?_)
  exact congrArg x (funext fun a => Fin.ext (by match a with | ⟨0, _⟩ => rfl | ⟨1, _⟩ => rfl | ⟨2, _⟩ => rfl))

/-- The sum over the second axis of a [2, 5] array, from the zero word. -/
theorem sumBlob_apply (x : FVec Ideal S2x5 .f32) (b : Fin 2) :
    Host.reduceAdd (F := Ideal) x (constant (F := Ideal) S_ .f32 0x00000000#32) reducesTo_S2x5_S2_d1 h_S_ (ix1 b)
      = ZERO + ∑ k : Fin 5, x (ix2 b k) := by
  refine (hostReduceAdd_apply x _ reducesTo_S2x5_S2_d1 h_S_ (ix1 b)).trans ?_
  refine (Ideal.hostReduceAdd_single reducesTo_S2x5_S2_d1 (by decide) x _ (ix1 b)).trans ?_
  refine congrArg (_ + ·) (Finset.sum_congr rfl fun k _ => ?_)
  exact congrArg x (funext fun a => Fin.ext (by match a with | ⟨0, _⟩ => rfl | ⟨1, _⟩ => rfl))

/-- A rank-1 index set is its coordinate's range. -/
def idxEquiv1 {n : Nat} : (⟨1, ![n]⟩ : Shape).Idx ≃ Fin n where
  toFun i := i 0
  invFun b := ix1 b
  left_inv i := (eq_ix1 i).symm
  right_inv _ := rfl

/-- The sum over the one axis of a [2] array, from the zero word, read at the scalar's index: every index of the
    array is summed, and the indices are the two coordinates. -/
theorem sumSample_apply (x : FVec Ideal S2 .f32) (j : S_.Idx) :
    Host.reduceAdd (F := Ideal) x (constant (F := Ideal) S_ .f32 0x00000000#32) reducesTo_S2_S_d0 h_S_ j
      = ZERO + ∑ b : Fin 2, x (ix1 b) := by
  refine (hostReduceAdd_apply x _ reducesTo_S2_S_d0 h_S_ j).trans ?_
  refine (Ideal.hostReduceAdd_total reducesTo_S2_S_d0 (fun b => b.elim0) x _ j).trans ?_
  exact congrArg (_ + ·) (Equiv.sum_comp (idxEquiv1 (n := 2)).symm x).symm

/-! ## The two slices and the recast read at an index -/

/-- The first column of a [2, 6] array as a [2, 1] array, read at (b, 0). -/
theorem sliceMain_apply (y : FVec Ideal S2x6 .f32) (b : Fin 2) :
    extractStridedSlice S2x1 ![0, 0] y slices_S2x6_S2x1_0_0 (ix2 b (0 : Fin 1)) = y (ix2 b (0 : Fin 6)) :=
  extractStridedSlice_apply _ y slices_S2x6_S2x1_0_0 _ _ (fun a => by
    match a with
    | ⟨0, _⟩ => show b.val = 0 + b.val; omega
    | ⟨1, _⟩ => rfl)

/-- Columns 1 to 5 of a [2, 6] array as a [2, 5] array, read at (b, k): the array at (b, k + 1). -/
theorem sliceBlob_apply (y : FVec Ideal S2x6 .f32) (b : Fin 2) (k : Fin 5) :
    extractStridedSlice S2x5 ![0, 1] y slices_S2x6_S2x5_0_1 (ix2 b k) = y (ix2 b k.succ) :=
  extractStridedSlice_apply _ y slices_S2x6_S2x5_0_1 _ _ (fun a => by
    match a with
    | ⟨0, _⟩ => show b.val = 0 + b.val; omega
    | ⟨1, _⟩ => show k.val + 1 = 1 + k.val; omega)

/-- A [2, 1] array recast as a [2] array, read at b: the array at (b, 0). -/
theorem castMain_apply (y : FVec Ideal S2x1 .f32) (b : Fin 2) :
    shapeCast S2 y shapeCasts_S2x1_S2 (ix1 b) = y (ix2 b (0 : Fin 1)) :=
  shapeCast_apply y shapeCasts_S2x1_S2 _ _ (by
    rw [Shape.rowMajor_val_one, Shape.rowMajor_val_two]
    show b.val * 1 + 0 = b.val; omega)

/-! ## The lines in four groups, each read at an index -/

/-- The Dice quotients: twice the first array over the maximum of the sum of the other two and the floor. -/
def dcK (I P G : FVec Ideal S2x2x6 .f32) : FVec Ideal S2x2x6 .f32 :=
  Host.divf (F := Ideal)
    (mulf (broadcastInDim S2x2x6 ![] bcast_S_S2x2x6 (constant (F := Ideal) S_ .f32 0x40000000#32)) I)
    (maximumf (addf P G) (broadcastInDim S2x2x6 ![] bcast_S_S2x2x6 (constant (F := Ideal) S_ .f32 0x322BCC77#32)))

/-- The mean over the classes: the sum over the class axis, divided by two. -/
def cmK (x : FVec Ideal S2x2x6 .f32) : FVec Ideal S2x6 .f32 :=
  Host.divf (F := Ideal)
    (Host.reduceAdd (F := Ideal) x (constant (F := Ideal) S_ .f32 0x00000000#32) reducesTo_S2x2x6_S2x6_d1 h_S_)
    (broadcastInDim S2x6 ![] bcast_S_S2x6 (constant (F := Ideal) S_ .f32 0x40000000#32))

/-- Variant 0's part: its column, the mean over the samples, negated, times one half. -/
def mainK (y : FVec Ideal S2x6 .f32) : FVec Ideal S_ .f32 :=
  mulf (Host.negf (F := Ideal) (Host.divf (F := Ideal)
      (Host.reduceAdd (F := Ideal) (shapeCast S2 (extractStridedSlice S2x1 ![0, 0] y slices_S2x6_S2x1_0_0) shapeCasts_S2x1_S2)
        (constant (F := Ideal) S_ .f32 0x00000000#32) reducesTo_S2_S_d0 h_S_)
      (constant (F := Ideal) S_ .f32 0x40000000#32)))
    (constant (F := Ideal) S_ .f32 0x3F000000#32)

/-- The blob variants' part: their five columns, the mean over them, the mean over the samples, negated, times one
    half. -/
def blobK (y : FVec Ideal S2x6 .f32) : FVec Ideal S_ .f32 :=
  mulf (Host.negf (F := Ideal) (Host.divf (F := Ideal)
      (Host.reduceAdd (F := Ideal)
        (Host.divf (F := Ideal)
          (Host.reduceAdd (F := Ideal) (extractStridedSlice S2x5 ![0, 1] y slices_S2x6_S2x5_0_1)
            (constant (F := Ideal) S_ .f32 0x00000000#32) reducesTo_S2x5_S2_d1 h_S_)
          (broadcastInDim S2 ![] bcast_S_S2 (constant (F := Ideal) S_ .f32 0x40A00000#32)))
        (constant (F := Ideal) S_ .f32 0x00000000#32) reducesTo_S2_S_d0 h_S_)
      (constant (F := Ideal) S_ .f32 0x40000000#32)))
    (constant (F := Ideal) S_ .f32 0x3F000000#32)

/-- The composed host lines are the weighted sum of the two parts over the class means of the Dice quotients. -/
theorem tailK_split (I P G : FVec Ideal S2x2x6 .f32) (j : S_.Idx) :
    tailK (F := Ideal) I P G j = TWO * mainK (cmK (dcK I P G)) j + ONE * blobK (cmK (dcK I P G)) j := rfl

/-- A Dice quotient at (b, ch, s). -/
theorem dcK_apply (I P G : FVec Ideal S2x2x6 .f32) (i : S2x2x6.Idx) :
    dcK I P G i = Ideal.div (TWO * I i) (max (P i + G i) EPS) := rfl

/-- A class mean at (b, s): the zero plus the sum over the classes, divided by two. -/
theorem cmK_apply (x : FVec Ideal S2x2x6 .f32) (b : Fin 2) (s : Fin 6) :
    cmK x (ix2 b s) = Ideal.div (ZERO + ∑ ch : Fin 2, x (ix3 b ch s)) TWO :=
  congrArg (fun t => Ideal.div t TWO) (sumClass_apply x b s)

/-- Variant 0's part at the scalar's index. -/
theorem mainK_apply (y : FVec Ideal S2x6 .f32) (j : S_.Idx) :
    mainK y j = (-(Ideal.div (ZERO + ∑ b : Fin 2, y (ix2 b (0 : Fin 6))) TWO)) * HALF := by
  refine (congrArg (fun t => (-(Ideal.div t TWO)) * HALF) (sumSample_apply _ j)).trans ?_
  refine congrArg (fun t => (-(Ideal.div (ZERO + t) TWO)) * HALF) (Finset.sum_congr rfl fun b _ => ?_)
  exact (castMain_apply _ b).trans (sliceMain_apply y b)

/-- The blob variants' part at the scalar's index. -/
theorem blobK_apply (y : FVec Ideal S2x6 .f32) (j : S_.Idx) :
    blobK y j = (-(Ideal.div (ZERO + ∑ b : Fin 2, Ideal.div (ZERO + ∑ k : Fin 5, y (ix2 b k.succ)) FIVE) TWO)) * HALF := by
  refine (congrArg (fun t => (-(Ideal.div t TWO)) * HALF) (sumSample_apply _ j)).trans ?_
  refine congrArg (fun t => (-(Ideal.div (ZERO + t) TWO)) * HALF) (Finset.sum_congr rfl fun b _ => ?_)
  refine (congrArg (fun t => Ideal.div t FIVE) (sumBlob_apply _ b)).trans ?_
  refine congrArg (fun t => Ideal.div (ZERO + t) FIVE) (Finset.sum_congr rfl fun k _ => ?_)
  exact sliceBlob_apply y b k

/-- The composed host lines at the exact instance, read at the scalar's one index: the stacked arrangement of the
    loss over the entries of the three arrays. -/
theorem tailK_apply (I P G : FVec Ideal S2x2x6 .f32) (j : S_.Idx) :
    tailK (F := Ideal) I P G j
      = Cert.BlobDice.lossStacked (fun b ch s => I (ix3 b ch s)) (fun b ch s => P (ix3 b ch s)) (fun b ch s => G (ix3 b ch s)) := by
  refine (tailK_split I P G j).trans ?_
  rw [mainK_apply, blobK_apply]
  simp only [cmK_apply, dcK_apply]
  rfl

end Cert.KernelIdeal.Tail

end
-- ==== Proof.KernelRun.lean ====
/-
  The kernel's run with its result read as a value: given what the three result arrays hold after the call (any three
  functions `I`, `P`, `G` of the entry), the host lines after the call leave the result at the stacked arrangement of the
  loss over them, and the arguments are unchanged.
-/
import proofs.«404392_j2800318677066_2_alg».proof.Proof.Gen.KernelIdeal.Frame
import proofs.«404392_j2800318677066_2_alg».proof.Proof.KernelTail
import proofs.«404392_j2800318677066_2_alg».proof.Proof.Spec
import Idealize.ShloMosaic.Lib.Pipeline.Value
import Idealize.ShloMosaic.Lib.StableHlo.Run

set_option maxRecDepth 16384

noncomputable section

open scoped BigOperators

namespace Cert.KernelIdeal.Run

open Cert.KernelIdeal Cert.KernelIdeal.Gen Idealize.ShloMosaic Idealize.ShloMosaic.ValueIdx Idealize.ShloMosaic.TcCoe Idealize.SL.Sem
open Cert.BlobDice (lossStacked)

variable (m : (ℓ : Loc nD τ sig) → Buf (Elt Ideal) ℓ) (ρ : Dev nD → PrngReg)

/-- With one stretch of host lines after the call, what a buffer holds at the end is the stretch run from the contents
    the call leaves: the call's arrays at their final contents, every other buffer as at the call's entry. -/
theorem tail_one (ops : List (HloOp τ sig (Elt Ideal))) (c : Dev nD) (b : Ref sig .tc) :
    Pipeline.afterTail₀ cfgs (dats m) 0 (V0 m) [ops] c b
      = StableHlo.after ops (Pipeline.withArrays (cfgs 0).spec c (V0 m c) fun w => (dats m 0 c).arrAt w (cfgs 0).N) (Proc.devRef .tc b) := by
  unfold Pipeline.afterTail₀
  simp only [List.flatten_cons, List.flatten_nil, List.append_nil]

/-- The forty host lines run from any contents `W` leave in the result buffer their composition applied to what `W`
    holds at the call's three result buffers. -/
theorem tail_after (W : Valuation τ sig (Elt Ideal)) :
    StableHlo.after (hostOps1 (F := Ideal)) W (Proc.devRef .tc main_v26)
      = Tail.tailK (F := Ideal) (W (Proc.devRef .tc main_v0_0)) (W (Proc.devRef .tc main_v0_1)) (W (Proc.devRef .tc main_v0_2)) := by
  after_results_simp
  rfl

/-- If on every core the three result arrays of the call hold `I c`, `P c`, `G c` entry by entry, every weakly fair
    execution of the idealized kernel program terminates with the result at the stacked arrangement of the loss over them,
    and the arguments unchanged. -/
theorem kernel_run_of_finals (I P G : Dev nD → Fin 2 → Fin 2 → Fin 6 → EReal)
    (hI : ∀ (c : Dev nD) (b : Fin 2) (ch : Fin 2) (s : Fin 6), ((dats m 0 c).arrAt 3 cfg0.N : S2x2x6.Idx → EReal) (ix3 b ch s) = I c b ch s)
    (hP : ∀ (c : Dev nD) (b : Fin 2) (ch : Fin 2) (s : Fin 6), ((dats m 0 c).arrAt 4 cfg0.N : S2x2x6.Idx → EReal) (ix3 b ch s) = P c b ch s)
    (hG : ∀ (c : Dev nD) (b : Fin 2) (ch : Fin 2) (s : Fin 6), ((dats m 0 c).arrAt 5 cfg0.N : S2x2x6.Idx → EReal) (ix3 b ch s) = G c b ch s) :
    θ_run (defs (F := Ideal)) (onTc (τ := τ) (main (F := Ideal))) ⟨m, fun _ => 0, ρ⟩ (fun r => ∀ c : Dev nD,
      r.2.mem ((c.tc : Thread nD τ).loc main_v26) = (fun _ => lossStacked (I c) (P c) (G c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ⟨?_, ?_, ?_, ?_⟩) (run_main m ρ)
  · have hmem : main_v26 ∈ Pipeline.restRefs sig (cfgs 0).spec := Pipeline.mem_restRefs_of main_v26 rfl (by decide)
    refine ((h c).2 main_v26 hmem).trans ?_
    refine (tail_one m hostOps1 c main_v26).trans ?_
    refine (tail_after _).trans ?_
    funext j
    refine (Tail.tailK_apply _ _ _ j).trans ?_
    refine congr (congr (congrArg lossStacked (funext fun b => funext fun ch => funext fun s => ?_))
      (funext fun b => funext fun ch => funext fun s => ?_)) (funext fun b => funext fun ch => funext fun s => ?_)
    · exact (congrFun (Pipeline.withArrays_arr spec0 launch0.win.arr_inj c (V0 m c) (fun w => (dats m 0 c).arrAt w cfg0.N) 3) (ix3 b ch s)).trans (hI c b ch s)
    · exact (congrFun (Pipeline.withArrays_arr spec0 launch0.win.arr_inj c (V0 m c) (fun w => (dats m 0 c).arrAt w cfg0.N) 4) (ix3 b ch s)).trans (hP c b ch s)
    · exact (congrFun (Pipeline.withArrays_arr spec0 launch0.win.arr_inj c (V0 m c) (fun w => (dats m 0 c).arrAt w cfg0.N) 5) (ix3 b ch s)).trans (hG c b ch s)
  · exact ((h c).1 0).trans (((dats m 0 c).arrAt_in 0 rfl _).trans ((A_eq m c 0).trans (V_main_arg0 m c)))
  · exact ((h c).1 1).trans (((dats m 0 c).arrAt_in 1 rfl _).trans ((A_eq m c 1).trans (V_main_arg1 m c)))
  · exact ((h c).1 2).trans (((dats m 0 c).arrAt_in 2 rfl _).trans ((A_eq m c 2).trans (V_main_arg2 m c)))

end Cert.KernelIdeal.Run

end
-- ==== Proof.lean ====
/-
  The certificate of the blob-wise Dice loss: a one-pass kernel that accumulates, per sample, class and variant, the
  three voxel sums slab by slab and combines the 24 Dice quotients in one array, against a reference that scores the
  six variants one after the other with a two-class softmax.  Under the precondition (finite logits, binary labels
  0 or 1) both end at one extended real: per voxel the softmax of two real logits is the logistic of their
  difference and its complement and the one-hot of a 0/1 label is the label and its complement; a voxel sum does
  not depend on the order it is added in; every sum is real, and on real sums the two arrangements of the final
  linear combination agree.  The three frames are the generated ones (the reference's: its run with the result
  dropped); the idealization rewrote nothing.
-/
import proofs.«404392_j2800318677066_2_alg».proof.Defs
import proofs.«404392_j2800318677066_2_alg».proof.Proof.Gen.Kernel
import proofs.«404392_j2800318677066_2_alg».proof.Proof.Gen.Kernel.Frame
import proofs.«404392_j2800318677066_2_alg».proof.Proof.Gen.KernelIdeal
import proofs.«404392_j2800318677066_2_alg».proof.Proof.Gen.KernelIdeal.Frame
import proofs.«404392_j2800318677066_2_alg».proof.Proof.Gen.ReferenceIdeal
import proofs.«404392_j2800318677066_2_alg».proof.Proof.Gen.Pre_finite_inputs
import proofs.«404392_j2800318677066_2_alg».proof.Proof.RefRunP
import proofs.«404392_j2800318677066_2_alg».proof.Proof.RefRun
import proofs.«404392_j2800318677066_2_alg».proof.Proof.RefAsm
import proofs.«404392_j2800318677066_2_alg».proof.Proof.PreDecode
import proofs.«404392_j2800318677066_2_alg».proof.Proof.Bridge
import proofs.«404392_j2800318677066_2_alg».proof.Proof.KernelFinal
import proofs.«404392_j2800318677066_2_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel program runs and keeps its arguments: the generated frame. -/
theorem frame_kernel : Cert.frame_Kernel := fun m ρ _ => Cert.Kernel.Gen.frame m ρ

/-- The idealized kernel program runs and keeps its arguments: the generated frame. -/
theorem frame_kernelIdeal : Cert.frame_KernelIdeal := fun m ρ _ => Cert.KernelIdeal.Gen.frame m ρ

/-- The reference runs and keeps its arguments: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both programs end at the same loss: the kernel's at the stacked
    arrangement over the depth-blocked sums, the reference's at the separate arrangement over the coordinate-order
    sums, one extended real for real logits and 0/1 labels. -/
theorem algebraic : Cert.algebraic_KernelIdeal_ReferenceIdeal := by
  intro m ρ m' ρ' hpre hagree
  have hdec := fun c : Dev Cert.KernelIdeal.nD =>
    Cert.BlobDice.pre_decode (Cert.KernelIdeal.Final.argX m c) (Cert.KernelIdeal.Final.argY m c) (Cert.KernelIdeal.Final.argML m c) (hpre c)
  refine ⟨_, Cert.KernelIdeal.Run.kernel_run_of_finals m ρ _ _ _
    (Cert.KernelIdeal.Final.final_I m) (Cert.KernelIdeal.Final.final_P m) (Cert.KernelIdeal.Final.final_G m), ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.RefRun.res_eq_refTerm, (hagree c).1, (hagree c).2.1, (hagree c).2.2]
  rw [Cert.ReferenceIdeal.Asm.refTerm_eq _ _ _ (hdec c).1 (hdec c).2]
  funext _
  exact (Cert.BlobDice.stacked_eq_separate _ _ _ (hdec c).1).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
